-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg1 : IVec S2x1000000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S2x1000000 32 := broadcastInDim S2x1000000 ![] bcast_S_S2x1000000 main_c_8
  let main_v25 : IVec S2x1000000 1 := cmpi .sge main_arg1 main_v24
  let main_c_9 : IVec S_ 32 := constantI S_ 32 50000#32
  let main_v26 : IVec S2x1000000 32 := broadcastInDim S2x1000000 ![] bcast_S_S2x1000000 main_c_9
  let main_v27 : IVec S2x1000000 1 := cmpi .slt main_arg1 main_v26
  let main_v28 : IVec S2x1000000 1 := andi main_v25 main_v27
  let main_c_10 : IVec S_ 1 := constantI S_ 1 1#1
  let main_v29 : IVec S_ 1 := (fun x v => Host.reduce IntOp.andi x v reducesTo_S2x1000000_S_d0_1 h_S_) main_v28 main_c_10
  let main_v30 : IVec S_ 1 := andi main_v23 main_v29
  main_v30

def fn {F : FTy → Type} [FloatOps F] (main_arg0 : FVec F S50000x64 .f32) (main_arg1 : IVec S2x1000000 32) (main_arg2 : FVec F S64x64 .f32) (main_arg3 : FVec F S64 .f32) (main_arg4 : FVec F S64x32 .f32) (main_arg5 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S50000x64 : Shape := ⟨2, ![50000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S50000 : Shape := ⟨1, ![50000]⟩
abbrev S1050000 : Shape := ⟨1, ![1050000]⟩
abbrev S_ : Shape := ⟨0, ![]⟩
abbrev S1050000x1 : Shape := ⟨2, ![1050000, 1]⟩
abbrev S112 : Shape := ⟨1, ![112]⟩
abbrev S1050112 : Shape := ⟨1, ![1050112]⟩
abbrev S1x1050112 : Shape := ⟨2, ![1, 1050112]⟩
abbrev S50176x64 : Shape := ⟨2, ![50176, 64]⟩
abbrev S6272x64 : Shape := ⟨2, ![6272, 64]⟩
abbrev S1x256 : Shape := ⟨2, ![1, 256]⟩
abbrev S256 : Shape := ⟨1, ![256]⟩
abbrev S256x64 : Shape := ⟨2, ![256, 64]⟩
abbrev S1x6272 : Shape := ⟨2, ![1, 6272]⟩
abbrev S256x1 : Shape := ⟨2, ![256, 1]⟩
abbrev S256x6272 : Shape := ⟨2, ![256, 6272]⟩
abbrev S6272x1 : Shape := ⟨2, ![6272, 1]⟩
abbrev S6272x256 : Shape := ⟨2, ![6272, 256]⟩
abbrev S1x64 : Shape := ⟨2, ![1, 64]⟩
abbrev S50176x32 : Shape := ⟨2, ![50176, 32]⟩
abbrev S6272x32 : Shape := ⟨2, ![6272, 32]⟩
abbrev S256x32 : Shape := ⟨2, ![256, 32]⟩
abbrev S1x32 : Shape := ⟨2, ![1, 32]⟩
abbrev S50000x32 : Shape := ⟨2, ![50000, 32]⟩

abbrev nBuf : Space → Nat
  | .hbm => 64
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S50000, .i32⟩
  | .hbm, ⟨11, _⟩ => ⟨S1050000, .i32⟩
  | .hbm, ⟨12, _⟩ => ⟨S1050000, .i32⟩
  | .hbm, ⟨13, _⟩ => ⟨S_, .f32⟩
  | .hbm, ⟨14, _⟩ => ⟨S1050000, .f32⟩
  | .hbm, ⟨15, _⟩ => ⟨S_, .f32⟩
  | .hbm, ⟨16, _⟩ => ⟨S50000, .f32⟩
  | .hbm, ⟨17, _⟩ => ⟨S1050000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1050000, .i32⟩
  | .hbm, ⟨29, _⟩ => ⟨S1050000, .i1⟩
  | .hbm, ⟨30, _⟩ => ⟨S_, .i32⟩
  | .hbm, ⟨31, _⟩ => ⟨S1050000, .i32⟩
  | .hbm, ⟨32, _⟩ => ⟨S1050000, .i32⟩
  | .hbm, ⟨33, _⟩ => ⟨S1050000, .i32⟩
  | .hbm, ⟨34, _⟩ => ⟨S1050000x1, .i32⟩
  | .hbm, ⟨35, _⟩ => ⟨S1050000, .f32⟩
  | .hbm, ⟨36, _⟩ => ⟨S_, .i32⟩
  | .hbm, ⟨37, _⟩ => ⟨S1050000, .i32⟩
  | .hbm, ⟨38, _⟩ => ⟨S1050000, .i1⟩
  | .hbm, ⟨39, _⟩ => ⟨S_, .i32⟩
  | .hbm, ⟨40, _⟩ => ⟨S1050000, .i32⟩
  | .hbm, ⟨41, _⟩ => ⟨S1050000, .i32⟩
  | .hbm, ⟨42, _⟩ => ⟨S1050000, .i32⟩
  | .hbm, ⟨43, _⟩ => ⟨S1050000x1, .i32⟩
  | .hbm, ⟨44, _⟩ => ⟨S1050000, .f32⟩
  | .hbm, ⟨45, _⟩ => ⟨S1050000, .f32⟩
  | .hbm, ⟨46, _⟩ => ⟨S_, .i32⟩
  | .hbm, ⟨47, _⟩ => ⟨S112, .i32⟩
  | .hbm, ⟨48, _⟩ => ⟨S_, .f32⟩
  | .hbm, ⟨49, _⟩ => ⟨S112, .f32⟩
  | .hbm, ⟨50, _⟩ => ⟨S1050112, .i32⟩
  | .hbm, ⟨51, _⟩ => ⟨S1050112, .i32⟩
  | .hbm, ⟨52, _⟩ => ⟨S1050112, .f32⟩
  | .hbm, ⟨53, _⟩ => ⟨S1x1050112, .i32⟩
  | .hbm, ⟨54, _⟩ => ⟨S1x1050112, .i32⟩
  | .hbm, ⟨55, _⟩ => ⟨S1x1050112, .f32⟩
  | .hbm, ⟨56, _⟩ => ⟨S_, .i32⟩
  | .hbm, ⟨57, _⟩ => ⟨S_, .f32⟩
  | .hbm, ⟨58, _⟩ => ⟨S50176x64, .f32⟩
  | .hbm, ⟨59, _⟩ => ⟨S50176x64, .bf16⟩
  | .hbm, ⟨60, _⟩ => ⟨S50176x64, .f32⟩
  | .hbm, ⟨61, _⟩ => ⟨S50176x32, .bf16⟩
  | .hbm, ⟨62, _⟩ => ⟨S50176x32, .f32⟩
  | .hbm, ⟨63, _⟩ => ⟨S50000x32, .f32⟩
  | .local _ .vmem, ⟨0, _⟩ => ⟨S6272x64, .f32⟩
  | .local _ .vmem, ⟨1, _⟩ => ⟨S6272x64, .f32⟩
  | .local _ .vmem, ⟨2, _⟩ => ⟨S64x64, .f32⟩
  | .local _ .vmem, ⟨3, _⟩ => ⟨S6272x64, .bf16⟩
  | .local _ .vmem, ⟨4, _⟩ => ⟨S6272x64, .bf16⟩
  | .local _ .vmem, ⟨5, _⟩ => ⟨S50176x64, .bf16⟩
  | .local _ .vmem, ⟨6, _⟩ => ⟨S1x256, .i32⟩
  | .local _ .vmem, ⟨7, _⟩ => ⟨S1x256, .i32⟩
  | .local _ .vmem, ⟨8, _⟩ => ⟨S1x256, .i32⟩
  | .local _ .vmem, ⟨9, _⟩ => ⟨S1x256, .i32⟩
  | .local _ .vmem, ⟨10, _⟩ => ⟨S1x256, .f32⟩
  | .local _ .vmem, ⟨11, _⟩ => ⟨S1x256, .f32⟩
  | .local _ .vmem, ⟨12, _⟩ => ⟨S64, .f32⟩
  | .local _ .vmem, ⟨13, _⟩ => ⟨S50176x64, .f32⟩
  | .local _ .vmem, ⟨14, _⟩ => ⟨S6272x64, .f32⟩
  | .local _ .vmem, ⟨15, _⟩ => ⟨S6272x64, .f32⟩
  | .local _ .vmem, ⟨16, _⟩ => ⟨S64x32, .f32⟩
  | .local _ .vmem, ⟨17, _⟩ => ⟨S6272x32, .bf16⟩
  | .local _ .vmem, ⟨18, _⟩ => ⟨S6272x32, .bf16⟩
  | .local _ .vmem, ⟨19, _⟩ => ⟨S50176x32, .bf16⟩
  | .local _ .vmem, ⟨20, _⟩ => ⟨S1x256, .i32⟩
  | .local _ .vmem, ⟨21, _⟩ => ⟨S1x256, .i32⟩
  | .local _ .vmem, ⟨22, _⟩ => ⟨S1x256, .i32⟩
  | .local _ .vmem, ⟨23, _⟩ => ⟨S1x256, .i32⟩
  | .local _ .vmem, ⟨24, _⟩ => ⟨S1x256, .f32⟩
  | .local _ .vmem, ⟨25, _⟩ => ⟨S1x256, .f32⟩
  | .local _ .vmem, ⟨26, _⟩ => ⟨S32, .f32⟩
  | .local _ .vmem, ⟨27, _⟩ => ⟨S50176x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6272x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6272x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4102], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S50176x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S50176x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6272x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6272x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4102], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S50176x32 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S50176x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S50000_S1050000_d0 : Shape.Concatenates [S1000000, S50000] S1050000 0
  bcast_S_S1050000 : S_.BroadcastsInDim S1050000 (![] : Fin 0 → Fin S1050000.rank)
  bcast_S_S50000 : S_.BroadcastsInDim S50000 (![] : Fin 0 → Fin S50000.rank)
  bcast_S1050000_S1050000x1_0 : S1050000.BroadcastsInDim S1050000x1 (![0] : Fin 1 → Fin S1050000x1.rank)
  bcast_S_S112 : S_.BroadcastsInDim S112 (![] : Fin 0 → Fin S112.rank)
  concatenates_S1050000_S112_S1050112_d0 : Shape.Concatenates [S1050000, S112] S1050112 0
  shapeCasts_S1050112_S1x1050112 : S1050112.ShapeCasts S1x1050112
  pads_S50000x64_S50176x64_01760_000 : S50000x64.Pads (![0, 0] : Fin 2 → Nat) ![176, 0] ![0, 0] S50176x64
  h_S_ : 0 < S_.numel
  inb_S6272x64_S6272x64_0_0 : ∀ a, (![0, 0] : Fin 2 → Nat) a + S6272x64.size a ≤ S6272x64.size a
  h_S6272x64 : 0 < S6272x64.numel
  shapeCasts_S6272x64_S6272x64 : S6272x64.ShapeCasts S6272x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S6272x64_S6272x64_0_0 : (Rect.unit (s := S6272x64) ![0, 0] S6272x64.size inb_S6272x64_S6272x64_0_0).PackedRows (EltTy.packing .bf16)
  inb_S50176x64_S50176x64_0_0 : ∀ a, (![0, 0] : Fin 2 → Nat) a + S50176x64.size a ≤ S50176x64.size a
  h_S50176x64 : 0 < S50176x64.numel
  inb_S1x256_S1x256_0_0 : ∀ a, (![0, 0] : Fin 2 → Nat) a + S1x256.size a ≤ S1x256.size a
  h_S1x256 : 0 < S1x256.numel
  shapeCasts_S1x256_S256 : S1x256.ShapeCasts S256
  inb_S50176x64_S6272x64_0_0 : ∀ a, (![0, 0] : Fin 2 → Nat) a + S6272x64.size a ≤ S50176x64.size a
  iota_S1x6272_d1_w32 : S1x6272.Iotas .tc 32 [1]
  shapeCasts_S256_S256x1 : S256.ShapeCasts S256x1
  broadcasts_S256x1_S256x6272 : S256x1.Broadcasts S256x6272
  broadcasts_S1x6272_S256x6272 : S1x6272.Broadcasts S256x6272
  natLt_1_32 : 1 < 32
  inb_S50176x64_S6272x64_6272_0 : ∀ a, (![6272, 0] : Fin 2 → Nat) a + S6272x64.size a ≤ S50176x64.size a
  inb_S50176x64_S6272x64_12544_0 : ∀ a, (![12544, 0] : Fin 2 → Nat) a + S6272x64.size a ≤ S50176x64.size a
  inb_S50176x64_S6272x64_18816_0 : ∀ a, (![18816, 0] : Fin 2 → Nat) a + S6272x64.size a ≤ S50176x64.size a
  inb_S50176x64_S6272x64_25088_0 : ∀ a, (![25088, 0] : Fin 2 → Nat) a + S6272x64.size a ≤ S50176x64.size a
  inb_S50176x64_S6272x64_31360_0 : ∀ a, (![31360, 0] : Fin 2 → Nat) a + S6272x64.size a ≤ S50176x64.size a
  inb_S50176x64_S6272x64_37632_0 : ∀ a, (![37632, 0] : Fin 2 → Nat) a + S6272x64.size a ≤ S50176x64.size a
  inb_S50176x64_S6272x64_43904_0 : ∀ a, (![43904, 0] : Fin 2 → Nat) a + S6272x64.size a ≤ S50176x64.size a
  broadcasts_S256x1_S256x64 : S256x1.Broadcasts S256x64
  iota_S6272x1_d0_w32 : S6272x1.Iotas .tc 32 [0]
  shapeCasts_S256_S1x256 : S256.ShapeCasts S1x256
  broadcasts_S6272x1_S6272x256 : S6272x1.Broadcasts S6272x256
  broadcasts_S1x256_S6272x256 : S1x256.Broadcasts S6272x256
  shapeCasts_S50176x64_S50176x64 : S50176x64.ShapeCasts S50176x64
  inb_S64_S64_0 : ∀ a, (![0] : Fin 1 → Nat) a + S64.size a ≤ S64.size a
  h_S64 : 0 < S64.numel
  shapeCasts_S64_S1x64 : S64.ShapeCasts S1x64
  broadcasts_S1x64_S50176x64 : S1x64.Broadcasts S50176x64
  inb_S64x32_S64x32_0_0 : ∀ a, (![0, 0] : Fin 2 → Nat) a + S64x32.size a ≤ S64x32.size a
  h_S64x32 : 0 < S64x32.numel
  inb_S6272x32_S6272x32_0_0 : ∀ a, (![0, 0] : Fin 2 → Nat) a + S6272x32.size a ≤ S6272x32.size a
  h_S6272x32 : 0 < S6272x32.numel
  packedbf16_S6272x32_S6272x32_0_0 : (Rect.unit (s := S6272x32) ![0, 0] S6272x32.size inb_S6272x32_S6272x32_0_0).PackedRows (EltTy.packing .bf16)
  inb_S50176x32_S50176x32_0_0 : ∀ a, (![0, 0] : Fin 2 → Nat) a + S50176x32.size a ≤ S50176x32.size a
  h_S50176x32 : 0 < S50176x32.numel
  inb_S50176x32_S6272x32_0_0 : ∀ a, (![0, 0] : Fin 2 → Nat) a + S6272x32.size a ≤ S50176x32.size a
  shapeCasts_S6272x32_S6272x32 : S6272x32.ShapeCasts S6272x32
  inb_S50176x32_S6272x32_6272_0 : ∀ a, (![6272, 0] : Fin 2 → Nat) a + S6272x32.size a ≤ S50176x32.size a
  inb_S50176x32_S6272x32_12544_0 : ∀ a, (![12544, 0] : Fin 2 → Nat) a + S6272x32.size a ≤ S50176x32.size a
  inb_S50176x32_S6272x32_18816_0 : ∀ a, (![18816, 0] : Fin 2 → Nat) a + S6272x32.size a ≤ S50176x32.size a
  inb_S50176x32_S6272x32_25088_0 : ∀ a, (![25088, 0] : Fin 2 → Nat) a + S6272x32.size a ≤ S50176x32.size a
  inb_S50176x32_S6272x32_31360_0 : ∀ a, (![31360, 0] : Fin 2 → Nat) a + S6272x32.size a ≤ S50176x32.size a
  inb_S50176x32_S6272x32_37632_0 : ∀ a, (![37632, 0] : Fin 2 → Nat) a + S6272x32.size a ≤ S50176x32.size a
  inb_S50176x32_S6272x32_43904_0 : ∀ a, (![43904, 0] : Fin 2 → Nat) a + S6272x32.size a ≤ S50176x32.size a
  broadcasts_S256x1_S256x32 : S256x1.Broadcasts S256x32
  shapeCasts_S50176x32_S50176x32 : S50176x32.ShapeCasts S50176x32
  inb_S32_S32_0 : ∀ a, (![0] : Fin 1 → Nat) a + S32.size a ≤ S32.size a
  h_S32 : 0 < S32.numel
  shapeCasts_S32_S1x32 : S32.ShapeCasts S1x32
  broadcasts_S1x32_S50176x32 : S1x32.Broadcasts S50176x32
  slices_S50176x32_S50000x32_0_0 : S50176x32.Slices ![0, 0] S50000x32
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  dot_S6272x64_S64x64_S6272x64_1_0_0_1_n_n_wf : DotDims.WF S6272x64 S64x64 S6272x64 [1] [0] [0] [1] [] []
  dot_S256x6272_S6272x64_S256x64_1_0_0_1_n_n_wf : DotDims.WF S256x6272 S6272x64 S256x64 [1] [0] [0] [1] [] []
  dot_S6272x256_S256x64_S6272x64_1_0_0_1_n_n_wf : DotDims.WF S6272x256 S256x64 S6272x64 [1] [0] [0] [1] [] []
  dot_S6272x64_S64x32_S6272x32_1_0_0_1_n_n_wf : DotDims.WF S6272x64 S64x32 S6272x32 [1] [0] [0] [1] [] []
  dot_S256x6272_S6272x32_S256x32_1_0_0_1_n_n_wf : DotDims.WF S256x6272 S6272x32 S256x32 [1] [0] [0] [1] [] []
  dot_S6272x256_S256x32_S6272x32_1_0_0_1_n_n_wf : DotDims.WF S6272x256 S256x32 S6272x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x64.size a ≤ S50176x64.size a
  hwx0_0 : ∀ i : grid0.Coords, EltTy.bits .f32 = 32 ∨ (Rect.block (s := S50176x64) S6272x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6272x64.size a ≤ S50176x64.size a
  hwx0_2 : ∀ i : grid0.Coords, EltTy.bits .bf16 = 32 ∨ (Rect.block (s := S50176x64) S6272x64.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S50176x64.size a ≤ S50176x64.size a
  hwx1_0 : ∀ i : grid1.Coords, EltTy.bits .bf16 = 32 ∨ (Rect.block (s := S50176x64) S50176x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x1050112.size a
  hwx1_1 : ∀ i : grid1.Coords, EltTy.bits .i32 = 32 ∨ (Rect.block (s := S1x1050112) S1x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x1050112.size a
  hwx1_2 : ∀ i : grid1.Coords, EltTy.bits .i32 = 32 ∨ (Rect.block (s := S1x1050112) S1x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x1050112.size a
  hwx1_3 : ∀ i : grid1.Coords, EltTy.bits .f32 = 32 ∨ (Rect.block (s := S1x1050112) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S50176x64.size a ≤ S50176x64.size a
  hwx1_5 : ∀ i : grid1.Coords, EltTy.bits .f32 = 32 ∨ (Rect.block (s := S50176x64) S50176x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6272x64.size a ≤ S50176x64.size a
  hwx2_0 : ∀ i : grid2.Coords, EltTy.bits .f32 = 32 ∨ (Rect.block (s := S50176x64) S6272x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6272x32.size a ≤ S50176x32.size a
  hwx2_2 : ∀ i : grid2.Coords, EltTy.bits .bf16 = 32 ∨ (Rect.block (s := S50176x32) S6272x32.size (cc2_transform_2 i) (hinb2_2 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S50176x32.size a ≤ S50176x32.size a
  hwx3_0 : ∀ i : grid3.Coords, EltTy.bits .bf16 = 32 ∨ (Rect.block (s := S50176x32) S50176x32.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x1050112.size a
  hwx3_1 : ∀ i : grid3.Coords, EltTy.bits .i32 = 32 ∨ (Rect.block (s := S1x1050112) S1x256.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x1050112.size a
  hwx3_2 : ∀ i : grid3.Coords, EltTy.bits .i32 = 32 ∨ (Rect.block (s := S1x1050112) S1x256.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x1050112.size a
  hwx3_3 : ∀ i : grid3.Coords, EltTy.bits .f32 = 32 ∨ (Rect.block (s := S1x1050112) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32.size a ≤ S32.size a
  hwx3_4 : ∀ i : grid3.Coords, EltTy.bits .f32 = 32 ∨ (Rect.block (s := S32) S32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S50176x32.size a ≤ S50176x32.size a
  hwx3_5 : ∀ i : grid3.Coords, EltTy.bits .f32 = 32 ∨ (Rect.block (s := S50176x32) S50176x32.size (cc3_transform_5 i) (hinb3_5 i)).WholeWords (EltTy.packing .f32)

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def dot_S6272x64_S64x64_S6272x64_1_0_0_1_n_n : DotDims S6272x64 S64x64 S6272x64 where
  lhsContracting := [1]
  rhsContracting := [0]
  lhsNonContracting := [0]
  rhsNonContracting := [1]
  lhsBatch := []
  rhsBatch := []
  wf := dot_S6272x64_S64x64_S6272x64_1_0_0_1_n_n_wf
def dot_S256x6272_S6272x64_S256x64_1_0_0_1_n_n : DotDims S256x6272 S6272x64 S256x64 where
  lhsContracting := [1]
  rhsContracting := [0]
  lhsNonContracting := [0]
  rhsNonContracting := [1]
  lhsBatch := []
  rhsBatch := []
  wf := dot_S256x6272_S6272x64_S256x64_1_0_0_1_n_n_wf
def dot_S6272x256_S256x64_S6272x64_1_0_0_1_n_n : DotDims S6272x256 S256x64 S6272x64 where
  lhsContracting := [1]
  rhsContracting := [0]
  lhsNonContracting := [0]
  rhsNonContracting := [1]
  lhsBatch := []
  rhsBatch := []
  wf := dot_S6272x256_S256x64_S6272x64_1_0_0_1_n_n_wf
def dot_S6272x64_S64x32_S6272x32_1_0_0_1_n_n : DotDims S6272x64 S64x32 S6272x32 where
  lhsContracting := [1]
  rhsContracting := [0]
  lhsNonContracting := [0]
  rhsNonContracting := [1]
  lhsBatch := []
  rhsBatch := []
  wf := dot_S6272x64_S64x32_S6272x32_1_0_0_1_n_n_wf
def dot_S256x6272_S6272x32_S256x32_1_0_0_1_n_n : DotDims S256x6272 S6272x32 S256x32 where
  lhsContracting := [1]
  rhsContracting := [0]
  lhsNonContracting := [0]
  rhsNonContracting := [1]
  lhsBatch := []
  rhsBatch := []
  wf := dot_S256x6272_S6272x32_S256x32_1_0_0_1_n_n_wf
def dot_S6272x256_S256x32_S6272x32_1_0_0_1_n_n : DotDims S6272x256 S256x32 S6272x32 where
  lhsContracting := [1]
  rhsContracting := [0]
  lhsNonContracting := [0]
  rhsNonContracting := [1]
  lhsBatch := []
  rhsBatch := []
  wf := dot_S6272x256_S256x32_S6272x32_1_0_0_1_n_n_wf

abbrev win0_0 : Pipeline.Window sig grid0 :=
  Pipeline.Window.ofSpec (Memref.whole main_v38) S6272x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S6272x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S50176x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S50176x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S6272x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S6272x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S50176x32.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S50176x32.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S50000 : Shape := ⟨1, ![50000]⟩
abbrev S1050000 : Shape := ⟨1, ![1050000]⟩
abbrev S_ : Shape := ⟨0, ![]⟩
abbrev S1050000x1 : Shape := ⟨2, ![1050000, 1]⟩
abbrev S1050000x64 : Shape := ⟨2, ![1050000, 64]⟩
abbrev S1x64 : Shape := ⟨2, ![1, 64]⟩
abbrev S50000x32 : Shape := ⟨2, ![50000, 32]⟩
abbrev S1050000x32 : Shape := ⟨2, ![1050000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S50000x64, .f32⟩
  | 1 => ⟨S2x1000000, .i32⟩
  | 2 => ⟨S64x64, .f32⟩
  | 3 => ⟨S64, .f32⟩
  | 4 => ⟨S64x32, .f32⟩
  | 5 => ⟨S32, .f32⟩
  | 6 => ⟨S50000x64, .f32⟩
  | 7 => ⟨S1x1000000, .i32⟩
  | 8 => ⟨S1000000, .i32⟩
  | 9 => ⟨S1x1000000, .i32⟩
  | 10 => ⟨S1000000, .i32⟩
  | 11 => ⟨S50000, .i32⟩
  | 12 => ⟨S1050000, .i32⟩
  | 13 => ⟨S1050000, .i32⟩
  | 14 => ⟨S_, .f32⟩
  | 15 => ⟨S1050000, .f32⟩
  | 16 => ⟨S_, .f32⟩
  | 17 => ⟨S50000, .f32⟩
  | 18 => ⟨S1050000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1050000, .i32⟩
  | 30 => ⟨S1050000, .i1⟩
  | 31 => ⟨S_, .i32⟩
  | 32 => ⟨S1050000, .i32⟩
  | 33 => ⟨S1050000, .i32⟩
  | 34 => ⟨S1050000, .i32⟩
  | 35 => ⟨S1050000x1, .i32⟩
  | 36 => ⟨S1050000, .f32⟩
  | 37 => ⟨S_, .i32⟩
  | 38 => ⟨S1050000, .i32⟩
  | 39 => ⟨S1050000, .i1⟩
  | 40 => ⟨S_, .i32⟩
  | 41 => ⟨S1050000, .i32⟩
  | 42 => ⟨S1050000, .i32⟩
  | 43 => ⟨S1050000, .i32⟩
  | 44 => ⟨S1050000x1, .i32⟩
  | 45 => ⟨S1050000, .f32⟩
  | 46 => ⟨S1050000, .f32⟩
  | 47 => ⟨S_, .i32⟩
  | 48 => ⟨S1050000, .i32⟩
  | 49 => ⟨S1050000, .i1⟩
  | 50 => ⟨S_, .i32⟩
  | 51 => ⟨S1050000, .i32⟩
  | 52 => ⟨S1050000, .i32⟩
  | 53 => ⟨S1050000, .i32⟩
  | 54 => ⟨S1050000x1, .i32⟩
  | 55 => ⟨S1050000x64, .f32⟩
  | 56 => ⟨S1050000x1, .f32⟩
  | 57 => ⟨S1050000x64, .f32⟩
  | 58 => ⟨S1050000x64, .f32⟩
  | 59 => ⟨S_, .f32⟩
  | 60 => ⟨S50000x64, .f32⟩
  | 61 => ⟨S1050000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x32, .f32⟩
  | 70 => ⟨S1x1000000, .i32⟩
  | 71 => ⟨S1000000, .i32⟩
  | 72 => ⟨S1x1000000, .i32⟩
  | 73 => ⟨S1000000, .i32⟩
  | 74 => ⟨S50000, .i32⟩
  | 75 => ⟨S1050000, .i32⟩
  | 76 => ⟨S1050000, .i32⟩
  | 77 => ⟨S_, .f32⟩
  | 78 => ⟨S1050000, .f32⟩
  | 79 => ⟨S_, .f32⟩
  | 80 => ⟨S50000, .f32⟩
  | 81 => ⟨S1050000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S1050000, .i32⟩
  | 93 => ⟨S1050000, .i1⟩
  | 94 => ⟨S_, .i32⟩
  | 95 => ⟨S1050000, .i32⟩
  | 96 => ⟨S1050000, .i32⟩
  | 97 => ⟨S1050000, .i32⟩
  | 98 => ⟨S1050000x1, .i32⟩
  | 99 => ⟨S1050000, .f32⟩
  | 100 => ⟨S_, .i32⟩
  | 101 => ⟨S1050000, .i32⟩
  | 102 => ⟨S1050000, .i1⟩
  | 103 => ⟨S_, .i32⟩
  | 104 => ⟨S1050000, .i32⟩
  | 105 => ⟨S1050000, .i32⟩
  | 106 => ⟨S1050000, .i32⟩
  | 107 => ⟨S1050000x1, .i32⟩
  | 108 => ⟨S1050000, .f32⟩
  | 109 => ⟨S1050000, .f32⟩
  | 110 => ⟨S_, .i32⟩
  | 111 => ⟨S1050000, .i32⟩
  | 112 => ⟨S1050000, .i1⟩
  | 113 => ⟨S_, .i32⟩
  | 114 => ⟨S1050000, .i32⟩
  | 115 => ⟨S1050000, .i32⟩
  | 116 => ⟨S1050000, .i32⟩
  | 117 => ⟨S1050000x1, .i32⟩
  | 118 => ⟨S1050000x32, .f32⟩
  | 119 => ⟨S1050000x1, .f32⟩
  | 120 => ⟨S1050000x32, .f32⟩
  | 121 => ⟨S1050000x32, .f32⟩
  | 122 => ⟨S_, .f32⟩
  | 123 => ⟨S50000x32, .f32⟩
  | 124 => ⟨S1050000x1, .i32⟩
  | 125 => ⟨S50000x32, .f32⟩
  | 126 => ⟨S1x32, .f32⟩
  | 127 => ⟨S50000x32, .f32⟩
  | _ => ⟨S50000x64, .f32⟩

abbrev hbmTy0_1 (i : Nat) : BufTy := match i % 128 with
  | 0 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S50000_S1050000_d0 : Shape.Concatenates [S1000000, S50000] S1050000 0
  bcast_S_S1050000 : S_.BroadcastsInDim S1050000 (![] : Fin 0 → Fin S1050000.rank)
  bcast_S_S50000 : S_.BroadcastsInDim S50000 (![] : Fin 0 → Fin S50000.rank)
  bcast_S1050000_S1050000x1_0 : S1050000.BroadcastsInDim S1050000x1 (![0] : Fin 1 → Fin S1050000x1.rank)
  bcast_S1050000x1_S1050000x64_0_1 : S1050000x1.BroadcastsInDim S1050000x64 (![0, 1] : Fin 2 → Fin S1050000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1050000x1_S1050000x32_0_1 : S1050000x1.BroadcastsInDim S1050000x32 (![0, 1] : Fin 2 → Fin S1050000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x64_S64x64_S50000x64_1_0_0_1_n_n_wf : DotDims.WF S50000x64 S64x64 S50000x64 [1] [0] [0] [1] [] []
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S50000x64_S64x32_S50000x32_1_0_0_1_n_n_wf : DotDims.WF S50000x64 S64x32 S50000x32 [1] [0] [0] [1] [] []
  gather_S50000x32_S1050000x1_S1050000x32_1_0_n_n_0_1_132_wf : GatherDims.WF S50000x32 S1050000x1 S1050000x32 [1] [0] [] [0] [] 1 ![1, 32]
  scatter_S50000x32_S1050000x1_S1050000x32_1_0_0_1_wf : ScatterDims.WF S50000x32 S1050000x1 S1050000x32 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1050000x1_S1050000x32_1_0_n_n_0_1_132 : GatherDims S50000x32 S1050000x1 S1050000x32 where
  offsetDims := [1]
  collapsedSliceDims := [0]
  operandBatchingDims := []
  startIndicesBatchingDims := []
  startIndexMap := [0]
  indexVectorDim := 1
  sliceSizes := ![1, 32]
  wf := gather_S50000x32_S1050000x1_S1050000x32_1_0_n_n_0_1_132_wf
def scatter_S50000x32_S1050000x1_S1050000x32_1_0_0_1 : ScatterDims S50000x32 S1050000x1 S1050000x32 where
  updateWindowDims := [1]
  insertedWindowDims := [0]
  scatterDimsToOperandDims := [0]
  indexVectorDim := 1
  wf := scatter_S50000x32_S1050000x1_S1050000x32_1_0_0_1_wf

class Facts : Prop extends Facts₀ where

variable [Facts]
-- ==== Proof.KHost.lean ====
/-
  The host stretches of the kernel program, read as pure functions of the arguments.

  Before the first region the program builds, from the two rows of the edge index, the padded edge lists the
  aggregation regions walk — the sources and the destinations with the 50000 self-loops appended and then 112 zeros,
  as 1 × 1050112 rows — and each edge's weight: the product of the inverse square roots of the degrees of its two
  ends (the degree counts the edges arriving at a node, self-loop included; a node of degree zero gets zero), followed
  by 112 zero weights. It also pads the node features with 176 zero rows. After the last region it keeps the first
  50000 rows of the result.
-/
import proofs.«429772_j53867479827167_3_alg».proof.Proof.Gen.KernelIdeal.Frame
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- Row 0 of the edge index with the self-loops appended: the sources. -/
def srcFull (x1 : (⟨S2x1000000, .i32⟩ : BufTy).Contents (Elt F)) : (⟨S1050000, .i32⟩ : BufTy).Contents (Elt F) :=
  concatenate S1050000 0 [⟨S1000000, shapeCast S1000000 (extractStridedSlice S1x1000000 ![0, 0] x1 slices_S2x1000000_S1x1000000_0_0) shapeCasts_S1x1000000_S1000000⟩, ⟨S50000, iotaInDim S50000 32 0⟩] concatenates_S1000000_S50000_S1050000_d0

/-- Row 1 of the edge index with the self-loops appended: the destinations. -/
def dstFull (x1 : (⟨S2x1000000, .i32⟩ : BufTy).Contents (Elt F)) : (⟨S1050000, .i32⟩ : BufTy).Contents (Elt F) :=
  concatenate S1050000 0 [⟨S1000000, shapeCast S1000000 (extractStridedSlice S1x1000000 ![1, 0] x1 slices_S2x1000000_S1x1000000_1_0) shapeCasts_S1x1000000_S1000000⟩, ⟨S50000, iotaInDim S50000 32 0⟩] concatenates_S1000000_S50000_S1050000_d0

/-- An edge list followed by 112 zeros, as a 1 × 1050112 row. -/
def padRowI (v : (⟨S1050000, .i32⟩ : BufTy).Contents (Elt F)) : (⟨S1x1050112, .i32⟩ : BufTy).Contents (Elt F) :=
  shapeCast S1x1050112 (concatenate S1050112 0 [⟨S1050000, v⟩, ⟨S112, broadcastInDim S112 ![] bcast_S_S112 (constantI S_ 32 0#32)⟩] concatenates_S1050000_S112_S1050112_d0) shapeCasts_S1050112_S1x1050112

/-- The weights followed by 112 zeros, as a 1 × 1050112 row. -/
def padRowF (v : (⟨S1050000, .f32⟩ : BufTy).Contents (Elt F)) : (⟨S1x1050112, .f32⟩ : BufTy).Contents (Elt F) :=
  shapeCast S1x1050112 (concatenate S1050112 0 [⟨S1050000, v⟩, ⟨S112, broadcastInDim S112 ![] bcast_S_S112 (constant S_ .f32 0x00000000#32)⟩] concatenates_S1050000_S112_S1050112_d0) shapeCasts_S1050112_S1x1050112

/-- An index as jnp's `x[idx]` wraps it: a negative one has 50000 added. -/
def wrapIdx (v : (⟨S1050000, .i32⟩ : BufTy).Contents (Elt F)) : (⟨S1050000, .i32⟩ : BufTy).Contents (Elt F) :=
  select (cmpi .slt v (broadcastInDim S1050000 ![] bcast_S_S1050000 (constantI S_ 32 0#32))) (addi v (broadcastInDim S1050000 ![] bcast_S_S1050000 (constantI S_ 32 50000#32))) v

/-- The degrees: ones scattered and added at the destinations, from zero. -/
def degOf (v6 : (⟨S1050000, .i32⟩ : BufTy).Contents (Elt F)) : (⟨S50000, .f32⟩ : BufTy).Contents (Elt F) :=
  Host.scatterAdd scatter_S50000_S1050000x1_S1050000_n_0_0_1 (broadcastInDim S50000 ![] bcast_S_S50000 (constant S_ .f32 0x00000000#32)) (broadcastInDim S1050000x1 ![0] bcast_S1050000_S1050000x1_0 v6) (broadcastInDim S1050000 ![] bcast_S_S1050000 (constant S_ .f32 0x3F800000#32))

/-- Each edge's weight from the node table `v14` of inverse square roots of degrees: the entries at its two ends, multiplied. -/
def normOf (v5 v6 : (⟨S1050000, .i32⟩ : BufTy).Contents (Elt F)) (v14 : (⟨S50000, .f32⟩ : BufTy).Contents (Elt F)) : (⟨S1050000, .f32⟩ : BufTy).Contents (Elt F) :=
  mulf (Host.gather gather_S50000_S1050000x1_S1050000_n_0_n_n_0_1_1 v14 (broadcastInDim S1050000x1 ![0] bcast_S1050000_S1050000x1_0 (wrapIdx v5)))
    (Host.gather gather_S50000_S1050000x1_S1050000_n_0_n_n_0_1_1 v14 (broadcastInDim S1050000x1 ![0] bcast_S1050000_S1050000x1_0 (wrapIdx v6)))

/-- The node table: the inverse square root of the degree where it is positive, zero elsewhere. -/
def dinvOf (v6 : (⟨S1050000, .i32⟩ : BufTy).Contents (Elt F)) : (⟨S50000, .f32⟩ : BufTy).Contents (Elt F) :=
  select (cmpf (F := F) .ogt (degOf v6) (broadcastInDim S50000 ![] bcast_S_S50000 (constant S_ .f32 0x00000000#32))) (Host.rsqrt (degOf v6))
    (broadcastInDim S50000 ![] bcast_S_S50000 (id (constant S_ .f32 0x00000000#32)))

/-- The node features followed by 176 zero rows. -/
def xpad (x0 : (⟨S50000x64, .f32⟩ : BufTy).Contents (Elt F)) : (⟨S50176x64, .f32⟩ : BufTy).Contents (Elt F) :=
  pad S50176x64 ![0, 0] ![176, 0] ![0, 0] x0 (sitofp (F := F) .f32 (constantI S_ 32 0#32)) pads_S50000x64_S50176x64_01760_000 h_S_

/-! ## The third stretch in two halves: the weights, then the padding -/

/-- The operations that compute the edge weights. -/
abbrev opsWeights : List (HloOp τ sig (Elt F)) :=
  [ StableHlo.nullary main_c (constantI S_ 32 0#32),
    StableHlo.unary main_c main_v15 (broadcastInDim S1050000 ![] bcast_S_S1050000 : (⟨S_, .i32⟩ : BufTy).Contents (Elt F) → (⟨S1050000, .i32⟩ : BufTy).Contents (Elt F)),
    StableHlo.binary main_v5 main_v15 main_v16 (cmpi .slt : (⟨S1050000, .i32⟩ : BufTy).Contents (Elt F) → (⟨S1050000, .i32⟩ : BufTy).Contents (Elt F) → (⟨S1050000, .i1⟩ : BufTy).Contents (Elt F)),
    StableHlo.nullary main_c_3 (constantI S_ 32 50000#32),
    StableHlo.unary main_c_3 main_v17 (broadcastInDim S1050000 ![] bcast_S_S1050000 : (⟨S_, .i32⟩ : BufTy).Contents (Elt F) → (⟨S1050000, .i32⟩ : BufTy).Contents (Elt F)),
    StableHlo.binary main_v5 main_v17 main_v18 (addi : (⟨S1050000, .i32⟩ : BufTy).Contents (Elt F) → (⟨S1050000, .i32⟩ : BufTy).Contents (Elt F) → (⟨S1050000, .i32⟩ : BufTy).Contents (Elt F)),
    StableHlo.ternary main_v16 main_v18 main_v5 main_v19 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v19 main_v20 (broadcastInDim S1050000x1 ![0] bcast_S1050000_S1050000x1_0 : (⟨S1050000, .i32⟩ : BufTy).Contents (Elt F) → (⟨S1050000x1, .i32⟩ : BufTy).Contents (Elt F)),
    StableHlo.binary main_v14 main_v20 main_v21 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    StableHlo.nullary main_c_4 (constantI S_ 32 0#32),
    StableHlo.unary main_c_4 main_v22 (broadcastInDim S1050000 ![] bcast_S_S1050000 : (⟨S_, .i32⟩ : BufTy).Contents (Elt F) → (⟨S1050000, .i32⟩ : BufTy).Contents (Elt F)),
    StableHlo.binary main_v6 main_v22 main_v23 (cmpi .slt : (⟨S1050000, .i32⟩ : BufTy).Contents (Elt F) → (⟨S1050000, .i32⟩ : BufTy).Contents (Elt F) → (⟨S1050000, .i1⟩ : BufTy).Contents (Elt F)),
    StableHlo.nullary main_c_5 (constantI S_ 32 50000#32),
    StableHlo.unary main_c_5 main_v24 (broadcastInDim S1050000 ![] bcast_S_S1050000 : (⟨S_, .i32⟩ : BufTy).Contents (Elt F) → (⟨S1050000, .i32⟩ : BufTy).Contents (Elt F)),
    StableHlo.binary main_v6 main_v24 main_v25 (addi : (⟨S1050000, .i32⟩ : BufTy).Contents (Elt F) → (⟨S1050000, .i32⟩ : BufTy).Contents (Elt F) → (⟨S1050000, .i32⟩ : BufTy).Contents (Elt F)),
    StableHlo.ternary main_v23 main_v25 main_v6 main_v26 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v26 main_v27 (broadcastInDim S1050000x1 ![0] bcast_S1050000_S1050000x1_0 : (⟨S1050000, .i32⟩ : BufTy).Contents (Elt F) → (⟨S1050000x1, .i32⟩ : BufTy).Contents (Elt F)),
    StableHlo.binary main_v14 main_v27 main_v28 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    StableHlo.binary main_v21 main_v28 main_v29 (mulf : (⟨S1050000, .f32⟩ : BufTy).Contents (Elt F) → (⟨S1050000, .f32⟩ : BufTy).Contents (Elt F) → (⟨S1050000, .f32⟩ : BufTy).Contents (Elt F)) ]

/-- The operations that pad the three edge rows and reshape them. -/
abbrev opsRows : List (HloOp τ sig (Elt F)) :=
  [ StableHlo.nullary main_c_6 (constantI S_ 32 0#32),
    StableHlo.unary main_c_6 main_v30 (broadcastInDim S112 ![] bcast_S_S112 : (⟨S_, .i32⟩ : BufTy).Contents (Elt F) → (⟨S112, .i32⟩ : BufTy).Contents (Elt F)),
    StableHlo.nullary main_cst_7 (constant S_ .f32 0x00000000#32),
    StableHlo.unary main_cst_7 main_v31 (broadcastInDim S112 ![] bcast_S_S112 : (⟨S_, .f32⟩ : BufTy).Contents (Elt F) → (⟨S112, .f32⟩ : BufTy).Contents (Elt F)),
    StableHlo.binary main_v5 main_v30 main_v32 ((fun a b => concatenate S1050112 0 [⟨S1050000, a⟩, ⟨S112, b⟩] concatenates_S1050000_S112_S1050112_d0) : (⟨S1050000, .i32⟩ : BufTy).Contents (Elt F) → (⟨S112, .i32⟩ : BufTy).Contents (Elt F) → (⟨S1050112, .i32⟩ : BufTy).Contents (Elt F)),
    StableHlo.binary main_v6 main_v30 main_v33 ((fun a b => concatenate S1050112 0 [⟨S1050000, a⟩, ⟨S112, b⟩] concatenates_S1050000_S112_S1050112_d0) : (⟨S1050000, .i32⟩ : BufTy).Contents (Elt F) → (⟨S112, .i32⟩ : BufTy).Contents (Elt F) → (⟨S1050112, .i32⟩ : BufTy).Contents (Elt F)),
    StableHlo.binary main_v29 main_v31 main_v34 ((fun a b => concatenate S1050112 0 [⟨S1050000, a⟩, ⟨S112, b⟩] concatenates_S1050000_S112_S1050112_d0) : (⟨S1050000, .f32⟩ : BufTy).Contents (Elt F) → (⟨S112, .f32⟩ : BufTy).Contents (Elt F) → (⟨S1050112, .f32⟩ : BufTy).Contents (Elt F)),
    StableHlo.reshape main_v32 main_v35 rfl shapeCasts_S1050112_S1x1050112,
    StableHlo.reshape main_v33 main_v36 rfl shapeCasts_S1050112_S1x1050112,
    StableHlo.reshape main_v34 main_v37 rfl shapeCasts_S1050112_S1x1050112,
    StableHlo.nullary main_c_8 (constantI S_ 32 0#32) ]

theorem hostOps0_2_split : (hostOps0_2 : List (HloOp τ sig (Elt F))) = opsWeights ++ opsRows := rfl

/-- Running two lists of host operations one after the other is running their concatenation. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons op l ih => exact ih _

/-! ## The stretches, one at a time, from any contents -/

section Stages
variable (Wa : Valuation τ sig (Elt F))

theorem st1_v5 : (StableHlo.after hostOps0 Wa (Proc.devRef .tc main_v5) : (⟨S1050000, .i32⟩ : BufTy).Contents (Elt F)) = srcFull (Wa (Proc.devRef .tc main_arg1)) := by
  simp only [hostOps0]; after_results <;> rfl
theorem st1_v6 : (StableHlo.after hostOps0 Wa (Proc.devRef .tc main_v6) : (⟨S1050000, .i32⟩ : BufTy).Contents (Elt F)) = dstFull (Wa (Proc.devRef .tc main_arg1)) := by
  simp only [hostOps0]; after_results <;> rfl
theorem st1_v12 : (StableHlo.after hostOps0 Wa (Proc.devRef .tc main_v12) : (⟨S50000, .i1⟩ : BufTy).Contents (Elt F))
    = cmpf (F := F) .ogt (degOf (dstFull (Wa (Proc.devRef .tc main_arg1)))) (broadcastInDim S50000 ![] bcast_S_S50000 (constant S_ .f32 0x00000000#32)) := by
  simp only [hostOps0]; after_results <;> rfl
theorem st1_v13 : (StableHlo.after hostOps0 Wa (Proc.devRef .tc main_v13) : (⟨S50000, .f32⟩ : BufTy).Contents (Elt F))
    = Host.rsqrt (degOf (dstFull (Wa (Proc.devRef .tc main_arg1)))) := by
  simp only [hostOps0]; after_results <;> rfl
theorem st1_cst2 : (StableHlo.after hostOps0 Wa (Proc.devRef .tc main_cst_2) : (⟨S_, .f32⟩ : BufTy).Contents (Elt F)) = constant S_ .f32 0x00000000#32 := by
  simp only [hostOps0]; after_results <;> rfl
theorem st1_arg0 : (StableHlo.after hostOps0 Wa (Proc.devRef .tc main_arg0) : (⟨S50000x64, .f32⟩ : BufTy).Contents (Elt F)) = Wa (Proc.devRef .tc main_arg0) := by
  simp only [hostOps0]; after_results <;> rfl

theorem st2_v14 : (StableHlo.after hostOps0_1 Wa (Proc.devRef .tc main_v14) : (⟨S50000, .f32⟩ : BufTy).Contents (Elt F))
    = select (Wa (Proc.devRef .tc main_v12) : (⟨S50000, .i1⟩ : BufTy).Contents (Elt F)) (Wa (Proc.devRef .tc main_v13) : (⟨S50000, .f32⟩ : BufTy).Contents (Elt F))
        (broadcastInDim S50000 ![] bcast_S_S50000 (id (Wa (Proc.devRef .tc main_cst_2) : (⟨S_, .f32⟩ : BufTy).Contents (Elt F)))) := by
  simp only [hostOps0_1]; after_results <;> (try simp only [TRef.ofBuf, TRef.toBuf, cast_eq]) <;> rfl
theorem st2_v5 : (StableHlo.after hostOps0_1 Wa (Proc.devRef .tc main_v5) : (⟨S1050000, .i32⟩ : BufTy).Contents (Elt F)) = Wa (Proc.devRef .tc main_v5) := by
  simp only [hostOps0_1]; after_results <;> rfl
theorem st2_v6 : (StableHlo.after hostOps0_1 Wa (Proc.devRef .tc main_v6) : (⟨S1050000, .i32⟩ : BufTy).Contents (Elt F)) = Wa (Proc.devRef .tc main_v6) := by
  simp only [hostOps0_1]; after_results <;> rfl
theorem st2_arg0 : (StableHlo.after hostOps0_1 Wa (Proc.devRef .tc main_arg0) : (⟨S50000x64, .f32⟩ : BufTy).Contents (Elt F)) = Wa (Proc.devRef .tc main_arg0) := by
  simp only [hostOps0_1]; after_results <;> rfl

set_option maxHeartbeats 2000000 in
theorem st3a_v29 : (StableHlo.after opsWeights Wa (Proc.devRef .tc main_v29) : (⟨S1050000, .f32⟩ : BufTy).Contents (Elt F))
    = normOf (Wa (Proc.devRef .tc main_v5)) (Wa (Proc.devRef .tc main_v6)) (Wa (Proc.devRef .tc main_v14)) := by
  simp only [opsWeights]; after_results_simp <;> rfl
theorem st3a_v5 : (StableHlo.after opsWeights Wa (Proc.devRef .tc main_v5) : (⟨S1050000, .i32⟩ : BufTy).Contents (Elt F)) = Wa (Proc.devRef .tc main_v5) := by
  simp only [opsWeights]; after_results_simp <;> rfl
theorem st3a_v6 : (StableHlo.after opsWeights Wa (Proc.devRef .tc main_v6) : (⟨S1050000, .i32⟩ : BufTy).Contents (Elt F)) = Wa (Proc.devRef .tc main_v6) := by
  simp only [opsWeights]; after_results_simp <;> rfl
theorem st3b_v35 : (StableHlo.after opsRows Wa (Proc.devRef .tc main_v35) : (⟨S1x1050112, .i32⟩ : BufTy).Contents (Elt F)) = padRowI (Wa (Proc.devRef .tc main_v5)) := by
  simp only [opsRows]; after_results <;> rfl
theorem st3b_v36 : (StableHlo.after opsRows Wa (Proc.devRef .tc main_v36) : (⟨S1x1050112, .i32⟩ : BufTy).Contents (Elt F)) = padRowI (Wa (Proc.devRef .tc main_v6)) := by
  simp only [opsRows]; after_results <;> rfl
theorem st3b_v37 : (StableHlo.after opsRows Wa (Proc.devRef .tc main_v37) : (⟨S1x1050112, .f32⟩ : BufTy).Contents (Elt F)) = padRowF (Wa (Proc.devRef .tc main_v29)) := by
  simp only [opsRows]; after_results <;> rfl

theorem st4_v35 : (StableHlo.after hostOps0_3 Wa (Proc.devRef .tc main_v35) : (⟨S1x1050112, .i32⟩ : BufTy).Contents (Elt F)) = Wa (Proc.devRef .tc main_v35) := by
  simp only [hostOps0_3]; after_results <;> rfl
theorem st4_v36 : (StableHlo.after hostOps0_3 Wa (Proc.devRef .tc main_v36) : (⟨S1x1050112, .i32⟩ : BufTy).Contents (Elt F)) = Wa (Proc.devRef .tc main_v36) := by
  simp only [hostOps0_3]; after_results <;> rfl
theorem st4_v37 : (StableHlo.after hostOps0_3 Wa (Proc.devRef .tc main_v37) : (⟨S1x1050112, .f32⟩ : BufTy).Contents (Elt F)) = Wa (Proc.devRef .tc main_v37) := by
  simp only [hostOps0_3]; after_results <;> rfl
theorem st4_v38 : (StableHlo.after hostOps0_3 Wa (Proc.devRef .tc main_v38) : (⟨S50176x64, .f32⟩ : BufTy).Contents (Elt F))
    = pad S50176x64 ![0, 0] ![176, 0] ![0, 0] (Wa (Proc.devRef .tc main_arg0) : (⟨S50000x64, .f32⟩ : BufTy).Contents (Elt F)) (sitofp (F := F) .f32 (Wa (Proc.devRef .tc main_c_8) : (⟨S_, .i32⟩ : BufTy).Contents (Elt F))) pads_S50000x64_S50176x64_01760_000 h_S_ := by
  simp only [hostOps0_3]; after_results <;> (try simp only [TRef.ofBuf, TRef.toBuf, cast_eq]) <;> rfl
theorem st1_arg2 : (StableHlo.after hostOps0 Wa (Proc.devRef .tc main_arg2) : (⟨S64x64, .f32⟩ : BufTy).Contents (Elt F)) = Wa (Proc.devRef .tc main_arg2) := by
  simp only [hostOps0]; after_results <;> rfl
theorem st2_arg2 : (StableHlo.after hostOps0_1 Wa (Proc.devRef .tc main_arg2) : (⟨S64x64, .f32⟩ : BufTy).Contents (Elt F)) = Wa (Proc.devRef .tc main_arg2) := by
  simp only [hostOps0_1]; after_results <;> rfl
theorem st3a_arg2 : (StableHlo.after opsWeights Wa (Proc.devRef .tc main_arg2) : (⟨S64x64, .f32⟩ : BufTy).Contents (Elt F)) = Wa (Proc.devRef .tc main_arg2) := by
  simp only [opsWeights]; after_results_simp <;> rfl
theorem st3b_arg2 : (StableHlo.after opsRows Wa (Proc.devRef .tc main_arg2) : (⟨S64x64, .f32⟩ : BufTy).Contents (Elt F)) = Wa (Proc.devRef .tc main_arg2) := by
  simp only [opsRows]; after_results <;> rfl
theorem st4_arg2 : (StableHlo.after hostOps0_3 Wa (Proc.devRef .tc main_arg2) : (⟨S64x64, .f32⟩ : BufTy).Contents (Elt F)) = Wa (Proc.devRef .tc main_arg2) := by
  simp only [hostOps0_3]; after_results <;> rfl
theorem st1_arg3 : (StableHlo.after hostOps0 Wa (Proc.devRef .tc main_arg3) : (⟨S64, .f32⟩ : BufTy).Contents (Elt F)) = Wa (Proc.devRef .tc main_arg3) := by
  simp only [hostOps0]; after_results <;> rfl
theorem st2_arg3 : (StableHlo.after hostOps0_1 Wa (Proc.devRef .tc main_arg3) : (⟨S64, .f32⟩ : BufTy).Contents (Elt F)) = Wa (Proc.devRef .tc main_arg3) := by
  simp only [hostOps0_1]; after_results <;> rfl
theorem st3a_arg3 : (StableHlo.after opsWeights Wa (Proc.devRef .tc main_arg3) : (⟨S64, .f32⟩ : BufTy).Contents (Elt F)) = Wa (Proc.devRef .tc main_arg3) := by
  simp only [opsWeights]; after_results_simp <;> rfl
theorem st3b_arg3 : (StableHlo.after opsRows Wa (Proc.devRef .tc main_arg3) : (⟨S64, .f32⟩ : BufTy).Contents (Elt F)) = Wa (Proc.devRef .tc main_arg3) := by
  simp only [opsRows]; after_results <;> rfl
theorem st4_arg3 : (StableHlo.after hostOps0_3 Wa (Proc.devRef .tc main_arg3) : (⟨S64, .f32⟩ : BufTy).Contents (Elt F)) = Wa (Proc.devRef .tc main_arg3) := by
  simp only [hostOps0_3]; after_results <;> rfl
theorem st1_arg4 : (StableHlo.after hostOps0 Wa (Proc.devRef .tc main_arg4) : (⟨S64x32, .f32⟩ : BufTy).Contents (Elt F)) = Wa (Proc.devRef .tc main_arg4) := by
  simp only [hostOps0]; after_results <;> rfl
theorem st2_arg4 : (StableHlo.after hostOps0_1 Wa (Proc.devRef .tc main_arg4) : (⟨S64x32, .f32⟩ : BufTy).Contents (Elt F)) = Wa (Proc.devRef .tc main_arg4) := by
  simp only [hostOps0_1]; after_results <;> rfl
theorem st3a_arg4 : (StableHlo.after opsWeights Wa (Proc.devRef .tc main_arg4) : (⟨S64x32, .f32⟩ : BufTy).Contents (Elt F)) = Wa (Proc.devRef .tc main_arg4) := by
  simp only [opsWeights]; after_results_simp <;> rfl
theorem st3b_arg4 : (StableHlo.after opsRows Wa (Proc.devRef .tc main_arg4) : (⟨S64x32, .f32⟩ : BufTy).Contents (Elt F)) = Wa (Proc.devRef .tc main_arg4) := by
  simp only [opsRows]; after_results <;> rfl
theorem st4_arg4 : (StableHlo.after hostOps0_3 Wa (Proc.devRef .tc main_arg4) : (⟨S64x32, .f32⟩ : BufTy).Contents (Elt F)) = Wa (Proc.devRef .tc main_arg4) := by
  simp only [hostOps0_3]; after_results <;> rfl
theorem st1_arg5 : (StableHlo.after hostOps0 Wa (Proc.devRef .tc main_arg5) : (⟨S32, .f32⟩ : BufTy).Contents (Elt F)) = Wa (Proc.devRef .tc main_arg5) := by
  simp only [hostOps0]; after_results <;> rfl
theorem st2_arg5 : (StableHlo.after hostOps0_1 Wa (Proc.devRef .tc main_arg5) : (⟨S32, .f32⟩ : BufTy).Contents (Elt F)) = Wa (Proc.devRef .tc main_arg5) := by
  simp only [hostOps0_1]; after_results <;> rfl
theorem st3a_arg5 : (StableHlo.after opsWeights Wa (Proc.devRef .tc main_arg5) : (⟨S32, .f32⟩ : BufTy).Contents (Elt F)) = Wa (Proc.devRef .tc main_arg5) := by
  simp only [opsWeights]; after_results_simp <;> rfl
theorem st3b_arg5 : (StableHlo.after opsRows Wa (Proc.devRef .tc main_arg5) : (⟨S32, .f32⟩ : BufTy).Contents (Elt F)) = Wa (Proc.devRef .tc main_arg5) := by
  simp only [opsRows]; after_results <;> rfl
theorem st4_arg5 : (StableHlo.after hostOps0_3 Wa (Proc.devRef .tc main_arg5) : (⟨S32, .f32⟩ : BufTy).Contents (Elt F)) = Wa (Proc.devRef .tc main_arg5) := by
  simp only [hostOps0_3]; after_results <;> rfl
theorem st3a_arg0 : (StableHlo.after opsWeights Wa (Proc.devRef .tc main_arg0) : (⟨S50000x64, .f32⟩ : BufTy).Contents (Elt F)) = Wa (Proc.devRef .tc main_arg0) := by
  simp only [opsWeights]; after_results_simp <;> rfl
theorem st3b_arg0 : (StableHlo.after opsRows Wa (Proc.devRef .tc main_arg0) : (⟨S50000x64, .f32⟩ : BufTy).Contents (Elt F)) = Wa (Proc.devRef .tc main_arg0) := by
  simp only [opsRows]; after_results <;> rfl
theorem st3b_c8 : (StableHlo.after opsRows Wa (Proc.devRef .tc main_c_8) : (⟨S_, .i32⟩ : BufTy).Contents (Elt F)) = constantI S_ 32 0#32 := by
  simp only [opsRows]; after_results <;> rfl

end Stages

/-! ## The contents the first region finds, and the result the program returns -/

section Run
variable (m : (ℓ : Loc nD τ sig) → Buf (Elt F) ℓ) (ρ : Dev nD → PrngReg) (c : Dev nD)

theorem W4_unfold : W4 m ρ c = StableHlo.after hostOps0_3 (StableHlo.after opsRows (StableHlo.after opsWeights
    (StableHlo.after hostOps0_1 (StableHlo.after hostOps0 (W0 m ρ c))))) := by
  show StableHlo.after hostOps0_3 (StableHlo.after hostOps0_2 (StableHlo.after hostOps0_1 (StableHlo.after hostOps0 (W0 m ρ c)))) = _
  rw [hostOps0_2_split, after_append]

theorem W4_v35 : (W4 m ρ c (Proc.devRef .tc main_v35) : (⟨S1x1050112, .i32⟩ : BufTy).Contents (Elt F)) = padRowI (srcFull (m ((c : Thread nD τ).loc main_arg1))) := by
  rw [W4_unfold, st4_v35, st3b_v35, st3a_v5, st2_v5, st1_v5]
theorem W4_v36 : (W4 m ρ c (Proc.devRef .tc main_v36) : (⟨S1x1050112, .i32⟩ : BufTy).Contents (Elt F)) = padRowI (dstFull (m ((c : Thread nD τ).loc main_arg1))) := by
  rw [W4_unfold, st4_v36, st3b_v36, st3a_v6, st2_v6, st1_v6]
theorem W4_v37 : (W4 m ρ c (Proc.devRef .tc main_v37) : (⟨S1x1050112, .f32⟩ : BufTy).Contents (Elt F))
    = padRowF (normOf (srcFull (m ((c : Thread nD τ).loc main_arg1))) (dstFull (m ((c : Thread nD τ).loc main_arg1))) (dinvOf (dstFull (m ((c : Thread nD τ).loc main_arg1))))) := by
  rw [W4_unfold, st4_v37, st3b_v37, st3a_v29, st2_v5, st2_v6, st2_v14, st1_v5, st1_v6, st1_v12, st1_v13, st1_cst2]; rfl
theorem W4_v38 : (W4 m ρ c (Proc.devRef .tc main_v38) : (⟨S50176x64, .f32⟩ : BufTy).Contents (Elt F)) = xpad (m ((c : Thread nD τ).loc main_arg0)) := by
  rw [W4_unfold, st4_v38, st3b_arg0, st3a_arg0, st2_arg0, st1_arg0, st3b_c8]; rfl
theorem W4_arg2 : (W4 m ρ c (Proc.devRef .tc main_arg2) : (⟨S64x64, .f32⟩ : BufTy).Contents (Elt F)) = m ((c : Thread nD τ).loc main_arg2) := by
  rw [W4_unfold, st4_arg2, st3b_arg2, st3a_arg2, st2_arg2, st1_arg2]
theorem W4_arg3 : (W4 m ρ c (Proc.devRef .tc main_arg3) : (⟨S64, .f32⟩ : BufTy).Contents (Elt F)) = m ((c : Thread nD τ).loc main_arg3) := by
  rw [W4_unfold, st4_arg3, st3b_arg3, st3a_arg3, st2_arg3, st1_arg3]
theorem W4_arg4 : (W4 m ρ c (Proc.devRef .tc main_arg4) : (⟨S64x32, .f32⟩ : BufTy).Contents (Elt F)) = m ((c : Thread nD τ).loc main_arg4) := by
  rw [W4_unfold, st4_arg4, st3b_arg4, st3a_arg4, st2_arg4, st1_arg4]
theorem W4_arg5 : (W4 m ρ c (Proc.devRef .tc main_arg5) : (⟨S32, .f32⟩ : BufTy).Contents (Elt F)) = m ((c : Thread nD τ).loc main_arg5) := by
  rw [W4_unfold, st4_arg5, st3b_arg5, st3a_arg5, st2_arg5, st1_arg5]

theorem W9_v43 : (W9 m ρ c (Proc.devRef .tc main_v43) : (⟨S50000x32, .f32⟩ : BufTy).Contents (Elt F))
    = extractStridedSlice S50000x32 ![0, 0] (W8 m ρ c (Proc.devRef .tc main_v42) : (⟨S50176x32, .f32⟩ : BufTy).Contents (Elt F)) slices_S50176x32_S50000x32_0_0 := by
  show StableHlo.after hostOps4 (W8 m ρ c) _ = _
  simp only [hostOps4]; after_results <;> rfl

end Run

end Cert.KernelIdeal.Glue

end
-- ==== Proof.Spec.lean ====
/-
  The arithmetic of two graph-convolution layers, stated over plain index types, with no program in sight.

  A layer takes a table of node rows, multiplies it by a weight matrix (`lin`), and then, for every edge `e` with
  source `s e`, destination `d e` and weight `w e`, adds `w e` times row `s e` of the product into row `d e` of the
  result, and finally adds a bias (and, in the first layer, takes the positive part).

  The kernel finds row `s e` without indexing: it compares `s e` with every row number and sums the table's rows
  against the resulting zero-or-one weights (`ohw`), eight chunks of 6272 rows at a time, the chunks' sums added one
  after another to zero (`gathK`).  It adds into row `d e` the same way: for a block of 256 edges, row `n` receives the
  sum over the block's edges of the zero-or-one weight of `n = d e` times the edge's message (`blockS`), and the 4102
  blocks are added one after another to zero (`accK`).  The edge list the kernel walks has 1050112 entries: the
  1050000 real ones and 112 of source 0, destination 0 and weight 0.
-/
import Idealize.ShloMosaic.PureOps.Ideal
import Idealize.ShloMosaic.Lib.ValueIdx

noncomputable section

namespace Cert.GcnSpec

open scoped BigOperators

/-- The weight of comparing two machine words: one where they agree, zero where they differ. -/
def ohw (a b : BitVec 32) : EReal := if a = b then 1 else 0

/-- The dense layer: row `r` of `x` against column `f` of `w`. -/
def lin {R K C : Nat} (x : Fin R → Fin K → EReal) (w : Fin K → Fin C → EReal) (r : Fin R) (f : Fin C) : EReal :=
  ∑ k : Fin K, x r k * w k f

/-- Chunk `c`'s share of the row the word `s` names: the chunk's 6272 rows, each weighted by whether `s` is its number. -/
def chunkG {C : Nat} (H : Fin 50176 → Fin C → EReal) (s : BitVec 32) (c : Fin 8) (f : Fin C) : EReal :=
  ∑ j : Fin 6272, ohw s (BitVec.ofNat 32 (6272 * c.val + j.val)) * H ⟨6272 * c.val + j.val, by omega⟩ f

/-- The row the word `s` names, as the eight chunks' shares added one after another to zero. -/
def gathK {C : Nat} (H : Fin 50176 → Fin C → EReal) (s : BitVec 32) (f : Fin C) : EReal :=
  0 + chunkG H s 0 f + chunkG H s 1 f + chunkG H s 2 f + chunkG H s 3 f + chunkG H s 4 f + chunkG H s 5 f
    + chunkG H s 6 f + chunkG H s 7 f

/-- What block `t` of 256 edges adds to entry `f` of node row `n`: over the block's edges, the weight of `n` being the
    edge's destination times the edge's message (its gathered source row times its weight). -/
def blockS {C : Nat} (H : Fin 50176 → Fin C → EReal) (S D : ℕ → BitVec 32) (NM : ℕ → EReal) (t : ℕ) (n : Fin 50176)
    (f : Fin C) : EReal :=
  ∑ e : Fin 256, ohw (BitVec.ofNat 32 n.val) (D (256 * t + e.val))
    * (gathK H (S (256 * t + e.val)) f * NM (256 * t + e.val))

/-- The node rows after blocks `0 … t`: the blocks' shares added one after another to zero. -/
def accK {C : Nat} (H : Fin 50176 → Fin C → EReal) (S D : ℕ → BitVec 32) (NM : ℕ → EReal) :
    ℕ → Fin 50176 → Fin C → EReal
  | 0 => fun n f => 0 + blockS H S D NM 0 n f
  | t + 1 => fun n f => accK H S D NM t n f + blockS H S D NM (t + 1) n f

/-- A 1 × 1050112 row read at a natural number: the entry there, `z` past the end. -/
def rowAt {α : Type} (x : (⟨2, ![1, 1050112]⟩ : Idealize.ShloMosaic.Shape).Idx → α) (z : α) (k : ℕ) : α :=
  if h : k < 1050112 then x (Idealize.ShloMosaic.ValueIdx.ix2 (0 : Fin 1) ⟨k, h⟩) else z

end Cert.GcnSpec

end
-- ==== Proof.KLin.lean ====
/-
  The two dense layers of the graph convolution, read off the kernel program's pipelined regions.

  Each dense layer runs over a grid of eight points.  Point t loads rows 6272·t … 6272·t + 6271 of the 50176 × 64
  node table and the whole weight matrix (64 × 64 in the first layer, 64 × 32 in the second), multiplies the two
  into a zero accumulator, and writes the product back as the same rows of the output array.  The changes of float
  format around the product are the identity on extended reals.  So after the region entry (r, f) of the output
  array is the sum over k of the table's (r, k) times the weight's (k, f): `lin` of the table and the weight as the
  region found them.

  Per layer: the four coordinate facts of the product's operand indices and the product at an entry (`pay_apply`);
  the two input blocks as rows of their arrays (`xblk_apply`, `wblk_apply`); what a point writes back as a block of
  the dense layer (`flushed_eq`); the blocks' row ranges tile the rows (`mem_blk`, `cover`: row r is in the block of
  point r / 6272); hence the whole array (`final`) and its entries (`lin_value`).
-/
import proofs.«429772_j53867479827167_3_alg».proof.Proof.Gen.KernelIdeal.Frame
import proofs.«429772_j53867479827167_3_alg».proof.Proof.Spec
import Idealize.ShloMosaic.Lib.Pipeline.Value
import Idealize.ShloMosaic.Lib.ValueIdx
import Idealize.ShloMosaic.PureOps.Ideal.Laws

noncomputable section

namespace Cert.KernelIdeal.LinValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat)
open scoped BigOperators

/-- The zero offsets of a whole-buffer access, as a constant function. -/
theorem hz : (![0, 0] : Fin 2 → Nat) = fun _ => 0 := funext fun a => by fin_cases a <;> rfl

/-! ## Layer one: the block product at an entry

The body multiplies its 6272 × 64 block of node rows by the whole 64 × 64 weight matrix; the two changes of float
format around the product are the identity on extended reals, and the product starts from a zero accumulator, so
entry (p, f) of what it stores is the sum over k of the block's (p, k) times the weight's (k, f). -/

/-- Row axis of the left operand of the product: the output's row. -/
theorem lhs0_0 (i : S6272x64.Idx) (q : dot_S6272x64_S64x64_S6272x64_1_0_0_1_n_n.contr.Idx) :
    (dot_S6272x64_S64x64_S6272x64_1_0_0_1_n_n.lhsIdx i q 0).val = (i 0).val := by
  unfold DotDims.lhsIdx
  rw [dif_neg (show ¬(0 : Fin S6272x64.rank) ∈ dot_S6272x64_S64x64_S6272x64_1_0_0_1_n_n.lhsBatch by decide),
    dif_pos (show (0 : Fin S6272x64.rank) ∈ dot_S6272x64_S64x64_S6272x64_1_0_0_1_n_n.lhsNonContracting by decide)]
  rfl

/-- Column axis of the left operand: the summation index. -/
theorem lhs0_1 (i : S6272x64.Idx) (q : dot_S6272x64_S64x64_S6272x64_1_0_0_1_n_n.contr.Idx) :
    (dot_S6272x64_S64x64_S6272x64_1_0_0_1_n_n.lhsIdx i q 1).val = (q ⟨0, by decide⟩).val :=
  dot_S6272x64_S64x64_S6272x64_1_0_0_1_n_n.lhsIdx_val_of_single rfl i q

/-- Row axis of the right operand: the summation index. -/
theorem rhs0_0 (i : S6272x64.Idx) (q : dot_S6272x64_S64x64_S6272x64_1_0_0_1_n_n.contr.Idx) :
    (dot_S6272x64_S64x64_S6272x64_1_0_0_1_n_n.rhsIdx i q 0).val = (q ⟨0, by decide⟩).val :=
  dot_S6272x64_S64x64_S6272x64_1_0_0_1_n_n.rhsIdx_val_of_single rfl i q

/-- Column axis of the right operand: the output's column. -/
theorem rhs0_1 (i : S6272x64.Idx) (q : dot_S6272x64_S64x64_S6272x64_1_0_0_1_n_n.contr.Idx) :
    (dot_S6272x64_S64x64_S6272x64_1_0_0_1_n_n.rhsIdx i q 1).val = (i 1).val := by
  unfold DotDims.rhsIdx
  rw [dif_neg (show ¬(1 : Fin S64x64.rank) ∈ dot_S6272x64_S64x64_S6272x64_1_0_0_1_n_n.rhsBatch by decide),
    dif_pos (show (1 : Fin S64x64.rank) ∈ dot_S6272x64_S64x64_S6272x64_1_0_0_1_n_n.rhsNonContracting by decide)]
  rfl

/-- Entry (p, f) of what the body stores: row p of the block against column f of the weight. -/
theorem pay0_apply (x : Vec Ideal S6272x64 .f32) (w : Vec Ideal S64x64 .f32) (p : Fin 6272) (f : Fin 64) :
    (k0_pay1 (F := Ideal) x w) (ix2 p f) = ∑ k : Fin 64, x (ix2 p k) * w (ix2 k f) := by
  unfold k0_pay1
  refine (Ideal.matmul_constant_zero_apply dot_S6272x64_S64x64_S6272x64_1_0_0_1_n_n none _ _ (ix2 p f)).trans ?_
  rw [← Equiv.sum_comp (contrEquiv1 dot_S6272x64_S64x64_S6272x64_1_0_0_1_n_n 64 rfl rfl).symm]
  refine Finset.sum_congr rfl fun k _ => ?_
  have hk := contrEquiv1_symm_val dot_S6272x64_S64x64_S6272x64_1_0_0_1_n_n 64 rfl rfl k
  have el : dot_S6272x64_S64x64_S6272x64_1_0_0_1_n_n.lhsIdx (ix2 p f) ((contrEquiv1 dot_S6272x64_S64x64_S6272x64_1_0_0_1_n_n 64 rfl rfl).symm k) = ix2 p k :=
    funext fun a => Fin.ext (by
      match a with
      | ⟨0, _⟩ => exact lhs0_0 _ _
      | ⟨1, _⟩ => exact (lhs0_1 _ _).trans hk)
  have er : dot_S6272x64_S64x64_S6272x64_1_0_0_1_n_n.rhsIdx (ix2 p f) ((contrEquiv1 dot_S6272x64_S64x64_S6272x64_1_0_0_1_n_n 64 rfl rfl).symm k) = ix2 k f :=
    funext fun a => Fin.ext (by
      match a with
      | ⟨0, _⟩ => exact (rhs0_0 _ _).trans hk
      | ⟨1, _⟩ => exact rhs0_1 _ _)
  rw [el, er]
  show (shapeCast S6272x64 x shapeCasts_S6272x64_S6272x64) (ix2 p k) * w (ix2 k f) = _
  rw [shapeCast_self]

/-! ## Layer two: the block product at an entry

The body multiplies its 6272 × 64 block of node rows by the whole 64 × 32 weight matrix; the two changes of float
format around the product are the identity on extended reals, and the product starts from a zero accumulator, so
entry (p, f) of what it stores is the sum over k of the block's (p, k) times the weight's (k, f). -/

/-- Row axis of the left operand of the product: the output's row. -/
theorem lhs2_0 (i : S6272x32.Idx) (q : dot_S6272x64_S64x32_S6272x32_1_0_0_1_n_n.contr.Idx) :
    (dot_S6272x64_S64x32_S6272x32_1_0_0_1_n_n.lhsIdx i q 0).val = (i 0).val := by
  unfold DotDims.lhsIdx
  rw [dif_neg (show ¬(0 : Fin S6272x64.rank) ∈ dot_S6272x64_S64x32_S6272x32_1_0_0_1_n_n.lhsBatch by decide),
    dif_pos (show (0 : Fin S6272x64.rank) ∈ dot_S6272x64_S64x32_S6272x32_1_0_0_1_n_n.lhsNonContracting by decide)]
  rfl

/-- Column axis of the left operand: the summation index. -/
theorem lhs2_1 (i : S6272x32.Idx) (q : dot_S6272x64_S64x32_S6272x32_1_0_0_1_n_n.contr.Idx) :
    (dot_S6272x64_S64x32_S6272x32_1_0_0_1_n_n.lhsIdx i q 1).val = (q ⟨0, by decide⟩).val :=
  dot_S6272x64_S64x32_S6272x32_1_0_0_1_n_n.lhsIdx_val_of_single rfl i q

/-- Row axis of the right operand: the summation index. -/
theorem rhs2_0 (i : S6272x32.Idx) (q : dot_S6272x64_S64x32_S6272x32_1_0_0_1_n_n.contr.Idx) :
    (dot_S6272x64_S64x32_S6272x32_1_0_0_1_n_n.rhsIdx i q 0).val = (q ⟨0, by decide⟩).val :=
  dot_S6272x64_S64x32_S6272x32_1_0_0_1_n_n.rhsIdx_val_of_single rfl i q

/-- Column axis of the right operand: the output's column. -/
theorem rhs2_1 (i : S6272x32.Idx) (q : dot_S6272x64_S64x32_S6272x32_1_0_0_1_n_n.contr.Idx) :
    (dot_S6272x64_S64x32_S6272x32_1_0_0_1_n_n.rhsIdx i q 1).val = (i 1).val := by
  unfold DotDims.rhsIdx
  rw [dif_neg (show ¬(1 : Fin S64x32.rank) ∈ dot_S6272x64_S64x32_S6272x32_1_0_0_1_n_n.rhsBatch by decide),
    dif_pos (show (1 : Fin S64x32.rank) ∈ dot_S6272x64_S64x32_S6272x32_1_0_0_1_n_n.rhsNonContracting by decide)]
  rfl

/-- Entry (p, f) of what the body stores: row p of the block against column f of the weight. -/
theorem pay2_apply (x : Vec Ideal S6272x64 .f32) (w : Vec Ideal S64x32 .f32) (p : Fin 6272) (f : Fin 32) :
    (k2_pay1 (F := Ideal) x w) (ix2 p f) = ∑ k : Fin 64, x (ix2 p k) * w (ix2 k f) := by
  unfold k2_pay1
  refine (Ideal.matmul_constant_zero_apply dot_S6272x64_S64x32_S6272x32_1_0_0_1_n_n none _ _ (ix2 p f)).trans ?_
  rw [← Equiv.sum_comp (contrEquiv1 dot_S6272x64_S64x32_S6272x32_1_0_0_1_n_n 64 rfl rfl).symm]
  refine Finset.sum_congr rfl fun k _ => ?_
  have hk := contrEquiv1_symm_val dot_S6272x64_S64x32_S6272x32_1_0_0_1_n_n 64 rfl rfl k
  have el : dot_S6272x64_S64x32_S6272x32_1_0_0_1_n_n.lhsIdx (ix2 p f) ((contrEquiv1 dot_S6272x64_S64x32_S6272x32_1_0_0_1_n_n 64 rfl rfl).symm k) = ix2 p k :=
    funext fun a => Fin.ext (by
      match a with
      | ⟨0, _⟩ => exact lhs2_0 _ _
      | ⟨1, _⟩ => exact (lhs2_1 _ _).trans hk)
  have er : dot_S6272x64_S64x32_S6272x32_1_0_0_1_n_n.rhsIdx (ix2 p f) ((contrEquiv1 dot_S6272x64_S64x32_S6272x32_1_0_0_1_n_n 64 rfl rfl).symm k) = ix2 k f :=
    funext fun a => Fin.ext (by
      match a with
      | ⟨0, _⟩ => exact (rhs2_0 _ _).trans hk
      | ⟨1, _⟩ => exact rhs2_1 _ _)
  rw [el, er]
  show (shapeCast S6272x64 x shapeCasts_S6272x64_S6272x64) (ix2 p k) * w (ix2 k f) = _
  rw [shapeCast_self]

section Regions

-- the TensorCore's buffer contents when a region is entered: both layers are stated at any such contents
variable (V : (c : Dev nD) → (b : Ref sig .tc) → Buf (Elt Ideal) ((c : Thread nD τ).loc b))

/-! ## Layer one: from the blocks to the array

Grid point t reads rows 6272·t … 6272·t + 6271 of the node table and the whole weight matrix, and writes the same
rows of the output; the eight points' row ranges tile the 50176 rows. -/

/-- The node table the region finds. -/
abbrev xin0 (c : Dev nD) : Vec Ideal S50176x64 .f32 := V c (Pipeline.arrRef spec0 0)
/-- The weight matrix the region finds. -/
abbrev wgt0 (c : Dev nD) : Vec Ideal S64x64 .f32 := V c (Pipeline.arrRef spec0 1)

/-- The dense layer of the table and the weight the region finds, as one array. -/
abbrev dense0 (c : Dev nD) : Vec Ideal S50176x64 .bf16 := fun i =>
  lin (fun r k => xin0 V c (ix2 r k)) (fun k f => wgt0 V c (ix2 k f)) (i 0) (i 1)

/-- The index maps over the grid: the table's and the output's blocks move down one block of rows per point, the
    weight's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the table's block at point t is row 6272·t + p of the table. -/
theorem xblk0_apply (c : Dev nD) (t : Fin cfg0.N) (p : Fin 6272) (k : Fin 64) (r : Fin 50176)
    (hr : r.val = 6272 * t.val + p.val) :
    (iblk0 V c 0 t : Vec Ideal S6272x64 .f32) (ix2 p k) = xin0 V c (ix2 r k) := by
  obtain ⟨e0, e1, -, -, -, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 6272 + 1 * p.val = r.val; omega
  | ⟨1, _⟩ => show win0_0.index t (1 : Fin 2) * 64 + 1 * k.val = k.val; omega

/-- The weight's block at any point is the weight matrix. -/
theorem wblk0_apply (c : Dev nD) (t : Fin cfg0.N) (k : Fin 64) (f : Fin 64) :
    (iblk0 V c 1 t : Vec Ideal S64x64 .f32) (ix2 k f) = wgt0 V c (ix2 k f) := by
  obtain ⟨-, -, e2, e3, -, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * k.val = k.val; omega
  | ⟨1, _⟩ => show win0_1.index t (1 : Fin 2) * 64 + 1 * f.val = f.val; omega

/-- What point t writes back is rows 6272·t … 6272·t + 6271 of the dense layer. -/
theorem flushed0_eq (c : Dev nD) (t : Fin cfg0.N) :
    (dat0 (F := Ideal) V c).flushed 2 t = ((cfg0.win 2).blk t).view.read (Elt Ideal) (dense0 V c) := by
  show (cfg0.win 2).cut (grid0.coords t) ((dat0 (F := Ideal) V c).after 2 t) = _
  rw [after0_2]
  unfold out0_2
  rw [View.canon_unit_zero hz]
  simp only [View.ld_unit_zero (S := S6272x64) hz, View.ld_unit_zero (S := S64x64) hz]
  obtain ⟨-, -, -, -, e4, e5⟩ := idx_facts0 t
  funext j
  obtain ⟨p, f, rfl⟩ : ∃ (p : Fin 6272) (f : Fin 64), j = ix2 p f := ⟨j 0, j 1, eq_ix2 j⟩
  show (k0_pay1 (F := Ideal) (iblk0 V c 0 t) (iblk0 V c 1 t)) (ix2 p f)
    = dense0 V c (((cfg0.win 2).blk t).view.emb (ix2 p f))
  refine (pay0_apply (iblk0 V c 0 t) (iblk0 V c 1 t) p f).trans ?_
  have h0 : ((((cfg0.win 2).blk t).view.emb (ix2 p f)) 0 : Fin 50176).val = 6272 * t.val + p.val := by
    show win0_2.index t (0 : Fin 2) * 6272 + 1 * p.val = _; omega
  have h1 : ((((cfg0.win 2).blk t).view.emb (ix2 p f)) 1 : Fin 64) = f := Fin.ext (by
    show win0_2.index t (1 : Fin 2) * 64 + 1 * f.val = _; omega)
  show _ = ∑ k : Fin 64, xin0 V c (ix2 ((((cfg0.win 2).blk t).view.emb (ix2 p f)) 0) k)
    * wgt0 V c (ix2 k ((((cfg0.win 2).blk t).view.emb (ix2 p f)) 1))
  rw [h1]
  exact Finset.sum_congr rfl fun k _ =>
    congrArg₂ (· * ·) (xblk0_apply V c t p k _ h0) (wblk0_apply V c t k f)

/-- An entry of the output array lies in point t's block exactly when its row is among the block's 6272 rows (the
    block spans every column). -/
theorem mem_blk0 (t : Fin cfg0.N) (i : S50176x64.Idx) :
    i ∈ ((cfg0.win 2).blk t).view.set ↔ ∀ a : Fin 2, win0_2.index t a * S6272x64.size a ≤ (i a).val
      ∧ (i a).val < win0_2.index t a * S6272x64.size a + S6272x64.size a := by
  show i ∈ ((View.whole main_v39).slice (win0_2.rect t)).set ↔ _
  rw [View.set_slice_whole, Rect.mem_set_unit]
  exact Iff.rfl

/-- The grid point that covers row r: r / 6272. -/
theorem cover0 (i : S50176x64.Idx) :
    ∃ t : Fin cfg0.N, (cfg0.win 2).flush t = true ∧ i ∈ ((cfg0.win 2).blk t).view.set := by
  have hi0 : (i 0).val < 50176 := (i 0).isLt
  have hi1 : (i 1).val < 64 := (i 1).isLt
  have hN : cfg0.N = 8 := N_0
  let t : Fin cfg0.N := ⟨(i 0).val / 6272, by rw [hN]; omega⟩
  obtain ⟨-, -, -, -, e4, e5⟩ := idx_facts0 t
  have e4' : win0_2.index t (0 : Fin 2) = (i 0).val / 6272 := e4
  refine ⟨t, flush0_2 t, ?_⟩
  rw [mem_blk0]
  intro a
  match a with
  | ⟨0, _⟩ =>
    show win0_2.index t (0 : Fin 2) * 6272 ≤ (i 0).val ∧ (i 0).val < win0_2.index t (0 : Fin 2) * 6272 + 6272
    omega
  | ⟨1, _⟩ =>
    show win0_2.index t (1 : Fin 2) * 64 ≤ (i 1).val ∧ (i 1).val < win0_2.index t (1 : Fin 2) * 64 + 64
    omega

/-- The output array after the region is the dense layer of the table and the weight the region found. -/
theorem final0 (c : Dev nD) : (dat0 (F := Ideal) V c).arrAt 2 cfg0.N = dense0 V c :=
  (dat0 (F := Ideal) V c).arrAt_eq_of_cover 2 (dense0 V c) (fun t _ => flushed0_eq V c t) (cover0)

/-- Entry (r, f) of the output array after the region: row r of the table against column f of the weight. -/
theorem lin0_value (c : Dev nD) (r : Fin 50176) (f : Fin 64) :
    ((dat0 (F := Ideal) V c).arrAt 2 cfg0.N : Vec Ideal S50176x64 .bf16) (ix2 r f)
      = lin (fun r k => xin0 V c (ix2 r k)) (fun k f => wgt0 V c (ix2 k f)) r f :=
  congrFun (final0 V c) (ix2 r f)

/-! ## Layer two: from the blocks to the array

Grid point t reads rows 6272·t … 6272·t + 6271 of the node table and the whole weight matrix, and writes the same
rows of the output; the eight points' row ranges tile the 50176 rows. -/

/-- The node table the region finds. -/
abbrev xin2 (c : Dev nD) : Vec Ideal S50176x64 .f32 := V c (Pipeline.arrRef spec2 0)
/-- The weight matrix the region finds. -/
abbrev wgt2 (c : Dev nD) : Vec Ideal S64x32 .f32 := V c (Pipeline.arrRef spec2 1)

/-- The dense layer of the table and the weight the region finds, as one array. -/
abbrev dense2 (c : Dev nD) : Vec Ideal S50176x32 .bf16 := fun i =>
  lin (fun r k => xin2 V c (ix2 r k)) (fun k f => wgt2 V c (ix2 k f)) (i 0) (i 1)

/-- The index maps over the grid: the table's and the output's blocks move down one block of rows per point, the
    weight's block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the table's block at point t is row 6272·t + p of the table. -/
theorem xblk2_apply (c : Dev nD) (t : Fin cfg2.N) (p : Fin 6272) (k : Fin 64) (r : Fin 50176)
    (hr : r.val = 6272 * t.val + p.val) :
    (iblk2 V c 0 t : Vec Ideal S6272x64 .f32) (ix2 p k) = xin2 V c (ix2 r k) := by
  obtain ⟨e0, e1, -, -, -, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 6272 + 1 * p.val = r.val; omega
  | ⟨1, _⟩ => show win2_0.index t (1 : Fin 2) * 64 + 1 * k.val = k.val; omega

/-- The weight's block at any point is the weight matrix. -/
theorem wblk2_apply (c : Dev nD) (t : Fin cfg2.N) (k : Fin 64) (f : Fin 32) :
    (iblk2 V c 1 t : Vec Ideal S64x32 .f32) (ix2 k f) = wgt2 V c (ix2 k f) := by
  obtain ⟨-, -, e2, e3, -, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 64 + 1 * k.val = k.val; omega
  | ⟨1, _⟩ => show win2_1.index t (1 : Fin 2) * 32 + 1 * f.val = f.val; omega

/-- What point t writes back is rows 6272·t … 6272·t + 6271 of the dense layer. -/
theorem flushed2_eq (c : Dev nD) (t : Fin cfg2.N) :
    (dat2 (F := Ideal) V c).flushed 2 t = ((cfg2.win 2).blk t).view.read (Elt Ideal) (dense2 V c) := by
  show (cfg2.win 2).cut (grid2.coords t) ((dat2 (F := Ideal) V c).after 2 t) = _
  rw [after2_2]
  unfold out2_2
  rw [View.canon_unit_zero hz]
  simp only [View.ld_unit_zero (S := S6272x64) hz, View.ld_unit_zero (S := S64x32) hz]
  obtain ⟨-, -, -, -, e4, e5⟩ := idx_facts2 t
  funext j
  obtain ⟨p, f, rfl⟩ : ∃ (p : Fin 6272) (f : Fin 32), j = ix2 p f := ⟨j 0, j 1, eq_ix2 j⟩
  show (k2_pay1 (F := Ideal) (iblk2 V c 0 t) (iblk2 V c 1 t)) (ix2 p f)
    = dense2 V c (((cfg2.win 2).blk t).view.emb (ix2 p f))
  refine (pay2_apply (iblk2 V c 0 t) (iblk2 V c 1 t) p f).trans ?_
  have h0 : ((((cfg2.win 2).blk t).view.emb (ix2 p f)) 0 : Fin 50176).val = 6272 * t.val + p.val := by
    show win2_2.index t (0 : Fin 2) * 6272 + 1 * p.val = _; omega
  have h1 : ((((cfg2.win 2).blk t).view.emb (ix2 p f)) 1 : Fin 32) = f := Fin.ext (by
    show win2_2.index t (1 : Fin 2) * 32 + 1 * f.val = _; omega)
  show _ = ∑ k : Fin 64, xin2 V c (ix2 ((((cfg2.win 2).blk t).view.emb (ix2 p f)) 0) k)
    * wgt2 V c (ix2 k ((((cfg2.win 2).blk t).view.emb (ix2 p f)) 1))
  rw [h1]
  exact Finset.sum_congr rfl fun k _ =>
    congrArg₂ (· * ·) (xblk2_apply V c t p k _ h0) (wblk2_apply V c t k f)

/-- An entry of the output array lies in point t's block exactly when its row is among the block's 6272 rows (the
    block spans every column). -/
theorem mem_blk2 (t : Fin cfg2.N) (i : S50176x32.Idx) :
    i ∈ ((cfg2.win 2).blk t).view.set ↔ ∀ a : Fin 2, win2_2.index t a * S6272x32.size a ≤ (i a).val
      ∧ (i a).val < win2_2.index t a * S6272x32.size a + S6272x32.size a := by
  show i ∈ ((View.whole main_v41).slice (win2_2.rect t)).set ↔ _
  rw [View.set_slice_whole, Rect.mem_set_unit]
  exact Iff.rfl

/-- The grid point that covers row r: r / 6272. -/
theorem cover2 (i : S50176x32.Idx) :
    ∃ t : Fin cfg2.N, (cfg2.win 2).flush t = true ∧ i ∈ ((cfg2.win 2).blk t).view.set := by
  have hi0 : (i 0).val < 50176 := (i 0).isLt
  have hi1 : (i 1).val < 32 := (i 1).isLt
  have hN : cfg2.N = 8 := N_2
  let t : Fin cfg2.N := ⟨(i 0).val / 6272, by rw [hN]; omega⟩
  obtain ⟨-, -, -, -, e4, e5⟩ := idx_facts2 t
  have e4' : win2_2.index t (0 : Fin 2) = (i 0).val / 6272 := e4
  refine ⟨t, flush2_2 t, ?_⟩
  rw [mem_blk2]
  intro a
  match a with
  | ⟨0, _⟩ =>
    show win2_2.index t (0 : Fin 2) * 6272 ≤ (i 0).val ∧ (i 0).val < win2_2.index t (0 : Fin 2) * 6272 + 6272
    omega
  | ⟨1, _⟩ =>
    show win2_2.index t (1 : Fin 2) * 32 ≤ (i 1).val ∧ (i 1).val < win2_2.index t (1 : Fin 2) * 32 + 32
    omega

/-- The output array after the region is the dense layer of the table and the weight the region found. -/
theorem final2 (c : Dev nD) : (dat2 (F := Ideal) V c).arrAt 2 cfg2.N = dense2 V c :=
  (dat2 (F := Ideal) V c).arrAt_eq_of_cover 2 (dense2 V c) (fun t _ => flushed2_eq V c t) (cover2)

/-- Entry (r, f) of the output array after the region: row r of the table against column f of the weight. -/
theorem lin2_value (c : Dev nD) (r : Fin 50176) (f : Fin 32) :
    ((dat2 (F := Ideal) V c).arrAt 2 cfg2.N : Vec Ideal S50176x32 .bf16) (ix2 r f)
      = lin (fun r k => xin2 V c (ix2 r k)) (fun k f => wgt2 V c (ix2 k f)) r f :=
  congrFun (final2 V c) (ix2 r f)

end Regions

end Cert.KernelIdeal.LinValue

end
-- ==== Proof.KPay1.lean ====
/-
  What the payloads of aggregation kernel one (feature width 64) compute at an index, at the ideal values.
-/
import proofs.«429772_j53867479827167_3_alg».proof.Proof.Gen.KernelIdeal.Skeleton
import proofs.«429772_j53867479827167_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.GcnSpec
open scoped BigOperators

namespace K1

/-- The zero-or-one weight of a word compare, widened and converted, is `ohw`. -/
theorem onehot_val (a b : BitVec 32) :
    (FloatOps.sitofp (F := Ideal) .f32 ((IntOp.cmpi .eq a b).setWidth 32) : EReal) = ohw a b := by
  show (((((IntOp.cmpi .eq a b).setWidth 32).toInt : ℤ) : ℝ) : EReal) = ohw a b
  unfold ohw IntOp.cmpi
  by_cases h : a = b
  · subst h
    simp
  · have hb : (a == b) = false := by simpa using h
    simp [hb, h]

/-- A 256×6272 by 6272×64 product into the zero splat, read at an index. -/
theorem mmG_apply (L : FVec Ideal S256x6272 .bf16) (R : FVec Ideal S6272x64 .bf16) (e : Fin 256) (f : Fin 64) :
    matmul dot_S256x6272_S6272x64_S256x64_1_0_0_1_n_n none L R (constant (F := Ideal) S256x64 .f32 0x00000000#32) (ix2 e f)
      = ∑ j : Fin 6272, L (ix2 e j) * R (ix2 j f) := by
  show FloatOps.matmul _ none L R _ (ix2 e f) = _
  rw [Ideal.matmul_constant_zero_apply,
    ← Equiv.sum_comp (contrEquiv1 dot_S256x6272_S6272x64_S256x64_1_0_0_1_n_n 6272 rfl rfl).symm]
  refine Finset.sum_congr rfl fun c _ => ?_
  have c2 := contrEquiv1_symm_val dot_S256x6272_S6272x64_S256x64_1_0_0_1_n_n 6272 rfl rfl c
  have l2 : dot_S256x6272_S6272x64_S256x64_1_0_0_1_n_n.lhsIdx (ix2 e f) ((contrEquiv1 _ 6272 rfl rfl).symm c) = ix2 e c := by
    funext ax; apply Fin.ext
    match ax with
    | ⟨0, _⟩ => simp [DotDims.lhsIdx, dot_S256x6272_S6272x64_S256x64_1_0_0_1_n_n]; rfl
    | ⟨1, _⟩ => simp [DotDims.lhsIdx, dot_S256x6272_S6272x64_S256x64_1_0_0_1_n_n]; exact c2
  have r2 : dot_S256x6272_S6272x64_S256x64_1_0_0_1_n_n.rhsIdx (ix2 e f) ((contrEquiv1 _ 6272 rfl rfl).symm c) = ix2 c f := by
    funext ax; apply Fin.ext
    match ax with
    | ⟨0, _⟩ => simp [DotDims.rhsIdx, dot_S256x6272_S6272x64_S256x64_1_0_0_1_n_n]; exact c2
    | ⟨1, _⟩ => simp [DotDims.rhsIdx, dot_S256x6272_S6272x64_S256x64_1_0_0_1_n_n]; rfl
  rw [l2, r2]

/-- A 6272×256 by 256×64 product into the zero splat, read at an index. -/
theorem mmS_apply (L : FVec Ideal S6272x256 .bf16) (R : FVec Ideal S256x64 .bf16) (r : Fin 6272) (f : Fin 64) :
    matmul dot_S6272x256_S256x64_S6272x64_1_0_0_1_n_n none L R (constant (F := Ideal) S6272x64 .f32 0x00000000#32) (ix2 r f)
      = ∑ e : Fin 256, L (ix2 r e) * R (ix2 e f) := by
  show FloatOps.matmul _ none L R _ (ix2 r f) = _
  rw [Ideal.matmul_constant_zero_apply,
    ← Equiv.sum_comp (contrEquiv1 dot_S6272x256_S256x64_S6272x64_1_0_0_1_n_n 256 rfl rfl).symm]
  refine Finset.sum_congr rfl fun c _ => ?_
  have c2 := contrEquiv1_symm_val dot_S6272x256_S256x64_S6272x64_1_0_0_1_n_n 256 rfl rfl c
  have l2 : dot_S6272x256_S256x64_S6272x64_1_0_0_1_n_n.lhsIdx (ix2 r f) ((contrEquiv1 _ 256 rfl rfl).symm c) = ix2 r c := by
    funext ax; apply Fin.ext
    match ax with
    | ⟨0, _⟩ => simp [DotDims.lhsIdx, dot_S6272x256_S256x64_S6272x64_1_0_0_1_n_n]; rfl
    | ⟨1, _⟩ => simp [DotDims.lhsIdx, dot_S6272x256_S256x64_S6272x64_1_0_0_1_n_n]; exact c2
  have r2 : dot_S6272x256_S256x64_S6272x64_1_0_0_1_n_n.rhsIdx (ix2 r f) ((contrEquiv1 _ 256 rfl rfl).symm c) = ix2 c f := by
    funext ax; apply Fin.ext
    match ax with
    | ⟨0, _⟩ => simp [DotDims.rhsIdx, dot_S6272x256_S256x64_S6272x64_1_0_0_1_n_n]; exact c2
    | ⟨1, _⟩ => simp [DotDims.rhsIdx, dot_S6272x256_S256x64_S6272x64_1_0_0_1_n_n]; rfl
  rw [l2, r2]

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The gather's one-hot product: row `e` of the result is the table chunk's rows weighted by whether the row's word is the column's word. -/
theorem ohG_apply (V : IVec S256x1 32) (W : IVec S1x6272 32) (R : FVec Ideal S6272x64 .bf16) (e : Fin 256) (f : Fin 64) :
    matmul dot_S256x6272_S6272x64_S256x64_1_0_0_1_n_n none
      (truncf .bf16 (sitofp .f32 (extui 32 (cmpi .eq (broadcastTo S256x6272 V broadcasts_S256x1_S256x6272)
        (broadcastTo S256x6272 W broadcasts_S1x6272_S256x6272)) natLt_1_32)) bitsLt_bf16_f32)
      R (constant (F := Ideal) S256x64 .f32 0x00000000#32) (ix2 e f)
    = ∑ j : Fin 6272, ohw (V (ix2 e (0 : Fin 1))) (W (ix2 (0 : Fin 1) j)) * R (ix2 j f) := by
  refine (mmG_apply _ R e f).trans (Finset.sum_congr rfl fun j _ => ?_)
  refine congrArg (· * R (ix2 j f)) ?_
  show FloatOps.sitofp (F := Ideal) .f32 ((IntOp.cmpi .eq (broadcastTo S256x6272 V broadcasts_S256x1_S256x6272 (ix2 e j))
    (broadcastTo S256x6272 W broadcasts_S1x6272_S256x6272 (ix2 e j))).setWidth 32) = _
  rw [broadcastTo_a1_ab_apply V _ e j, broadcastTo_1b_ab_apply W _ e j]
  exact onehot_val _ _

/-- The scatter's one-hot product: row `r` of the result is the messages weighted by whether the row's word is the edge's word. -/
theorem ohS_apply (V : IVec S6272x1 32) (W : IVec S1x256 32) (R : FVec Ideal S256x64 .bf16) (r : Fin 6272) (f : Fin 64) :
    matmul dot_S6272x256_S256x64_S6272x64_1_0_0_1_n_n none
      (truncf .bf16 (sitofp .f32 (extui 32 (cmpi .eq (broadcastTo S6272x256 V broadcasts_S6272x1_S6272x256)
        (broadcastTo S6272x256 W broadcasts_S1x256_S6272x256)) natLt_1_32)) bitsLt_bf16_f32)
      R (constant (F := Ideal) S6272x64 .f32 0x00000000#32) (ix2 r f)
    = ∑ e : Fin 256, ohw (V (ix2 r (0 : Fin 1))) (W (ix2 (0 : Fin 1) e)) * R (ix2 e f) := by
  refine (mmS_apply _ R r f).trans (Finset.sum_congr rfl fun e _ => ?_)
  refine congrArg (· * R (ix2 e f)) ?_
  show FloatOps.sitofp (F := Ideal) .f32 ((IntOp.cmpi .eq (broadcastTo S6272x256 V broadcasts_S6272x1_S6272x256 (ix2 r e))
    (broadcastTo S6272x256 W broadcasts_S1x256_S6272x256 (ix2 r e))).setWidth 32) = _
  rw [broadcastTo_a1_ab_apply V _ r e, broadcastTo_1b_ab_apply W _ r e]
  exact onehot_val _ _

/-- The column words of a gather chunk: base plus the column number. -/
theorem colW_apply (b : BitVec 32) (j : Fin 6272) :
    addi (broadcast S1x6272 b) (iota .tc S1x6272 32 [1] iota_S1x6272_d1_w32) (ix2 (0 : Fin 1) j) = b + BitVec.ofNat 32 j.val := by
  show b + iota .tc S1x6272 32 [1] iota_S1x6272_d1_w32 (ix2 (0 : Fin 1) j) = _
  rw [iota_single_apply]

/-- The row words of a scatter chunk: base plus the row number. -/
theorem rowW_apply (b : BitVec 32) (r : Fin 6272) :
    addi (broadcast S6272x1 b) (iota .tc S6272x1 32 [0] iota_S6272x1_d0_w32) (ix2 r (0 : Fin 1)) = b + BitVec.ofNat 32 r.val := by
  show b + iota .tc S6272x1 32 [0] iota_S6272x1_d0_w32 (ix2 r (0 : Fin 1)) = _
  rw [iota_single_apply]

/-- A literal base plus a row number below 6272 is the word of the sum. -/
theorem base_add (c : ℕ) (j : ℕ) : BitVec.ofNat 32 c + BitVec.ofNat 32 j = BitVec.ofNat 32 (c + j) := by
  rw [← BitVec.ofNat_add]

/-- One chunk's share as the product computes it: the chunk's rows, each weighted by whether `s` is the base word plus the row's number. -/
def chunkK (s b : BitVec 32) (hc : Vec Ideal S6272x64 .bf16) (f : Fin 64) : EReal :=
  ∑ j : Fin 6272, ohw s (b + BitVec.ofNat 32 j.val) * hc (ix2 j f)

/-- With the base word the chunk's first row number and the chunk the table's rows from there, that share is `chunkG`. -/
theorem chunkK_eq (H : Fin 50176 → Fin 64 → EReal) (s : BitVec 32) (c : Fin 8) (bn : ℕ) (hb : bn = 6272 * c.val)
    (hc : Vec Ideal S6272x64 .bf16) (hh : ∀ (j : Fin 6272) (f : Fin 64), hc (ix2 j f) = H ⟨6272 * c.val + j.val, by omega⟩ f)
    (f : Fin 64) : chunkK s (BitVec.ofNat 32 bn) hc f = chunkG H s c f := by
  subst hb
  unfold chunkK chunkG
  refine Finset.sum_congr rfl fun j _ => ?_
  rw [hh j f, ← BitVec.ofNat_add]

/-- The gather product of one chunk, with its operands as the kernel writes them, is the chunk's share. -/
theorem ohG_chunk (v4 : IVec S256 32) (b : BitVec 32) (hc : Vec Ideal S6272x64 .bf16) (e : Fin 256) (f : Fin 64) :
    matmul dot_S256x6272_S6272x64_S256x64_1_0_0_1_n_n none
      (truncf .bf16 (sitofp .f32 (extui 32 (cmpi .eq
        (broadcastTo S256x6272 (shapeCast S256x1 v4 shapeCasts_S256_S256x1) broadcasts_S256x1_S256x6272)
        (broadcastTo S256x6272 (addi (broadcast S1x6272 b) (iota .tc S1x6272 32 [1] iota_S1x6272_d1_w32))
          broadcasts_S1x6272_S256x6272)) natLt_1_32)) bitsLt_bf16_f32)
      (shapeCast S6272x64 hc shapeCasts_S6272x64_S6272x64 : FVec Ideal S6272x64 .bf16) (constant (F := Ideal) S256x64 .f32 0x00000000#32) (ix2 e f)
    = chunkK (v4 (ix1 e)) b hc f := by
  refine (ohG_apply _ _ _ e f).trans (Finset.sum_congr rfl fun j _ => ?_)
  rw [shapeCast_a_a1_apply, colW_apply, shapeCast_self]

/-- The scatter product of one chunk, with its operands as the kernel writes them. -/
theorem ohS_chunk (v6 : IVec S256 32) (b : BitVec 32) (M : FVec Ideal S256x64 .bf16) (r : Fin 6272) (f : Fin 64) :
    matmul dot_S6272x256_S256x64_S6272x64_1_0_0_1_n_n none
      (truncf .bf16 (sitofp .f32 (extui 32 (cmpi .eq
        (broadcastTo S6272x256 (addi (broadcast S6272x1 b) (iota .tc S6272x1 32 [0] iota_S6272x1_d0_w32))
          broadcasts_S6272x1_S6272x256)
        (broadcastTo S6272x256 (shapeCast S1x256 v6 shapeCasts_S256_S1x256) broadcasts_S1x256_S6272x256))
        natLt_1_32)) bitsLt_bf16_f32)
      M (constant (F := Ideal) S6272x64 .f32 0x00000000#32) (ix2 r f)
    = ∑ e : Fin 256, ohw (b + BitVec.ofNat 32 r.val) (v6 (ix1 e)) * M (ix2 e f) := by
  refine (ohS_apply _ _ _ r f).trans (Finset.sum_congr rfl fun e _ => ?_)
  rw [rowW_apply, shapeCast_a_1a_apply]

theorem pay5_apply (x1 : Vec Ideal S1x256 .i32) (e : Fin 256) : k1_pay5 x1 (ix1 e) = x1 (ix2 (0 : Fin 1) e) := by
  unfold k1_pay5
  exact shapeCast_1a_a_apply x1 _ e

theorem pay6_apply (x2 : Vec Ideal S1x256 .i32) (e : Fin 256) : k1_pay6 x2 (ix1 e) = x2 (ix2 (0 : Fin 1) e) := by
  unfold k1_pay6
  exact shapeCast_1a_a_apply x2 _ e

theorem pay7_apply (x3 : Vec Ideal S1x256 .f32) (e : Fin 256) : k1_pay7 x3 (ix1 e) = x3 (ix2 (0 : Fin 1) e) := by
  unfold k1_pay7
  exact shapeCast_1a_a_apply x3 _ e

theorem pay8_apply (x1 : Vec Ideal S1x256 .i32) (h0 h1 : Vec Ideal S6272x64 .bf16) (e : Fin 256) (f : Fin 64) :
    k1_pay8 x1 h0 h1 (ix2 e f)
      = 0 + chunkK (x1 (ix2 (0 : Fin 1) e)) 0#32 h0 f + chunkK (x1 (ix2 (0 : Fin 1) e)) 6272#32 h1 f := by
  unfold k1_pay8
  dsimp only
  rw [addf_apply, addf_apply, ohG_chunk, ohG_chunk, pay5_apply, broadcast_apply]
  show Ideal.ofBits .f32 0x00000000#32 + _ + _ = _
  rw [Ideal.ofBits_zero_f32]

theorem pay9_apply (v4 : IVec S256 32) (P : FVec Ideal S256x64 .f32) (h2 h3 h4 : Vec Ideal S6272x64 .bf16) (e : Fin 256) (f : Fin 64) :
    k1_pay9 v4 P h2 h3 h4 (ix2 e f)
      = P (ix2 e f) + chunkK (v4 (ix1 e)) 12544#32 h2 f + chunkK (v4 (ix1 e)) 18816#32 h3 f + chunkK (v4 (ix1 e)) 25088#32 h4 f := by
  unfold k1_pay9
  dsimp only
  rw [addf_apply, addf_apply, addf_apply, ohG_chunk, ohG_chunk, ohG_chunk]

theorem pay13_apply (v4 : IVec S256 32) (w : FVec Ideal S256 .f32) (P : FVec Ideal S256x64 .f32) (h5 h6 h7 : Vec Ideal S6272x64 .bf16)
    (e : Fin 256) (f : Fin 64) :
    k1_pay13 v4 w P (k1_pay10 h5) k1_pay11 (k1_pay12 v4) h6 h7 (ix2 e f)
      = (P (ix2 e f) + chunkK (v4 (ix1 e)) 31360#32 h5 f + chunkK (v4 (ix1 e)) 37632#32 h6 f + chunkK (v4 (ix1 e)) 43904#32 h7 f)
          * w (ix1 e) := by
  unfold k1_pay13 k1_pay12 k1_pay11 k1_pay10
  dsimp only
  rw [truncf_apply, mulf_apply, addf_apply, addf_apply, addf_apply, ohG_chunk, ohG_chunk, ohG_chunk,
    broadcastTo_a1_ab_apply, shapeCast_a_a1_apply]

/-- The scatter sum with a literal base word, in the stated form. -/
theorem updS (x2 : Vec Ideal S1x256 .i32) (bn c : ℕ) (hb : bn = 6272 * c) (M : FVec Ideal S256x64 .bf16) (r : Fin 6272) (f : Fin 64) :
    (∑ e : Fin 256, ohw (BitVec.ofNat 32 bn + BitVec.ofNat 32 r.val) (k1_pay6 x2 (ix1 e)) * M (ix2 e f))
      = ∑ e : Fin 256, ohw (BitVec.ofNat 32 (6272 * c + r.val)) (x2 (ix2 (0 : Fin 1) e)) * M (ix2 e f) := by
  subst hb
  refine Finset.sum_congr rfl fun e _ => ?_
  rw [pay6_apply, ← BitVec.ofNat_add]

end K1

open K1

/-- The block's messages: each edge's gathered source row times the edge's weight. -/
abbrev msg1 (x1 : Vec Ideal S1x256 .i32) (x3 : Vec Ideal S1x256 .f32) (h0 h1 h2 h3 h4 h5 h6 h7 : Vec Ideal S6272x64 .bf16) :
    FVec Ideal S256x64 .bf16 :=
  k1_pay13 (k1_pay5 x1) (k1_pay7 x3) (k1_pay9 (k1_pay5 x1) (k1_pay8 x1 h0 h1) h2 h3 h4) (k1_pay10 h5) k1_pay11
    (k1_pay12 (k1_pay5 x1)) h6 h7

theorem msg1_apply (x1 : Vec Ideal S1x256 .i32) (x3 : Vec Ideal S1x256 .f32) (h0 h1 h2 h3 h4 h5 h6 h7 : Vec Ideal S6272x64 .bf16)
    (H : Fin 50176 → Fin 64 → EReal)
    (hh0 : ∀ (j : Fin 6272) (f : Fin 64), h0 (ix2 j f) = H ⟨6272 * 0 + j.val, by omega⟩ f)
    (hh1 : ∀ (j : Fin 6272) (f : Fin 64), h1 (ix2 j f) = H ⟨6272 * 1 + j.val, by omega⟩ f)
    (hh2 : ∀ (j : Fin 6272) (f : Fin 64), h2 (ix2 j f) = H ⟨6272 * 2 + j.val, by omega⟩ f)
    (hh3 : ∀ (j : Fin 6272) (f : Fin 64), h3 (ix2 j f) = H ⟨6272 * 3 + j.val, by omega⟩ f)
    (hh4 : ∀ (j : Fin 6272) (f : Fin 64), h4 (ix2 j f) = H ⟨6272 * 4 + j.val, by omega⟩ f)
    (hh5 : ∀ (j : Fin 6272) (f : Fin 64), h5 (ix2 j f) = H ⟨6272 * 5 + j.val, by omega⟩ f)
    (hh6 : ∀ (j : Fin 6272) (f : Fin 64), h6 (ix2 j f) = H ⟨6272 * 6 + j.val, by omega⟩ f)
    (hh7 : ∀ (j : Fin 6272) (f : Fin 64), h7 (ix2 j f) = H ⟨6272 * 7 + j.val, by omega⟩ f)
    (e : Fin 256) (f : Fin 64) :
    msg1 x1 x3 h0 h1 h2 h3 h4 h5 h6 h7 (ix2 e f) = gathK H (x1 (ix2 (0 : Fin 1) e)) f * x3 (ix2 (0 : Fin 1) e) := by
  unfold msg1
  rw [pay13_apply, pay9_apply, pay8_apply, pay5_apply, pay7_apply]
  unfold gathK
  rw [chunkK_eq H _ 0 0 rfl h0 hh0, chunkK_eq H _ 1 6272 rfl h1 hh1, chunkK_eq H _ 2 12544 rfl h2 hh2,
    chunkK_eq H _ 3 18816 rfl h3 hh3, chunkK_eq H _ 4 25088 rfl h4 hh4, chunkK_eq H _ 5 31360 rfl h5 hh5,
    chunkK_eq H _ 6 37632 rfl h6 hh6, chunkK_eq H _ 7 43904 rfl h7 hh7]

theorem upd1_0 (x2 : Vec Ideal S1x256 .i32) (M : FVec Ideal S256x64 .bf16) (cur : Vec Ideal S6272x64 .f32) (r : Fin 6272) (f : Fin 64) :
    k1_pay15 M (k1_pay14 (k1_pay6 x2)) cur (ix2 r f)
      = cur (ix2 r f) + ∑ e : Fin 256, ohw (BitVec.ofNat 32 (6272 * 0 + r.val)) (x2 (ix2 (0 : Fin 1) e)) * M (ix2 e f) := by
  unfold k1_pay15 k1_pay14
  dsimp only
  rw [addf_apply, ohS_chunk, shapeCast_self]
  exact congrArg (cur (ix2 r f) + ·) (updS x2 _ 0 rfl M r f)

theorem upd1_1 (x2 : Vec Ideal S1x256 .i32) (M : FVec Ideal S256x64 .bf16) (cur : Vec Ideal S6272x64 .f32) (r : Fin 6272) (f : Fin 64) :
    k1_pay16 (k1_pay6 x2) M cur (ix2 r f)
      = cur (ix2 r f) + ∑ e : Fin 256, ohw (BitVec.ofNat 32 (6272 * 1 + r.val)) (x2 (ix2 (0 : Fin 1) e)) * M (ix2 e f) := by
  unfold k1_pay16
  dsimp only
  rw [addf_apply, ohS_chunk, shapeCast_self]
  exact congrArg (cur (ix2 r f) + ·) (updS x2 _ 1 rfl M r f)

theorem upd1_2 (x2 : Vec Ideal S1x256 .i32) (M : FVec Ideal S256x64 .bf16) (cur : Vec Ideal S6272x64 .f32) (r : Fin 6272) (f : Fin 64) :
    k1_pay17 (k1_pay6 x2) M cur (ix2 r f)
      = cur (ix2 r f) + ∑ e : Fin 256, ohw (BitVec.ofNat 32 (6272 * 2 + r.val)) (x2 (ix2 (0 : Fin 1) e)) * M (ix2 e f) := by
  unfold k1_pay17
  dsimp only
  rw [addf_apply, ohS_chunk, shapeCast_self]
  exact congrArg (cur (ix2 r f) + ·) (updS x2 _ 2 rfl M r f)

theorem upd1_3 (x2 : Vec Ideal S1x256 .i32) (M : FVec Ideal S256x64 .bf16) (cur : Vec Ideal S6272x64 .f32) (r : Fin 6272) (f : Fin 64) :
    k1_pay20 M k1_pay18 (k1_pay19 (k1_pay6 x2)) cur (ix2 r f)
      = cur (ix2 r f) + ∑ e : Fin 256, ohw (BitVec.ofNat 32 (6272 * 3 + r.val)) (x2 (ix2 (0 : Fin 1) e)) * M (ix2 e f) := by
  unfold k1_pay20 k1_pay19 k1_pay18
  dsimp only
  rw [addf_apply, ohS_chunk, shapeCast_self]
  exact congrArg (cur (ix2 r f) + ·) (updS x2 _ 3 rfl M r f)

theorem upd1_4 (x2 : Vec Ideal S1x256 .i32) (M : FVec Ideal S256x64 .bf16) (cur : Vec Ideal S6272x64 .f32) (r : Fin 6272) (f : Fin 64) :
    k1_pay21 (k1_pay6 x2) M cur (ix2 r f)
      = cur (ix2 r f) + ∑ e : Fin 256, ohw (BitVec.ofNat 32 (6272 * 4 + r.val)) (x2 (ix2 (0 : Fin 1) e)) * M (ix2 e f) := by
  unfold k1_pay21
  dsimp only
  rw [addf_apply, ohS_chunk, shapeCast_self]
  exact congrArg (cur (ix2 r f) + ·) (updS x2 _ 4 rfl M r f)

theorem upd1_5 (x2 : Vec Ideal S1x256 .i32) (M : FVec Ideal S256x64 .bf16) (cur : Vec Ideal S6272x64 .f32) (r : Fin 6272) (f : Fin 64) :
    k1_pay22 (k1_pay6 x2) M cur (ix2 r f)
      = cur (ix2 r f) + ∑ e : Fin 256, ohw (BitVec.ofNat 32 (6272 * 5 + r.val)) (x2 (ix2 (0 : Fin 1) e)) * M (ix2 e f) := by
  unfold k1_pay22
  dsimp only
  rw [addf_apply, ohS_chunk, shapeCast_self]
  exact congrArg (cur (ix2 r f) + ·) (updS x2 _ 5 rfl M r f)

theorem upd1_6 (x2 : Vec Ideal S1x256 .i32) (M : FVec Ideal S256x64 .bf16) (cur : Vec Ideal S6272x64 .f32) (r : Fin 6272) (f : Fin 64) :
    k1_pay1 (k1_pay6 x2) M cur (ix2 r f)
      = cur (ix2 r f) + ∑ e : Fin 256, ohw (BitVec.ofNat 32 (6272 * 6 + r.val)) (x2 (ix2 (0 : Fin 1) e)) * M (ix2 e f) := by
  unfold k1_pay1
  dsimp only
  rw [addf_apply, ohS_chunk, shapeCast_self]
  exact congrArg (cur (ix2 r f) + ·) (updS x2 _ 6 rfl M r f)

theorem upd1_7 (x2 : Vec Ideal S1x256 .i32) (M : FVec Ideal S256x64 .bf16) (cur : Vec Ideal S6272x64 .f32) (r : Fin 6272) (f : Fin 64) :
    k1_pay2 (k1_pay6 x2) M cur (ix2 r f)
      = cur (ix2 r f) + ∑ e : Fin 256, ohw (BitVec.ofNat 32 (6272 * 7 + r.val)) (x2 (ix2 (0 : Fin 1) e)) * M (ix2 e f) := by
  unfold k1_pay2
  dsimp only
  rw [addf_apply, ohS_chunk, shapeCast_self]
  exact congrArg (cur (ix2 r f) + ·) (updS x2 _ 7 rfl M r f)

theorem fin1_apply (acc : Vec Ideal S50176x64 .f32) (b : Vec Ideal S64 .f32) (n : Fin 50176) (f : Fin 64) :
    k1_pay3 acc b (ix2 n f) = max (acc (ix2 n f) + b (ix1 f)) 0 := by
  unfold k1_pay3
  rw [maximumf_apply, addf_apply, shapeCast_self, broadcastTo_1b_ab_apply, shapeCast_a_1a_apply, broadcast_apply]
  show max _ (Ideal.ofBits .f32 0x00000000#32) = _
  rw [Ideal.ofBits_zero_f32]

theorem zero1_apply (n : Fin 50176) (f : Fin 64) : (k1_pay4 (F := Ideal)) (ix2 n f) = 0 := by
  unfold k1_pay4
  show Ideal.ofBits .f32 0x00000000#32 = 0
  exact Ideal.ofBits_zero_f32

end Cert.KernelIdeal.Pay
end
-- ==== Proof.KAgg1.lean ====
/-
  The value the first aggregation region (feature width 64) leaves in its output array.

  The region walks the edge list in 4102 blocks of 256 edges. Its output window is the whole node array, kept in one buffer from
  point to point and written back once, after the last point. Point 0 fills the buffer with zeros and adds block 0's share; every
  later point adds its block's share to what the point before left; the last point then adds the bias and takes the positive part.
  A block's share is added eight chunks of 6272 node rows at a time, each chunk's update reading only its own rows, so the eight
  stores read back as one function of the node row. By induction on the point the buffer holds the specification's running sum
  `accK`, and the array ends holding the positive part of the last sum plus the bias.
-/
import proofs.«429772_j53867479827167_3_alg».proof.Proof.Gen.KernelIdeal.Frame
import proofs.«429772_j53867479827167_3_alg».proof.Proof.KPay1
import proofs.«429772_j53867479827167_3_alg».proof.Proof.Spec
import Idealize.ShloMosaic.Lib.Pipeline.Value
import Idealize.ShloMosaic.Lib.Pipeline.CanonAppend
import Idealize.ShloMosaic.Lib.Pipeline.RowLoads
import Idealize.ShloMosaic.Lib.ValueIdx
import Idealize.ShloMosaic.Lib.Ring
import Idealize.ShloMosaic.Lib.Tactic

set_option maxRecDepth 16384

noncomputable section

namespace Cert.KernelIdeal.AggValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.GcnSpec
open scoped BigOperators

section Arrays

variable (V : (c : Dev nD) → (b : Ref sig .tc) → Buf (Elt Ideal) ((c : Thread nD τ).loc b))

/-- The region's arrays as it finds them: the node table, the edges' sources, destinations and weights, the bias. -/
abbrev tab1 (c : Dev nD) : Vec Ideal S50176x64 .bf16 := V c (Pipeline.arrRef spec1 0)
abbrev srcs1 (c : Dev nD) : Vec Ideal S1x1050112 .i32 := V c (Pipeline.arrRef spec1 1)
abbrev dsts1 (c : Dev nD) : Vec Ideal S1x1050112 .i32 := V c (Pipeline.arrRef spec1 2)
abbrev wts1 (c : Dev nD) : Vec Ideal S1x1050112 .f32 := V c (Pipeline.arrRef spec1 3)
abbrev bias1 (c : Dev nD) : Vec Ideal S64 .f32 := V c (Pipeline.arrRef spec1 4)

end Arrays

namespace R1

/-! ## Whole rows of a rank-two array through a unit-stride rectangle -/

section Rows

variable {Val : EltTy → Type} {e : EltTy} {m n k : Nat}

/-- Row `r`, column `f` of a rectangle of `k` whole rows from row `o` is row `o + r`, column `f` of the array. -/
theorem emb_rows (o : Nat) (inb : ∀ a, (![o, 0] : Fin 2 → Nat) a + (![k, n] : Fin 2 → Nat) a ≤ (⟨2, ![m, n]⟩ : Shape).size a)
    (r : Fin k) (f : Fin n) (h : o + r.val < m) :
    (Rect.unit (s := (⟨2, ![m, n]⟩ : Shape)) ![o, 0] ![k, n] inb).emb (ix2 r f) = ix2 (⟨o + r.val, h⟩ : Fin m) f := by
  funext a; apply Fin.ext
  match a with
  | ⟨0, _⟩ => show o + 1 * r.val = o + r.val; omega
  | ⟨1, _⟩ => show 0 + 1 * f.val = f.val; omega

/-- A load of those rows reads the array there. -/
theorem ld_rows (X : (⟨2, ![m, n]⟩ : Shape).Idx → Val e) (o : Nat)
    (inb : ∀ a, (![o, 0] : Fin 2 → Nat) a + (![k, n] : Fin 2 → Nat) a ≤ (⟨2, ![m, n]⟩ : Shape).size a)
    (r : Fin k) (f : Fin n) (h : o + r.val < m) :
    View.ld X (Rect.unit (s := (⟨2, ![m, n]⟩ : Shape)) ![o, 0] ![k, n] inb) (ix2 r f) = X (ix2 (⟨o + r.val, h⟩ : Fin m) f) :=
  congrArg X (emb_rows o inb r f h)

/-- A store of those rows agrees with a function `G` of the array's index when its payload at `(r, f)` is `G` at `(o + r, f)`. -/
theorem piece_rows (G : (⟨2, ![m, n]⟩ : Shape).Idx → Val e) (o : Nat)
    (inb : ∀ a, (![o, 0] : Fin 2 → Nat) a + (![k, n] : Fin 2 → Nat) a ≤ (⟨2, ![m, n]⟩ : Shape).size a)
    (w : (⟨2, ![k, n]⟩ : Shape).Idx → Val e)
    (h : ∀ (r : Fin k) (f : Fin n) (hr : o + r.val < m), w (ix2 r f) = G (ix2 (⟨o + r.val, hr⟩ : Fin m) f)) :
    ∀ x : (Rect.unit (s := (⟨2, ![m, n]⟩ : Shape)) ![o, 0] ![k, n] inb).shape.Idx,
      w x = G ((Rect.unit (s := (⟨2, ![m, n]⟩ : Shape)) ![o, 0] ![k, n] inb).emb x) := by
  intro x
  have hk : o + k ≤ m := inb 0
  obtain ⟨r, f, rfl⟩ : ∃ (r : Fin k) (f : Fin n), x = ix2 r f := ⟨x 0, x 1, eq_ix2 (n0 := k) (n1 := n) x⟩
  have hr : o + r.val < m := by have := r.isLt; omega
  rw [emb_rows o inb r f hr]
  exact h r f hr

end Rows

theorem hz1 : (![0] : Fin 1 → Nat) = fun _ => 0 := funext fun a => by fin_cases a; rfl
theorem hz2 : (![0, 0] : Fin 2 → Nat) = fun _ => 0 := funext fun a => by fin_cases a <;> rfl

/-! ## One block of 256 edges: what the eight chunk updates add -/

section Chunks

variable (x0 : Vec Ideal S50176x64 .bf16) (x1 x2 : Vec Ideal S1x256 .i32) (x3 : Vec Ideal S1x256 .f32)

/-- Chunk 0 of the table: its rows from 0. -/
abbrev tch0 : Vec Ideal S6272x64 .bf16 := View.ld x0 (Rect.unit ![0, 0] ![6272, 64] inb_S50176x64_S6272x64_0_0)
/-- Chunk 1 of the table: its rows from 6272. -/
abbrev tch1 : Vec Ideal S6272x64 .bf16 := View.ld x0 (Rect.unit ![6272, 0] ![6272, 64] inb_S50176x64_S6272x64_6272_0)
/-- Chunk 2 of the table: its rows from 12544. -/
abbrev tch2 : Vec Ideal S6272x64 .bf16 := View.ld x0 (Rect.unit ![12544, 0] ![6272, 64] inb_S50176x64_S6272x64_12544_0)
/-- Chunk 3 of the table: its rows from 18816. -/
abbrev tch3 : Vec Ideal S6272x64 .bf16 := View.ld x0 (Rect.unit ![18816, 0] ![6272, 64] inb_S50176x64_S6272x64_18816_0)
/-- Chunk 4 of the table: its rows from 25088. -/
abbrev tch4 : Vec Ideal S6272x64 .bf16 := View.ld x0 (Rect.unit ![25088, 0] ![6272, 64] inb_S50176x64_S6272x64_25088_0)
/-- Chunk 5 of the table: its rows from 31360. -/
abbrev tch5 : Vec Ideal S6272x64 .bf16 := View.ld x0 (Rect.unit ![31360, 0] ![6272, 64] inb_S50176x64_S6272x64_31360_0)
/-- Chunk 6 of the table: its rows from 37632. -/
abbrev tch6 : Vec Ideal S6272x64 .bf16 := View.ld x0 (Rect.unit ![37632, 0] ![6272, 64] inb_S50176x64_S6272x64_37632_0)
/-- Chunk 7 of the table: its rows from 43904. -/
abbrev tch7 : Vec Ideal S6272x64 .bf16 := View.ld x0 (Rect.unit ![43904, 0] ![6272, 64] inb_S50176x64_S6272x64_43904_0)

/-- The block's messages over the table's eight chunks. -/
abbrev msgs : FVec Ideal S256x64 .bf16 :=
  Pay.msg1 x1 x3 (tch0 x0) (tch1 x0) (tch2 x0) (tch3 x0) (tch4 x0) (tch5 x0) (tch6 x0) (tch7 x0)

/-- What the block adds to entry `f` of node row `n`: over its edges, the weight of `n` being the edge's destination
    times the edge's message. -/
def blk (n : Fin 50176) (f : Fin 64) : EReal :=
  ∑ e : Fin 256, ohw (BitVec.ofNat 32 n.val) (x2 (ix2 (0 : Fin 1) e))
    * (gathK (fun r k => x0 (ix2 r k)) (x1 (ix2 (0 : Fin 1) e)) f * x3 (ix2 (0 : Fin 1) e))

theorem msgs_apply (e : Fin 256) (f : Fin 64) :
    msgs x0 x1 x3 (ix2 e f) = gathK (fun r k => x0 (ix2 r k)) (x1 (ix2 (0 : Fin 1) e)) f * x3 (ix2 (0 : Fin 1) e) :=
  Pay.msg1_apply x1 x3 (tch0 x0) (tch1 x0) (tch2 x0) (tch3 x0) (tch4 x0) (tch5 x0) (tch6 x0) (tch7 x0) (fun r k => x0 (ix2 r k))
    (fun j f => ld_rows x0 0 _ j f _)
    (fun j f => ld_rows x0 6272 _ j f _)
    (fun j f => ld_rows x0 12544 _ j f _)
    (fun j f => ld_rows x0 18816 _ j f _)
    (fun j f => ld_rows x0 25088 _ j f _)
    (fun j f => ld_rows x0 31360 _ j f _)
    (fun j f => ld_rows x0 37632 _ j f _)
    (fun j f => ld_rows x0 43904 _ j f _) e f

/-- Chunk 0's update at row `r`: what was there plus the block's share of node row `0 + r`. -/
theorem chunk0 (cur : Vec Ideal S6272x64 .f32) (r : Fin 6272) (f : Fin 64) (h : 0 + r.val < 50176) :
    k1_pay15 (msgs x0 x1 x3) (k1_pay14 (k1_pay6 x2)) cur (ix2 r f)
      = cur (ix2 r f) + blk x0 x1 x2 x3 ⟨0 + r.val, h⟩ f := by
  rw [Pay.upd1_0]
  unfold blk
  refine congrArg (cur (ix2 r f) + ·) (Finset.sum_congr rfl fun e _ => ?_)
  exact congrArg (ohw _ _ * ·) (msgs_apply x0 x1 x3 e f)

/-- Chunk 1's update at row `r`: what was there plus the block's share of node row `6272 + r`. -/
theorem chunk1 (cur : Vec Ideal S6272x64 .f32) (r : Fin 6272) (f : Fin 64) (h : 6272 + r.val < 50176) :
    k1_pay16 (k1_pay6 x2) (msgs x0 x1 x3) cur (ix2 r f)
      = cur (ix2 r f) + blk x0 x1 x2 x3 ⟨6272 + r.val, h⟩ f := by
  rw [Pay.upd1_1]
  unfold blk
  refine congrArg (cur (ix2 r f) + ·) (Finset.sum_congr rfl fun e _ => ?_)
  exact congrArg (ohw _ _ * ·) (msgs_apply x0 x1 x3 e f)

/-- Chunk 2's update at row `r`: what was there plus the block's share of node row `12544 + r`. -/
theorem chunk2 (cur : Vec Ideal S6272x64 .f32) (r : Fin 6272) (f : Fin 64) (h : 12544 + r.val < 50176) :
    k1_pay17 (k1_pay6 x2) (msgs x0 x1 x3) cur (ix2 r f)
      = cur (ix2 r f) + blk x0 x1 x2 x3 ⟨12544 + r.val, h⟩ f := by
  rw [Pay.upd1_2]
  unfold blk
  refine congrArg (cur (ix2 r f) + ·) (Finset.sum_congr rfl fun e _ => ?_)
  exact congrArg (ohw _ _ * ·) (msgs_apply x0 x1 x3 e f)

/-- Chunk 3's update at row `r`: what was there plus the block's share of node row `18816 + r`. -/
theorem chunk3 (cur : Vec Ideal S6272x64 .f32) (r : Fin 6272) (f : Fin 64) (h : 18816 + r.val < 50176) :
    k1_pay20 (msgs x0 x1 x3) k1_pay18 (k1_pay19 (k1_pay6 x2)) cur (ix2 r f)
      = cur (ix2 r f) + blk x0 x1 x2 x3 ⟨18816 + r.val, h⟩ f := by
  rw [Pay.upd1_3]
  unfold blk
  refine congrArg (cur (ix2 r f) + ·) (Finset.sum_congr rfl fun e _ => ?_)
  exact congrArg (ohw _ _ * ·) (msgs_apply x0 x1 x3 e f)

/-- Chunk 4's update at row `r`: what was there plus the block's share of node row `25088 + r`. -/
theorem chunk4 (cur : Vec Ideal S6272x64 .f32) (r : Fin 6272) (f : Fin 64) (h : 25088 + r.val < 50176) :
    k1_pay21 (k1_pay6 x2) (msgs x0 x1 x3) cur (ix2 r f)
      = cur (ix2 r f) + blk x0 x1 x2 x3 ⟨25088 + r.val, h⟩ f := by
  rw [Pay.upd1_4]
  unfold blk
  refine congrArg (cur (ix2 r f) + ·) (Finset.sum_congr rfl fun e _ => ?_)
  exact congrArg (ohw _ _ * ·) (msgs_apply x0 x1 x3 e f)

/-- Chunk 5's update at row `r`: what was there plus the block's share of node row `31360 + r`. -/
theorem chunk5 (cur : Vec Ideal S6272x64 .f32) (r : Fin 6272) (f : Fin 64) (h : 31360 + r.val < 50176) :
    k1_pay22 (k1_pay6 x2) (msgs x0 x1 x3) cur (ix2 r f)
      = cur (ix2 r f) + blk x0 x1 x2 x3 ⟨31360 + r.val, h⟩ f := by
  rw [Pay.upd1_5]
  unfold blk
  refine congrArg (cur (ix2 r f) + ·) (Finset.sum_congr rfl fun e _ => ?_)
  exact congrArg (ohw _ _ * ·) (msgs_apply x0 x1 x3 e f)

/-- Chunk 6's update at row `r`: what was there plus the block's share of node row `37632 + r`. -/
theorem chunk6 (cur : Vec Ideal S6272x64 .f32) (r : Fin 6272) (f : Fin 64) (h : 37632 + r.val < 50176) :
    k1_pay1 (k1_pay6 x2) (msgs x0 x1 x3) cur (ix2 r f)
      = cur (ix2 r f) + blk x0 x1 x2 x3 ⟨37632 + r.val, h⟩ f := by
  rw [Pay.upd1_6]
  unfold blk
  refine congrArg (cur (ix2 r f) + ·) (Finset.sum_congr rfl fun e _ => ?_)
  exact congrArg (ohw _ _ * ·) (msgs_apply x0 x1 x3 e f)

/-- Chunk 7's update at row `r`: what was there plus the block's share of node row `43904 + r`. -/
theorem chunk7 (cur : Vec Ideal S6272x64 .f32) (r : Fin 6272) (f : Fin 64) (h : 43904 + r.val < 50176) :
    k1_pay2 (k1_pay6 x2) (msgs x0 x1 x3) cur (ix2 r f)
      = cur (ix2 r f) + blk x0 x1 x2 x3 ⟨43904 + r.val, h⟩ f := by
  rw [Pay.upd1_7]
  unfold blk
  refine congrArg (cur (ix2 r f) + ·) (Finset.sum_congr rfl fun e _ => ?_)
  exact congrArg (ohw _ _ * ·) (msgs_apply x0 x1 x3 e f)

/-- The eight chunk stores, last first, each over what its rows held before (`cur·`). -/
def P8 (cur0 cur1 cur2 cur3 cur4 cur5 cur6 cur7 : Vec Ideal S6272x64 .f32) : List (View.Piece (Elt Ideal) S50176x64 .f32) :=
  [⟨Rect.unit ![43904, 0] ![6272, 64] inb_S50176x64_S6272x64_43904_0, k1_pay2 (k1_pay6 x2) (msgs x0 x1 x3) cur7⟩,
   ⟨Rect.unit ![37632, 0] ![6272, 64] inb_S50176x64_S6272x64_37632_0, k1_pay1 (k1_pay6 x2) (msgs x0 x1 x3) cur6⟩,
   ⟨Rect.unit ![31360, 0] ![6272, 64] inb_S50176x64_S6272x64_31360_0, k1_pay22 (k1_pay6 x2) (msgs x0 x1 x3) cur5⟩,
   ⟨Rect.unit ![25088, 0] ![6272, 64] inb_S50176x64_S6272x64_25088_0, k1_pay21 (k1_pay6 x2) (msgs x0 x1 x3) cur4⟩,
   ⟨Rect.unit ![18816, 0] ![6272, 64] inb_S50176x64_S6272x64_18816_0, k1_pay20 (msgs x0 x1 x3) k1_pay18 (k1_pay19 (k1_pay6 x2)) cur3⟩,
   ⟨Rect.unit ![12544, 0] ![6272, 64] inb_S50176x64_S6272x64_12544_0, k1_pay17 (k1_pay6 x2) (msgs x0 x1 x3) cur2⟩,
   ⟨Rect.unit ![6272, 0] ![6272, 64] inb_S50176x64_S6272x64_6272_0, k1_pay16 (k1_pay6 x2) (msgs x0 x1 x3) cur1⟩,
   ⟨Rect.unit ![0, 0] ![6272, 64] inb_S50176x64_S6272x64_0_0, k1_pay15 (msgs x0 x1 x3) (k1_pay14 (k1_pay6 x2)) cur0⟩]

/-- Read back at node row `n`, whatever was stored before them: what the rows held before (`base`) plus the block's share. -/
theorem P8_canon (L' : List (View.Piece (Elt Ideal) S50176x64 .f32)) (base : S50176x64.Idx → EReal)
    (cur0 cur1 cur2 cur3 cur4 cur5 cur6 cur7 : Vec Ideal S6272x64 .f32)
    (h0 : ∀ (r : Fin 6272) (f : Fin 64) (hr : 0 + r.val < 50176), cur0 (ix2 r f) = base (ix2 (⟨0 + r.val, hr⟩ : Fin 50176) f))
    (h1 : ∀ (r : Fin 6272) (f : Fin 64) (hr : 6272 + r.val < 50176), cur1 (ix2 r f) = base (ix2 (⟨6272 + r.val, hr⟩ : Fin 50176) f))
    (h2 : ∀ (r : Fin 6272) (f : Fin 64) (hr : 12544 + r.val < 50176), cur2 (ix2 r f) = base (ix2 (⟨12544 + r.val, hr⟩ : Fin 50176) f))
    (h3 : ∀ (r : Fin 6272) (f : Fin 64) (hr : 18816 + r.val < 50176), cur3 (ix2 r f) = base (ix2 (⟨18816 + r.val, hr⟩ : Fin 50176) f))
    (h4 : ∀ (r : Fin 6272) (f : Fin 64) (hr : 25088 + r.val < 50176), cur4 (ix2 r f) = base (ix2 (⟨25088 + r.val, hr⟩ : Fin 50176) f))
    (h5 : ∀ (r : Fin 6272) (f : Fin 64) (hr : 31360 + r.val < 50176), cur5 (ix2 r f) = base (ix2 (⟨31360 + r.val, hr⟩ : Fin 50176) f))
    (h6 : ∀ (r : Fin 6272) (f : Fin 64) (hr : 37632 + r.val < 50176), cur6 (ix2 r f) = base (ix2 (⟨37632 + r.val, hr⟩ : Fin 50176) f))
    (h7 : ∀ (r : Fin 6272) (f : Fin 64) (hr : 43904 + r.val < 50176), cur7 (ix2 r f) = base (ix2 (⟨43904 + r.val, hr⟩ : Fin 50176) f))
    (n : Fin 50176) (f : Fin 64) :
    View.canon (P8 x0 x1 x2 x3 cur0 cur1 cur2 cur3 cur4 cur5 cur6 cur7 ++ L') (ix2 n f) = base (ix2 n f) + blk x0 x1 x2 x3 n f := by
  refine View.canon_append_of_pieces (fun y => base y + blk x0 x1 x2 x3 (y 0) (y 1)) L' _ ?_ (ix2 n f) ?_
  · intro p hp
    unfold P8 at hp
    simp only [List.mem_cons, List.not_mem_nil, or_false] at hp
    rcases hp with rfl | rfl | rfl | rfl | rfl | rfl | rfl | rfl
    · refine piece_rows (Val := Elt Ideal) (e := .f32) (m := 50176) (n := 64) (k := 6272) (fun y => base y + blk x0 x1 x2 x3 (y 0) (y 1)) 43904 inb_S50176x64_S6272x64_43904_0 _ ?_
      intro r f hr
      exact (chunk7 x0 x1 x2 x3 cur7 r f hr).trans (congrArg (· + blk x0 x1 x2 x3 ⟨43904 + r.val, hr⟩ f) (h7 r f hr))
    · refine piece_rows (Val := Elt Ideal) (e := .f32) (m := 50176) (n := 64) (k := 6272) (fun y => base y + blk x0 x1 x2 x3 (y 0) (y 1)) 37632 inb_S50176x64_S6272x64_37632_0 _ ?_
      intro r f hr
      exact (chunk6 x0 x1 x2 x3 cur6 r f hr).trans (congrArg (· + blk x0 x1 x2 x3 ⟨37632 + r.val, hr⟩ f) (h6 r f hr))
    · refine piece_rows (Val := Elt Ideal) (e := .f32) (m := 50176) (n := 64) (k := 6272) (fun y => base y + blk x0 x1 x2 x3 (y 0) (y 1)) 31360 inb_S50176x64_S6272x64_31360_0 _ ?_
      intro r f hr
      exact (chunk5 x0 x1 x2 x3 cur5 r f hr).trans (congrArg (· + blk x0 x1 x2 x3 ⟨31360 + r.val, hr⟩ f) (h5 r f hr))
    · refine piece_rows (Val := Elt Ideal) (e := .f32) (m := 50176) (n := 64) (k := 6272) (fun y => base y + blk x0 x1 x2 x3 (y 0) (y 1)) 25088 inb_S50176x64_S6272x64_25088_0 _ ?_
      intro r f hr
      exact (chunk4 x0 x1 x2 x3 cur4 r f hr).trans (congrArg (· + blk x0 x1 x2 x3 ⟨25088 + r.val, hr⟩ f) (h4 r f hr))
    · refine piece_rows (Val := Elt Ideal) (e := .f32) (m := 50176) (n := 64) (k := 6272) (fun y => base y + blk x0 x1 x2 x3 (y 0) (y 1)) 18816 inb_S50176x64_S6272x64_18816_0 _ ?_
      intro r f hr
      exact (chunk3 x0 x1 x2 x3 cur3 r f hr).trans (congrArg (· + blk x0 x1 x2 x3 ⟨18816 + r.val, hr⟩ f) (h3 r f hr))
    · refine piece_rows (Val := Elt Ideal) (e := .f32) (m := 50176) (n := 64) (k := 6272) (fun y => base y + blk x0 x1 x2 x3 (y 0) (y 1)) 12544 inb_S50176x64_S6272x64_12544_0 _ ?_
      intro r f hr
      exact (chunk2 x0 x1 x2 x3 cur2 r f hr).trans (congrArg (· + blk x0 x1 x2 x3 ⟨12544 + r.val, hr⟩ f) (h2 r f hr))
    · refine piece_rows (Val := Elt Ideal) (e := .f32) (m := 50176) (n := 64) (k := 6272) (fun y => base y + blk x0 x1 x2 x3 (y 0) (y 1)) 6272 inb_S50176x64_S6272x64_6272_0 _ ?_
      intro r f hr
      exact (chunk1 x0 x1 x2 x3 cur1 r f hr).trans (congrArg (· + blk x0 x1 x2 x3 ⟨6272 + r.val, hr⟩ f) (h1 r f hr))
    · refine piece_rows (Val := Elt Ideal) (e := .f32) (m := 50176) (n := 64) (k := 6272) (fun y => base y + blk x0 x1 x2 x3 (y 0) (y 1)) 0 inb_S50176x64_S6272x64_0_0 _ ?_
      intro r f hr
      exact (chunk0 x0 x1 x2 x3 cur0 r f hr).trans (congrArg (· + blk x0 x1 x2 x3 ⟨0 + r.val, hr⟩ f) (h0 r f hr))
  · exact View.cover_of_tiledL (P8 x0 x1 x2 x3 cur0 cur1 cur2 cur3 cur4 cur5 cur6 cur7) S6272x64.size (by sl_kernel_rfl) (ix2 n f)

end Chunks

/-! ## The three control cases: what the body leaves in the output's buffer, read at a node row -/

section Cases

/-- The zero fill reads zero everywhere. -/
theorem zero_all (y : S50176x64.Idx) : (k1_pay4 (F := Ideal)) y = 0 := by
  rw [eq_ix2 y]; exact Pay.zero1_apply _ _

/-- The whole array's rectangle places an index at itself. -/
theorem idx_whole (inb : ∀ a, (![0, 0] : Fin 2 → Nat) a + (![50176, 64] : Fin 2 → Nat) a ≤ S50176x64.size a) (n : Fin 50176) (f : Fin 64) :
    (Rect.unit (s := S50176x64) ![0, 0] ![50176, 64] inb).toLoadRect.idx (ix2 n f) = ix2 n f := by
  funext a; apply Fin.ext
  match a with
  | ⟨0, _⟩ => show 0 + 1 * n.val = n.val; omega
  | ⟨1, _⟩ => show 0 + 1 * f.val = f.val; omega

/-- A middle point: the eight chunk updates over what the point before left. -/
theorem out_B (c : Dev nD) (i : grid1.Coords) (arg1 : Memref sig .tc .vmem S50176x64 .bf16) (harg1 : arg1.IsWhole) (arg2 : Memref sig .tc .vmem S1x256 .i32) (harg2 : arg2.IsWhole) (arg3 : Memref sig .tc .vmem S1x256 .i32) (harg3 : arg3.IsWhole) (arg4 : Memref sig .tc .vmem S1x256 .f32) (harg4 : arg4.IsWhole) (arg5 : Memref sig .tc .vmem S64 .f32) (harg5 : arg5.IsWhole) (arg6 : Memref sig .tc .vmem S50176x64 .f32) (harg6 : arg6.IsWhole) (hc0 : ¬cond1_0 i) (hc1 : ¬cond1_1 i)
    (x0 : Vec Ideal S50176x64 .bf16) (x1 : Vec Ideal S1x256 .i32) (x2 : Vec Ideal S1x256 .i32) (x3 : Vec Ideal S1x256 .f32) (x4 : Vec Ideal S64 .f32) (xo5 : Vec Ideal S50176x64 .f32) (n : Fin 50176) (f : Fin 64) :
    out1_B_5 (F := Ideal) c i arg1 harg1 arg2 harg2 arg3 harg3 arg4 harg4 arg5 harg5 arg6 harg6 hc0 hc1 x0 x1 x2 x3 x4 xo5 (ix2 n f) = xo5 (ix2 n f) + blk x0 x1 x2 x3 n f := by
  unfold out1_B_5
  rw [View.read_writes_eq_canon _ _ _ (cover1_B_5 c i arg1 harg1 arg2 harg2 arg3 harg3 arg4 harg4 arg5 harg5 arg6 harg6 hc0 hc1 x0 x1 x2 x3 x4 xo5)]
  unfold kernelRun1_B
  dsimp only
  sl_unfold_words
  simp only [View.readAt_eq_ld, harg1.read_unread, harg2.read_unread, harg3.read_unread, harg4.read_unread, harg5.read_unread,
    harg6.read_unread, View.ld_unit_zero (S := S1x256) hz2, View.ld_unit_zero (S := S64) hz1]
  exact P8_canon x0 x1 x2 x3 [] xo5 _ _ _ _ _ _ _ _
    (fun r f hr => ld_rows xo5 0 _ r f hr)
    (fun r f hr => ld_rows xo5 6272 _ r f hr)
    (fun r f hr => ld_rows xo5 12544 _ r f hr)
    (fun r f hr => ld_rows xo5 18816 _ r f hr)
    (fun r f hr => ld_rows xo5 25088 _ r f hr)
    (fun r f hr => ld_rows xo5 31360 _ r f hr)
    (fun r f hr => ld_rows xo5 37632 _ r f hr)
    (fun r f hr => ld_rows xo5 43904 _ r f hr) n f

/-- The last point: the eight updates, then the bias added and the positive part taken, everywhere. -/
theorem out_C (c : Dev nD) (i : grid1.Coords) (arg1 : Memref sig .tc .vmem S50176x64 .bf16) (harg1 : arg1.IsWhole) (arg2 : Memref sig .tc .vmem S1x256 .i32) (harg2 : arg2.IsWhole) (arg3 : Memref sig .tc .vmem S1x256 .i32) (harg3 : arg3.IsWhole) (arg4 : Memref sig .tc .vmem S1x256 .f32) (harg4 : arg4.IsWhole) (arg5 : Memref sig .tc .vmem S64 .f32) (harg5 : arg5.IsWhole) (arg6 : Memref sig .tc .vmem S50176x64 .f32) (harg6 : arg6.IsWhole) (hc0 : ¬cond1_0 i) (hc1 : cond1_1 i)
    (x0 : Vec Ideal S50176x64 .bf16) (x1 : Vec Ideal S1x256 .i32) (x2 : Vec Ideal S1x256 .i32) (x3 : Vec Ideal S1x256 .f32) (x4 : Vec Ideal S64 .f32) (xo5 : Vec Ideal S50176x64 .f32) (n : Fin 50176) (f : Fin 64) :
    out1_C_5 (F := Ideal) c i arg1 harg1 arg2 harg2 arg3 harg3 arg4 harg4 arg5 harg5 arg6 harg6 hc0 hc1 x0 x1 x2 x3 x4 xo5 (ix2 n f) = max (xo5 (ix2 n f) + blk x0 x1 x2 x3 n f + x4 (ix1 f)) 0 := by
  unfold out1_C_5
  rw [View.read_writes_eq_canon _ _ _ (cover1_C_5 c i arg1 harg1 arg2 harg2 arg3 harg3 arg4 harg4 arg5 harg5 arg6 harg6 hc0 hc1 x0 x1 x2 x3 x4 xo5)]
  unfold kernelRun1_C
  dsimp only
  sl_unfold_words
  simp only [View.readAt_eq_ld, harg1.read_unread, harg2.read_unread, harg3.read_unread, harg4.read_unread, harg5.read_unread,
    harg6.read_unread, View.ld_unit_zero (S := S1x256) hz2, View.ld_unit_zero (S := S64) hz1]
  rw [View.canon_cons_unit_zero (S := S50176x64) hz2, Pay.fin1_apply, View.readCov_eq_canon']
  refine congrArg (max · 0) (congrArg (· + x4 (ix1 f)) ?_)
  refine (congrArg (View.canon _) (idx_whole _ n f)).trans ?_
  exact P8_canon x0 x1 x2 x3 [] xo5 _ _ _ _ _ _ _ _
    (fun r f hr => ld_rows xo5 0 _ r f hr)
    (fun r f hr => ld_rows xo5 6272 _ r f hr)
    (fun r f hr => ld_rows xo5 12544 _ r f hr)
    (fun r f hr => ld_rows xo5 18816 _ r f hr)
    (fun r f hr => ld_rows xo5 25088 _ r f hr)
    (fun r f hr => ld_rows xo5 31360 _ r f hr)
    (fun r f hr => ld_rows xo5 37632 _ r f hr)
    (fun r f hr => ld_rows xo5 43904 _ r f hr) n f

/-- The first point: the zero fill, then the eight updates, each over the zeros still in its rows. -/
theorem out_A (c : Dev nD) (i : grid1.Coords) (arg1 : Memref sig .tc .vmem S50176x64 .bf16) (harg1 : arg1.IsWhole) (arg2 : Memref sig .tc .vmem S1x256 .i32) (harg2 : arg2.IsWhole) (arg3 : Memref sig .tc .vmem S1x256 .i32) (harg3 : arg3.IsWhole) (arg4 : Memref sig .tc .vmem S1x256 .f32) (harg4 : arg4.IsWhole) (arg5 : Memref sig .tc .vmem S64 .f32) (harg5 : arg5.IsWhole) (arg6 : Memref sig .tc .vmem S50176x64 .f32) (harg6 : arg6.IsWhole) (hc0 : cond1_0 i) (hc1 : ¬cond1_1 i)
    (x0 : Vec Ideal S50176x64 .bf16) (x1 : Vec Ideal S1x256 .i32) (x2 : Vec Ideal S1x256 .i32) (x3 : Vec Ideal S1x256 .f32) (x4 : Vec Ideal S64 .f32) (n : Fin 50176) (f : Fin 64) :
    out1_A_5 (F := Ideal) c i arg1 harg1 arg2 harg2 arg3 harg3 arg4 harg4 arg5 harg5 arg6 harg6 hc0 hc1 x0 x1 x2 x3 x4 (ix2 n f) = 0 + blk x0 x1 x2 x3 n f := by
  unfold out1_A_5
  rw [View.read_writes_eq_canon _ _ _ (cover1_A_5 c i arg1 harg1 arg2 harg2 arg3 harg3 arg4 harg4 arg5 harg5 arg6 harg6 hc0 hc1 x0 x1 x2 x3 x4)]
  unfold kernelRun1_A
  dsimp only
  sl_unfold_words
  simp only [View.readAt_eq_ld, harg1.read_unread, harg2.read_unread, harg3.read_unread, harg4.read_unread, harg5.read_unread,
    harg6.read_unread, View.ld_unit_zero (S := S1x256) hz2, View.ld_unit_zero (S := S64) hz1]
  refine P8_canon x0 x1 x2 x3 _ (fun _ => 0)
    _ _ _ _ _ _ _ _ ?_ ?_ ?_ ?_ ?_ ?_ ?_ ?_ n f
  · intro r f hr
    rw [View.readCov_eq_canon', View.canon_unit_zero (S := S50176x64) hz2]
    exact zero_all _
  · intro r f hr
    rw [View.readCov_cons_of_rows_disjoint (k := 6272) (k' := 6272) _ 0 6272 (Or.inl (by omega))]
    rw [View.readCov_eq_canon', View.canon_unit_zero (S := S50176x64) hz2]
    exact zero_all _
  · intro r f hr
    rw [View.readCov_cons_of_rows_disjoint (k := 6272) (k' := 6272) _ 6272 12544 (Or.inl (by omega)),
      View.readCov_cons_of_rows_disjoint (k := 6272) (k' := 6272) _ 0 12544 (Or.inl (by omega))]
    rw [View.readCov_eq_canon', View.canon_unit_zero (S := S50176x64) hz2]
    exact zero_all _
  · intro r f hr
    rw [View.readCov_cons_of_rows_disjoint (k := 6272) (k' := 6272) _ 12544 18816 (Or.inl (by omega)),
      View.readCov_cons_of_rows_disjoint (k := 6272) (k' := 6272) _ 6272 18816 (Or.inl (by omega)),
      View.readCov_cons_of_rows_disjoint (k := 6272) (k' := 6272) _ 0 18816 (Or.inl (by omega))]
    rw [View.readCov_eq_canon', View.canon_unit_zero (S := S50176x64) hz2]
    exact zero_all _
  · intro r f hr
    rw [View.readCov_cons_of_rows_disjoint (k := 6272) (k' := 6272) _ 18816 25088 (Or.inl (by omega)),
      View.readCov_cons_of_rows_disjoint (k := 6272) (k' := 6272) _ 12544 25088 (Or.inl (by omega)),
      View.readCov_cons_of_rows_disjoint (k := 6272) (k' := 6272) _ 6272 25088 (Or.inl (by omega)),
      View.readCov_cons_of_rows_disjoint (k := 6272) (k' := 6272) _ 0 25088 (Or.inl (by omega))]
    rw [View.readCov_eq_canon', View.canon_unit_zero (S := S50176x64) hz2]
    exact zero_all _
  · intro r f hr
    rw [View.readCov_cons_of_rows_disjoint (k := 6272) (k' := 6272) _ 25088 31360 (Or.inl (by omega)),
      View.readCov_cons_of_rows_disjoint (k := 6272) (k' := 6272) _ 18816 31360 (Or.inl (by omega)),
      View.readCov_cons_of_rows_disjoint (k := 6272) (k' := 6272) _ 12544 31360 (Or.inl (by omega)),
      View.readCov_cons_of_rows_disjoint (k := 6272) (k' := 6272) _ 6272 31360 (Or.inl (by omega)),
      View.readCov_cons_of_rows_disjoint (k := 6272) (k' := 6272) _ 0 31360 (Or.inl (by omega))]
    rw [View.readCov_eq_canon', View.canon_unit_zero (S := S50176x64) hz2]
    exact zero_all _
  · intro r f hr
    rw [View.readCov_cons_of_rows_disjoint (k := 6272) (k' := 6272) _ 31360 37632 (Or.inl (by omega)),
      View.readCov_cons_of_rows_disjoint (k := 6272) (k' := 6272) _ 25088 37632 (Or.inl (by omega)),
      View.readCov_cons_of_rows_disjoint (k := 6272) (k' := 6272) _ 18816 37632 (Or.inl (by omega)),
      View.readCov_cons_of_rows_disjoint (k := 6272) (k' := 6272) _ 12544 37632 (Or.inl (by omega)),
      View.readCov_cons_of_rows_disjoint (k := 6272) (k' := 6272) _ 6272 37632 (Or.inl (by omega)),
      View.readCov_cons_of_rows_disjoint (k := 6272) (k' := 6272) _ 0 37632 (Or.inl (by omega))]
    rw [View.readCov_eq_canon', View.canon_unit_zero (S := S50176x64) hz2]
    exact zero_all _
  · intro r f hr
    rw [View.readCov_cons_of_rows_disjoint (k := 6272) (k' := 6272) _ 37632 43904 (Or.inl (by omega)),
      View.readCov_cons_of_rows_disjoint (k := 6272) (k' := 6272) _ 31360 43904 (Or.inl (by omega)),
      View.readCov_cons_of_rows_disjoint (k := 6272) (k' := 6272) _ 25088 43904 (Or.inl (by omega)),
      View.readCov_cons_of_rows_disjoint (k := 6272) (k' := 6272) _ 18816 43904 (Or.inl (by omega)),
      View.readCov_cons_of_rows_disjoint (k := 6272) (k' := 6272) _ 12544 43904 (Or.inl (by omega)),
      View.readCov_cons_of_rows_disjoint (k := 6272) (k' := 6272) _ 6272 43904 (Or.inl (by omega)),
      View.readCov_cons_of_rows_disjoint (k := 6272) (k' := 6272) _ 0 43904 (Or.inl (by omega))]
    rw [View.readCov_eq_canon', View.canon_unit_zero (S := S50176x64) hz2]
    exact zero_all _

end Cases

/-! ## The region's arrays and blocks, and the grid -/

section Points

variable (V : (c : Dev nD) → (b : Ref sig .tc) → Buf (Elt Ideal) ((c : Thread nD τ).loc b))

/-- Their blocks at a grid point. -/
abbrev tblk1 (c : Dev nD) (t : Fin cfg1.N) : Vec Ideal S50176x64 .bf16 := iblk1 V c 0 t
abbrev sblk1 (c : Dev nD) (t : Fin cfg1.N) : Vec Ideal S1x256 .i32 := iblk1 V c 1 t
abbrev dblk1 (c : Dev nD) (t : Fin cfg1.N) : Vec Ideal S1x256 .i32 := iblk1 V c 2 t
abbrev wblk1 (c : Dev nD) (t : Fin cfg1.N) : Vec Ideal S1x256 .f32 := iblk1 V c 3 t
abbrev bblk1 (c : Dev nD) (t : Fin cfg1.N) : Vec Ideal S64 .f32 := iblk1 V c 4 t

/-- The windows' block indices over the grid: the table, the bias and the output never move; the edge lists move one block of
    256 a point. -/
theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = 0 ∧ win1_1.index t 1 = t.val :=
  (by decide +kernel : ∀ t : Fin grid1.N, win1_1.index t 0 = 0 ∧ win1_1.index t 1 = t.val)
theorem idx1_2 : ∀ t : Fin cfg1.N, win1_2.index t 0 = 0 ∧ win1_2.index t 1 = t.val :=
  (by decide +kernel : ∀ t : Fin grid1.N, win1_2.index t 0 = 0 ∧ win1_2.index t 1 = t.val)
theorem idx1_3 : ∀ t : Fin cfg1.N, win1_3.index t 0 = 0 ∧ win1_3.index t 1 = t.val :=
  (by decide +kernel : ∀ t : Fin grid1.N, win1_3.index t 0 = 0 ∧ win1_3.index t 1 = t.val)
theorem idx1_4 : ∀ t : Fin cfg1.N, win1_4.index t 0 = 0 :=
  (by decide +kernel : ∀ t : Fin grid1.N, win1_4.index t 0 = 0)
theorem idx1_5 : ∀ t : Fin cfg1.N, win1_5.index t 0 = 0 ∧ win1_5.index t 1 = 0 :=
  (by decide +kernel : ∀ t : Fin grid1.N, win1_5.index t 0 = 0 ∧ win1_5.index t 1 = 0)

/-- Entry `e` of an edge list's block `t` is entry `256 t + e` of the list. -/
theorem sblk1_apply (c : Dev nD) (t : Fin cfg1.N) (e : Fin 256) (h : 256 * t.val + e.val < 1050112) :
    sblk1 V c t (ix2 (0 : Fin 1) e) = srcs1 V c (ix2 (0 : Fin 1) ⟨256 * t.val + e.val, h⟩) := by
  unfold sblk1 srcs1 iblk1
  rw [View.read_apply]
  show V c (Pipeline.arrRef spec1 1) _ = V c (Pipeline.arrRef spec1 1) _
  congr 1
  funext a; apply Fin.ext
  match a with
  | ⟨0, _⟩ => show win1_1.index t 0 * 1 + 1 * 0 = 0; rw [(idx1_1 t).1]
  | ⟨1, _⟩ => show win1_1.index t 1 * 256 + 1 * e.val = 256 * t.val + e.val; rw [(idx1_1 t).2]; omega
theorem dblk1_apply (c : Dev nD) (t : Fin cfg1.N) (e : Fin 256) (h : 256 * t.val + e.val < 1050112) :
    dblk1 V c t (ix2 (0 : Fin 1) e) = dsts1 V c (ix2 (0 : Fin 1) ⟨256 * t.val + e.val, h⟩) := by
  unfold dblk1 dsts1 iblk1
  rw [View.read_apply]
  show V c (Pipeline.arrRef spec1 2) _ = V c (Pipeline.arrRef spec1 2) _
  congr 1
  funext a; apply Fin.ext
  match a with
  | ⟨0, _⟩ => show win1_2.index t 0 * 1 + 1 * 0 = 0; rw [(idx1_2 t).1]
  | ⟨1, _⟩ => show win1_2.index t 1 * 256 + 1 * e.val = 256 * t.val + e.val; rw [(idx1_2 t).2]; omega
theorem wblk1_apply (c : Dev nD) (t : Fin cfg1.N) (e : Fin 256) (h : 256 * t.val + e.val < 1050112) :
    wblk1 V c t (ix2 (0 : Fin 1) e) = wts1 V c (ix2 (0 : Fin 1) ⟨256 * t.val + e.val, h⟩) := by
  unfold wblk1 wts1 iblk1
  rw [View.read_apply]
  show V c (Pipeline.arrRef spec1 3) _ = V c (Pipeline.arrRef spec1 3) _
  congr 1
  funext a; apply Fin.ext
  match a with
  | ⟨0, _⟩ => show win1_3.index t 0 * 1 + 1 * 0 = 0; rw [(idx1_3 t).1]
  | ⟨1, _⟩ => show win1_3.index t 1 * 256 + 1 * e.val = 256 * t.val + e.val; rw [(idx1_3 t).2]; omega

/-- The table's one block is the table. -/
theorem tblk1_apply (c : Dev nD) (t : Fin cfg1.N) (n : Fin 50176) (f : Fin 64) :
    tblk1 V c t (ix2 n f) = tab1 V c (ix2 n f) := by
  unfold tblk1 tab1 iblk1
  rw [View.read_apply]
  show V c (Pipeline.arrRef spec1 0) _ = V c (Pipeline.arrRef spec1 0) _
  congr 1
  funext a; apply Fin.ext
  match a with
  | ⟨0, _⟩ => show win1_0.index t 0 * 50176 + 1 * n.val = n.val; rw [(idx1_0 t).1]; omega
  | ⟨1, _⟩ => show win1_0.index t 1 * 64 + 1 * f.val = f.val; rw [(idx1_0 t).2]; omega

/-- The bias's one block is the bias. -/
theorem bblk1_apply (c : Dev nD) (t : Fin cfg1.N) (f : Fin 64) :
    bblk1 V c t (ix1 f) = bias1 V c (ix1 f) := by
  unfold bblk1 bias1 iblk1
  rw [View.read_apply]
  show V c (Pipeline.arrRef spec1 4) _ = V c (Pipeline.arrRef spec1 4) _
  congr 1
  funext a; apply Fin.ext
  match a with
  | ⟨0, _⟩ => show win1_4.index t 0 * 64 + 1 * f.val = f.val; rw [idx1_4 t]; omega

/-- The specification's arguments: the table by rows, the edge lists by position. -/
abbrev H1 (c : Dev nD) : Fin 50176 → Fin 64 → EReal := fun r k => tab1 V c (ix2 r k)
abbrev S1 (c : Dev nD) : ℕ → BitVec 32 := rowAt (srcs1 V c) 0#32
abbrev D1 (c : Dev nD) : ℕ → BitVec 32 := rowAt (dsts1 V c) 0#32
abbrev W1 (c : Dev nD) : ℕ → EReal := rowAt (wts1 V c) 0

/-- What point `t`'s blocks add is the specification's share of edge block `t`. -/
theorem blk_eq (c : Dev nD) (t : Fin cfg1.N) (n : Fin 50176) (f : Fin 64) :
    blk (tblk1 V c t) (sblk1 V c t) (dblk1 V c t) (wblk1 V c t) n f = blockS (H1 V c) (S1 V c) (D1 V c) (W1 V c) t.val n f := by
  have hN : t.val < 4102 := lt_of_lt_of_eq t.isLt (show cfg1.N = 4102 from N_1)
  have hH : (fun r k => tblk1 V c t (ix2 r k)) = H1 V c := funext fun r => funext fun k => tblk1_apply V c t r k
  unfold blk blockS
  refine Finset.sum_congr rfl fun e _ => ?_
  have he : 256 * t.val + e.val < 1050112 := by have := e.isLt; omega
  rw [sblk1_apply V c t e he, dblk1_apply V c t e he, wblk1_apply V c t e he, hH]
  unfold S1 D1 W1 rowAt
  rw [dif_pos he, dif_pos he, dif_pos he]

/-! ## Point by point -/

/-- The first point leaves the first block's share added to zero. -/
theorem step_A (c : Dev nD) (t : Fin cfg1.N) (h0 : t.val % 4102 = 0) (h1 : ¬t.val % 4102 = 4101) (n : Fin 50176) (f : Fin 64) :
    outsAt1 V c t.val t.isLt (ix2 n f) = 0 + blockS (H1 V c) (S1 V c) (D1 V c) (W1 V c) t.val n f := by
  rw [outsAt1_A V c t h0 h1, out_A, blk_eq V c t n f]

/-- A middle point adds its block's share to what the point before left. -/
theorem step_B (c : Dev nD) (t : Fin cfg1.N) (h0 : ¬t.val % 4102 = 0) (h1 : ¬t.val % 4102 = 4101) (n : Fin 50176) (f : Fin 64) :
    outsAt1 V c t.val t.isLt (ix2 n f)
      = outsAt1 V c (t.val - 1) (Nat.lt_of_le_of_lt (Nat.sub_le _ _) t.isLt) (ix2 n f) + blockS (H1 V c) (S1 V c) (D1 V c) (W1 V c) t.val n f := by
  rw [outsAt1_B V c t h0 h1, out_B, blk_eq V c t n f]

/-- The last point adds its block's share, then the bias, and takes the positive part. -/
theorem step_C (c : Dev nD) (t : Fin cfg1.N) (h0 : ¬t.val % 4102 = 0) (h1 : t.val % 4102 = 4101) (n : Fin 50176) (f : Fin 64) :
    outsAt1 V c t.val t.isLt (ix2 n f)
      = max (outsAt1 V c (t.val - 1) (Nat.lt_of_le_of_lt (Nat.sub_le _ _) t.isLt) (ix2 n f) + blockS (H1 V c) (S1 V c) (D1 V c) (W1 V c) t.val n f
          + bias1 V c (ix1 f)) 0 := by
  rw [outsAt1_C V c t h0 h1, out_C, blk_eq V c t n f,
    show iblk1 V c 4 t (ix1 f) = bias1 V c (ix1 f) from bblk1_apply V c t f]

/-- Before the last point the output's buffer holds the specification's running sum. -/
theorem outs_lt (c : Dev nD) : ∀ (t : ℕ) (ht : t < cfg1.N), t < 4101 → ∀ (n : Fin 50176) (f : Fin 64),
    outsAt1 V c t ht (ix2 n f) = accK (H1 V c) (S1 V c) (D1 V c) (W1 V c) t n f
  | 0, ht, _, n, f => step_A V c ⟨0, ht⟩ rfl (show ¬0 % 4102 = 4101 from by decide) n f
  | t + 1, ht, hlt, n, f => by
    refine (step_B V c ⟨t + 1, ht⟩ (by dsimp only; omega) (by dsimp only; omega) n f).trans ?_
    exact congrArg (· + blockS (H1 V c) (S1 V c) (D1 V c) (W1 V c) (t + 1) n f) (outs_lt c t (Nat.lt_of_succ_lt ht) (by omega) n f)

/-! ## The output array when the region ends -/

theorem lastpt : 4101 < cfg1.N := by rw [show cfg1.N = 4102 from N_1]; decide

/-- The output's one block, read through the array's end of its transfer, is the whole array: stated for any contents. -/
theorem cut_eq_read (G : Vec Ideal S50176x64 .f32) :
    (cfg1.win 5).cut (grid1.coords ⟨4101, lastpt⟩) G = ((cfg1.win 5).blk ⟨4101, lastpt⟩).view.read (Elt Ideal) G := by
  have hz' : (fun a => win1_5.index ⟨4101, lastpt⟩ a * main_v40.ty.shape.size a) = fun _ => 0 := funext fun a => by
    match a with
    | ⟨0, _⟩ => show win1_5.index ⟨4101, lastpt⟩ 0 * _ = 0; rw [(idx1_5 _).1]; exact Nat.zero_mul _
    | ⟨1, _⟩ => show win1_5.index ⟨4101, lastpt⟩ 1 * _ = 0; rw [(idx1_5 _).2]; exact Nat.zero_mul _
  exact (Memref.read_access_unit_zero (Elt Ideal) main_v40 hz' (fun a => by rw [congrFun hz' a]; simp) G).symm

/-- The one write-back, after the last point, writes the whole buffer over the whole array: stated for any contents `G`
    the last point leaves. -/
theorem flushed1_eq_of (c : Dev nD) (G : Vec Ideal S50176x64 .f32) (hG : (dat1 V c).after 5 ⟨4101, lastpt⟩ = G)
    (t : Fin cfg1.N) (hf : (cfg1.win 5).flush t = true) :
    (dat1 V c).flushed 5 t = ((cfg1.win 5).blk t).view.read (Elt Ideal) G := by
  have hN : cfg1.N = 4102 := N_1
  have h3 : t.val = 4101 := by have := (flush1_5 t).mp hf; have := t.isLt; omega
  obtain rfl : t = ⟨4101, lastpt⟩ := Fin.ext h3
  show (cfg1.win 5).cut (grid1.coords ⟨4101, lastpt⟩) ((dat1 V c).after 5 ⟨4101, lastpt⟩) = _
  rw [hG]
  exact cut_eq_read G

/-- The last point's block covers the whole array. -/
theorem cover1_last (c : Dev nD) (i : ((cfg1.win 5).arr.view.loc (c.tc : Thread nD τ)).2.ty.Idx) :
    ∃ t : Fin cfg1.N, (cfg1.win 5).flush t = true ∧ i ∈ ((cfg1.win 5).blk t).view.set :=
  ⟨⟨4101, lastpt⟩, (flush1_5 _).mpr rfl, by
    show i ∈ ((View.whole main_v40).slice (win1_5.rect ⟨4101, lastpt⟩)).set
    rw [View.set_slice_whole, Rect.mem_set_unit]
    intro a
    have h0 : (i 0 : Nat) < 50176 := (i 0).isLt
    have h1 : (i 1 : Nat) < 64 := (i 1).isLt
    match a with
    | ⟨0, _⟩ =>
      show win1_5.index ⟨4101, lastpt⟩ 0 * win1_5.size 0 ≤ (i 0 : Nat)
        ∧ (i 0 : Nat) < win1_5.index ⟨4101, lastpt⟩ 0 * win1_5.size 0 + win1_5.xsize (grid1.coords ⟨4101, lastpt⟩) 0
      rw [(idx1_5 _).1, show win1_5.xsize (grid1.coords ⟨4101, lastpt⟩) 0 = 50176 from by decide +kernel]; omega
    | ⟨1, _⟩ =>
      show win1_5.index ⟨4101, lastpt⟩ 1 * win1_5.size 1 ≤ (i 1 : Nat)
        ∧ (i 1 : Nat) < win1_5.index ⟨4101, lastpt⟩ 1 * win1_5.size 1 + win1_5.xsize (grid1.coords ⟨4101, lastpt⟩) 1
      rw [(idx1_5 _).2, show win1_5.xsize (grid1.coords ⟨4101, lastpt⟩) 1 = 64 from by decide +kernel]; omega⟩

/-- So the array ends holding what the last point left, whatever that is, -/
theorem arr1_final_of (c : Dev nD) (G : Vec Ideal S50176x64 .f32) (hG : (dat1 V c).after 5 ⟨4101, lastpt⟩ = G) :
    (dat1 V c).arrAt 5 cfg1.N = G :=
  (dat1 V c).arrAt_eq_of_cover 5 G (flushed1_eq_of V c G hG) (cover1_last c)

/-- and that is the output's buffer after point 4101. -/
theorem arr1_final (c : Dev nD) : (dat1 V c).arrAt 5 cfg1.N = outsAt1 V c 4101 lastpt :=
  arr1_final_of V c (outsAt1 V c 4101 lastpt) (after1_5 V c ⟨4101, lastpt⟩)

end Points

end R1

section Value

open R1

variable (V : (c : Dev nD) → (b : Ref sig .tc) → Buf (Elt Ideal) ((c : Thread nD τ).loc b))

/-- THE VALUE: the region leaves, at entry `f` of node row `n`, the positive part of the 4102 blocks' running sum plus the bias. -/
theorem agg1_value (c : Dev nD) (n : Fin 50176) (f : Fin 64) :
    ((dat1 (F := Ideal) V c).arrAt 5 cfg1.N : Vec Ideal S50176x64 .f32) (ix2 n f)
      = max (accK (fun r k => tab1 V c (ix2 r k)) (rowAt (srcs1 V c) 0#32) (rowAt (dsts1 V c) 0#32) (rowAt (wts1 V c) 0) 4101 n f
          + bias1 V c (ix1 f)) 0 := by
  rw [arr1_final V c]
  refine (step_C V c ⟨4101, lastpt⟩ (by decide) rfl n f).trans ?_
  exact congrArg (fun z => max (z + blockS (H1 V c) (S1 V c) (D1 V c) (W1 V c) 4101 n f + bias1 V c (ix1 f)) 0)
    (outs_lt V c 4100 (Nat.lt_of_succ_lt lastpt) (by decide) n f)

end Value

end Cert.KernelIdeal.AggValue

end
-- ==== Proof.KPay3.lean ====
/-
  What the payloads of aggregation kernel two (feature width 32) compute at an index, at the ideal values.
-/
import proofs.«429772_j53867479827167_3_alg».proof.Proof.Gen.KernelIdeal.Skeleton
import proofs.«429772_j53867479827167_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.GcnSpec
open scoped BigOperators

namespace K3

/-- The zero-or-one weight of a word compare, widened and converted, is `ohw`. -/
theorem onehot_val (a b : BitVec 32) :
    (FloatOps.sitofp (F := Ideal) .f32 ((IntOp.cmpi .eq a b).setWidth 32) : EReal) = ohw a b := by
  show (((((IntOp.cmpi .eq a b).setWidth 32).toInt : ℤ) : ℝ) : EReal) = ohw a b
  unfold ohw IntOp.cmpi
  by_cases h : a = b
  · subst h
    simp
  · have hb : (a == b) = false := by simpa using h
    simp [hb, h]

/-- A 256×6272 by 6272×32 product into the zero splat, read at an index. -/
theorem mmG_apply (L : FVec Ideal S256x6272 .bf16) (R : FVec Ideal S6272x32 .bf16) (e : Fin 256) (f : Fin 32) :
    matmul dot_S256x6272_S6272x32_S256x32_1_0_0_1_n_n none L R (constant (F := Ideal) S256x32 .f32 0x00000000#32) (ix2 e f)
      = ∑ j : Fin 6272, L (ix2 e j) * R (ix2 j f) := by
  show FloatOps.matmul _ none L R _ (ix2 e f) = _
  rw [Ideal.matmul_constant_zero_apply,
    ← Equiv.sum_comp (contrEquiv1 dot_S256x6272_S6272x32_S256x32_1_0_0_1_n_n 6272 rfl rfl).symm]
  refine Finset.sum_congr rfl fun c _ => ?_
  have c2 := contrEquiv1_symm_val dot_S256x6272_S6272x32_S256x32_1_0_0_1_n_n 6272 rfl rfl c
  have l2 : dot_S256x6272_S6272x32_S256x32_1_0_0_1_n_n.lhsIdx (ix2 e f) ((contrEquiv1 _ 6272 rfl rfl).symm c) = ix2 e c := by
    funext ax; apply Fin.ext
    match ax with
    | ⟨0, _⟩ => simp [DotDims.lhsIdx, dot_S256x6272_S6272x32_S256x32_1_0_0_1_n_n]; rfl
    | ⟨1, _⟩ => simp [DotDims.lhsIdx, dot_S256x6272_S6272x32_S256x32_1_0_0_1_n_n]; exact c2
  have r2 : dot_S256x6272_S6272x32_S256x32_1_0_0_1_n_n.rhsIdx (ix2 e f) ((contrEquiv1 _ 6272 rfl rfl).symm c) = ix2 c f := by
    funext ax; apply Fin.ext
    match ax with
    | ⟨0, _⟩ => simp [DotDims.rhsIdx, dot_S256x6272_S6272x32_S256x32_1_0_0_1_n_n]; exact c2
    | ⟨1, _⟩ => simp [DotDims.rhsIdx, dot_S256x6272_S6272x32_S256x32_1_0_0_1_n_n]; rfl
  rw [l2, r2]

/-- A 6272×256 by 256×32 product into the zero splat, read at an index. -/
theorem mmS_apply (L : FVec Ideal S6272x256 .bf16) (R : FVec Ideal S256x32 .bf16) (r : Fin 6272) (f : Fin 32) :
    matmul dot_S6272x256_S256x32_S6272x32_1_0_0_1_n_n none L R (constant (F := Ideal) S6272x32 .f32 0x00000000#32) (ix2 r f)
      = ∑ e : Fin 256, L (ix2 r e) * R (ix2 e f) := by
  show FloatOps.matmul _ none L R _ (ix2 r f) = _
  rw [Ideal.matmul_constant_zero_apply,
    ← Equiv.sum_comp (contrEquiv1 dot_S6272x256_S256x32_S6272x32_1_0_0_1_n_n 256 rfl rfl).symm]
  refine Finset.sum_congr rfl fun c _ => ?_
  have c2 := contrEquiv1_symm_val dot_S6272x256_S256x32_S6272x32_1_0_0_1_n_n 256 rfl rfl c
  have l2 : dot_S6272x256_S256x32_S6272x32_1_0_0_1_n_n.lhsIdx (ix2 r f) ((contrEquiv1 _ 256 rfl rfl).symm c) = ix2 r c := by
    funext ax; apply Fin.ext
    match ax with
    | ⟨0, _⟩ => simp [DotDims.lhsIdx, dot_S6272x256_S256x32_S6272x32_1_0_0_1_n_n]; rfl
    | ⟨1, _⟩ => simp [DotDims.lhsIdx, dot_S6272x256_S256x32_S6272x32_1_0_0_1_n_n]; exact c2
  have r2 : dot_S6272x256_S256x32_S6272x32_1_0_0_1_n_n.rhsIdx (ix2 r f) ((contrEquiv1 _ 256 rfl rfl).symm c) = ix2 c f := by
    funext ax; apply Fin.ext
    match ax with
    | ⟨0, _⟩ => simp [DotDims.rhsIdx, dot_S6272x256_S256x32_S6272x32_1_0_0_1_n_n]; exact c2
    | ⟨1, _⟩ => simp [DotDims.rhsIdx, dot_S6272x256_S256x32_S6272x32_1_0_0_1_n_n]; rfl
  rw [l2, r2]

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The gather's one-hot product: row `e` of the result is the table chunk's rows weighted by whether the row's word is the column's word. -/
theorem ohG_apply (V : IVec S256x1 32) (W : IVec S1x6272 32) (R : FVec Ideal S6272x32 .bf16) (e : Fin 256) (f : Fin 32) :
    matmul dot_S256x6272_S6272x32_S256x32_1_0_0_1_n_n none
      (truncf .bf16 (sitofp .f32 (extui 32 (cmpi .eq (broadcastTo S256x6272 V broadcasts_S256x1_S256x6272)
        (broadcastTo S256x6272 W broadcasts_S1x6272_S256x6272)) natLt_1_32)) bitsLt_bf16_f32)
      R (constant (F := Ideal) S256x32 .f32 0x00000000#32) (ix2 e f)
    = ∑ j : Fin 6272, ohw (V (ix2 e (0 : Fin 1))) (W (ix2 (0 : Fin 1) j)) * R (ix2 j f) := by
  refine (mmG_apply _ R e f).trans (Finset.sum_congr rfl fun j _ => ?_)
  refine congrArg (· * R (ix2 j f)) ?_
  show FloatOps.sitofp (F := Ideal) .f32 ((IntOp.cmpi .eq (broadcastTo S256x6272 V broadcasts_S256x1_S256x6272 (ix2 e j))
    (broadcastTo S256x6272 W broadcasts_S1x6272_S256x6272 (ix2 e j))).setWidth 32) = _
  rw [broadcastTo_a1_ab_apply V _ e j, broadcastTo_1b_ab_apply W _ e j]
  exact onehot_val _ _

/-- The scatter's one-hot product: row `r` of the result is the messages weighted by whether the row's word is the edge's word. -/
theorem ohS_apply (V : IVec S6272x1 32) (W : IVec S1x256 32) (R : FVec Ideal S256x32 .bf16) (r : Fin 6272) (f : Fin 32) :
    matmul dot_S6272x256_S256x32_S6272x32_1_0_0_1_n_n none
      (truncf .bf16 (sitofp .f32 (extui 32 (cmpi .eq (broadcastTo S6272x256 V broadcasts_S6272x1_S6272x256)
        (broadcastTo S6272x256 W broadcasts_S1x256_S6272x256)) natLt_1_32)) bitsLt_bf16_f32)
      R (constant (F := Ideal) S6272x32 .f32 0x00000000#32) (ix2 r f)
    = ∑ e : Fin 256, ohw (V (ix2 r (0 : Fin 1))) (W (ix2 (0 : Fin 1) e)) * R (ix2 e f) := by
  refine (mmS_apply _ R r f).trans (Finset.sum_congr rfl fun e _ => ?_)
  refine congrArg (· * R (ix2 e f)) ?_
  show FloatOps.sitofp (F := Ideal) .f32 ((IntOp.cmpi .eq (broadcastTo S6272x256 V broadcasts_S6272x1_S6272x256 (ix2 r e))
    (broadcastTo S6272x256 W broadcasts_S1x256_S6272x256 (ix2 r e))).setWidth 32) = _
  rw [broadcastTo_a1_ab_apply V _ r e, broadcastTo_1b_ab_apply W _ r e]
  exact onehot_val _ _

/-- The column words of a gather chunk: base plus the column number. -/
theorem colW_apply (b : BitVec 32) (j : Fin 6272) :
    addi (broadcast S1x6272 b) (iota .tc S1x6272 32 [1] iota_S1x6272_d1_w32) (ix2 (0 : Fin 1) j) = b + BitVec.ofNat 32 j.val := by
  show b + iota .tc S1x6272 32 [1] iota_S1x6272_d1_w32 (ix2 (0 : Fin 1) j) = _
  rw [iota_single_apply]

/-- The row words of a scatter chunk: base plus the row number. -/
theorem rowW_apply (b : BitVec 32) (r : Fin 6272) :
    addi (broadcast S6272x1 b) (iota .tc S6272x1 32 [0] iota_S6272x1_d0_w32) (ix2 r (0 : Fin 1)) = b + BitVec.ofNat 32 r.val := by
  show b + iota .tc S6272x1 32 [0] iota_S6272x1_d0_w32 (ix2 r (0 : Fin 1)) = _
  rw [iota_single_apply]

/-- A literal base plus a row number below 6272 is the word of the sum. -/
theorem base_add (c : ℕ) (j : ℕ) : BitVec.ofNat 32 c + BitVec.ofNat 32 j = BitVec.ofNat 32 (c + j) := by
  rw [← BitVec.ofNat_add]

/-- One chunk's share as the product computes it: the chunk's rows, each weighted by whether `s` is the base word plus the row's number. -/
def chunkK (s b : BitVec 32) (hc : Vec Ideal S6272x32 .bf16) (f : Fin 32) : EReal :=
  ∑ j : Fin 6272, ohw s (b + BitVec.ofNat 32 j.val) * hc (ix2 j f)

/-- With the base word the chunk's first row number and the chunk the table's rows from there, that share is `chunkG`. -/
theorem chunkK_eq (H : Fin 50176 → Fin 32 → EReal) (s : BitVec 32) (c : Fin 8) (bn : ℕ) (hb : bn = 6272 * c.val)
    (hc : Vec Ideal S6272x32 .bf16) (hh : ∀ (j : Fin 6272) (f : Fin 32), hc (ix2 j f) = H ⟨6272 * c.val + j.val, by omega⟩ f)
    (f : Fin 32) : chunkK s (BitVec.ofNat 32 bn) hc f = chunkG H s c f := by
  subst hb
  unfold chunkK chunkG
  refine Finset.sum_congr rfl fun j _ => ?_
  rw [hh j f, ← BitVec.ofNat_add]

/-- The gather product of one chunk, with its operands as the kernel writes them, is the chunk's share. -/
theorem ohG_chunk (v4 : IVec S256 32) (b : BitVec 32) (hc : Vec Ideal S6272x32 .bf16) (e : Fin 256) (f : Fin 32) :
    matmul dot_S256x6272_S6272x32_S256x32_1_0_0_1_n_n none
      (truncf .bf16 (sitofp .f32 (extui 32 (cmpi .eq
        (broadcastTo S256x6272 (shapeCast S256x1 v4 shapeCasts_S256_S256x1) broadcasts_S256x1_S256x6272)
        (broadcastTo S256x6272 (addi (broadcast S1x6272 b) (iota .tc S1x6272 32 [1] iota_S1x6272_d1_w32))
          broadcasts_S1x6272_S256x6272)) natLt_1_32)) bitsLt_bf16_f32)
      (shapeCast S6272x32 hc shapeCasts_S6272x32_S6272x32 : FVec Ideal S6272x32 .bf16) (constant (F := Ideal) S256x32 .f32 0x00000000#32) (ix2 e f)
    = chunkK (v4 (ix1 e)) b hc f := by
  refine (ohG_apply _ _ _ e f).trans (Finset.sum_congr rfl fun j _ => ?_)
  rw [shapeCast_a_a1_apply, colW_apply, shapeCast_self]

/-- The scatter product of one chunk, with its operands as the kernel writes them. -/
theorem ohS_chunk (v6 : IVec S256 32) (b : BitVec 32) (M : FVec Ideal S256x32 .bf16) (r : Fin 6272) (f : Fin 32) :
    matmul dot_S6272x256_S256x32_S6272x32_1_0_0_1_n_n none
      (truncf .bf16 (sitofp .f32 (extui 32 (cmpi .eq
        (broadcastTo S6272x256 (addi (broadcast S6272x1 b) (iota .tc S6272x1 32 [0] iota_S6272x1_d0_w32))
          broadcasts_S6272x1_S6272x256)
        (broadcastTo S6272x256 (shapeCast S1x256 v6 shapeCasts_S256_S1x256) broadcasts_S1x256_S6272x256))
        natLt_1_32)) bitsLt_bf16_f32)
      M (constant (F := Ideal) S6272x32 .f32 0x00000000#32) (ix2 r f)
    = ∑ e : Fin 256, ohw (b + BitVec.ofNat 32 r.val) (v6 (ix1 e)) * M (ix2 e f) := by
  refine (ohS_apply _ _ _ r f).trans (Finset.sum_congr rfl fun e _ => ?_)
  rw [rowW_apply, shapeCast_a_1a_apply]

theorem pay5_apply (x1 : Vec Ideal S1x256 .i32) (e : Fin 256) : k3_pay5 x1 (ix1 e) = x1 (ix2 (0 : Fin 1) e) := by
  unfold k3_pay5
  exact shapeCast_1a_a_apply x1 _ e

theorem pay6_apply (x2 : Vec Ideal S1x256 .i32) (e : Fin 256) : k3_pay6 x2 (ix1 e) = x2 (ix2 (0 : Fin 1) e) := by
  unfold k3_pay6
  exact shapeCast_1a_a_apply x2 _ e

theorem pay7_apply (x3 : Vec Ideal S1x256 .f32) (e : Fin 256) : k3_pay7 x3 (ix1 e) = x3 (ix2 (0 : Fin 1) e) := by
  unfold k3_pay7
  exact shapeCast_1a_a_apply x3 _ e

theorem pay8_apply (x1 : Vec Ideal S1x256 .i32) (h0 h1 : Vec Ideal S6272x32 .bf16) (e : Fin 256) (f : Fin 32) :
    k3_pay8 x1 h0 h1 (ix2 e f)
      = 0 + chunkK (x1 (ix2 (0 : Fin 1) e)) 0#32 h0 f + chunkK (x1 (ix2 (0 : Fin 1) e)) 6272#32 h1 f := by
  unfold k3_pay8
  dsimp only
  rw [addf_apply, addf_apply, ohG_chunk, ohG_chunk, pay5_apply, broadcast_apply]
  show Ideal.ofBits .f32 0x00000000#32 + _ + _ = _
  rw [Ideal.ofBits_zero_f32]

theorem pay9_apply (v4 : IVec S256 32) (P : FVec Ideal S256x32 .f32) (h2 h3 h4 : Vec Ideal S6272x32 .bf16) (e : Fin 256) (f : Fin 32) :
    k3_pay9 v4 P h2 h3 h4 (ix2 e f)
      = P (ix2 e f) + chunkK (v4 (ix1 e)) 12544#32 h2 f + chunkK (v4 (ix1 e)) 18816#32 h3 f + chunkK (v4 (ix1 e)) 25088#32 h4 f := by
  unfold k3_pay9
  dsimp only
  rw [addf_apply, addf_apply, addf_apply, ohG_chunk, ohG_chunk, ohG_chunk]

theorem pay13_apply (v4 : IVec S256 32) (w : FVec Ideal S256 .f32) (P : FVec Ideal S256x32 .f32) (h5 h6 h7 : Vec Ideal S6272x32 .bf16)
    (e : Fin 256) (f : Fin 32) :
    k3_pay13 v4 w P (k3_pay10 h5) k3_pay11 (k3_pay12 v4) h6 h7 (ix2 e f)
      = (P (ix2 e f) + chunkK (v4 (ix1 e)) 31360#32 h5 f + chunkK (v4 (ix1 e)) 37632#32 h6 f + chunkK (v4 (ix1 e)) 43904#32 h7 f)
          * w (ix1 e) := by
  unfold k3_pay13 k3_pay12 k3_pay11 k3_pay10
  dsimp only
  rw [truncf_apply, mulf_apply, addf_apply, addf_apply, addf_apply, ohG_chunk, ohG_chunk, ohG_chunk,
    broadcastTo_a1_ab_apply, shapeCast_a_a1_apply]

/-- The scatter sum with a literal base word, in the stated form. -/
theorem updS (x2 : Vec Ideal S1x256 .i32) (bn c : ℕ) (hb : bn = 6272 * c) (M : FVec Ideal S256x32 .bf16) (r : Fin 6272) (f : Fin 32) :
    (∑ e : Fin 256, ohw (BitVec.ofNat 32 bn + BitVec.ofNat 32 r.val) (k3_pay6 x2 (ix1 e)) * M (ix2 e f))
      = ∑ e : Fin 256, ohw (BitVec.ofNat 32 (6272 * c + r.val)) (x2 (ix2 (0 : Fin 1) e)) * M (ix2 e f) := by
  subst hb
  refine Finset.sum_congr rfl fun e _ => ?_
  rw [pay6_apply, ← BitVec.ofNat_add]

end K3

open K3

/-- The block's messages: each edge's gathered source row times the edge's weight. -/
abbrev msg3 (x1 : Vec Ideal S1x256 .i32) (x3 : Vec Ideal S1x256 .f32) (h0 h1 h2 h3 h4 h5 h6 h7 : Vec Ideal S6272x32 .bf16) :
    FVec Ideal S256x32 .bf16 :=
  k3_pay13 (k3_pay5 x1) (k3_pay7 x3) (k3_pay9 (k3_pay5 x1) (k3_pay8 x1 h0 h1) h2 h3 h4) (k3_pay10 h5) k3_pay11
    (k3_pay12 (k3_pay5 x1)) h6 h7

theorem msg3_apply (x1 : Vec Ideal S1x256 .i32) (x3 : Vec Ideal S1x256 .f32) (h0 h1 h2 h3 h4 h5 h6 h7 : Vec Ideal S6272x32 .bf16)
    (H : Fin 50176 → Fin 32 → EReal)
    (hh0 : ∀ (j : Fin 6272) (f : Fin 32), h0 (ix2 j f) = H ⟨6272 * 0 + j.val, by omega⟩ f)
    (hh1 : ∀ (j : Fin 6272) (f : Fin 32), h1 (ix2 j f) = H ⟨6272 * 1 + j.val, by omega⟩ f)
    (hh2 : ∀ (j : Fin 6272) (f : Fin 32), h2 (ix2 j f) = H ⟨6272 * 2 + j.val, by omega⟩ f)
    (hh3 : ∀ (j : Fin 6272) (f : Fin 32), h3 (ix2 j f) = H ⟨6272 * 3 + j.val, by omega⟩ f)
    (hh4 : ∀ (j : Fin 6272) (f : Fin 32), h4 (ix2 j f) = H ⟨6272 * 4 + j.val, by omega⟩ f)
    (hh5 : ∀ (j : Fin 6272) (f : Fin 32), h5 (ix2 j f) = H ⟨6272 * 5 + j.val, by omega⟩ f)
    (hh6 : ∀ (j : Fin 6272) (f : Fin 32), h6 (ix2 j f) = H ⟨6272 * 6 + j.val, by omega⟩ f)
    (hh7 : ∀ (j : Fin 6272) (f : Fin 32), h7 (ix2 j f) = H ⟨6272 * 7 + j.val, by omega⟩ f)
    (e : Fin 256) (f : Fin 32) :
    msg3 x1 x3 h0 h1 h2 h3 h4 h5 h6 h7 (ix2 e f) = gathK H (x1 (ix2 (0 : Fin 1) e)) f * x3 (ix2 (0 : Fin 1) e) := by
  unfold msg3
  rw [pay13_apply, pay9_apply, pay8_apply, pay5_apply, pay7_apply]
  unfold gathK
  rw [chunkK_eq H _ 0 0 rfl h0 hh0, chunkK_eq H _ 1 6272 rfl h1 hh1, chunkK_eq H _ 2 12544 rfl h2 hh2,
    chunkK_eq H _ 3 18816 rfl h3 hh3, chunkK_eq H _ 4 25088 rfl h4 hh4, chunkK_eq H _ 5 31360 rfl h5 hh5,
    chunkK_eq H _ 6 37632 rfl h6 hh6, chunkK_eq H _ 7 43904 rfl h7 hh7]

theorem upd3_0 (x2 : Vec Ideal S1x256 .i32) (M : FVec Ideal S256x32 .bf16) (cur : Vec Ideal S6272x32 .f32) (r : Fin 6272) (f : Fin 32) :
    k3_pay15 M (k3_pay14 (k3_pay6 x2)) cur (ix2 r f)
      = cur (ix2 r f) + ∑ e : Fin 256, ohw (BitVec.ofNat 32 (6272 * 0 + r.val)) (x2 (ix2 (0 : Fin 1) e)) * M (ix2 e f) := by
  unfold k3_pay15 k3_pay14
  dsimp only
  rw [addf_apply, ohS_chunk, shapeCast_self]
  exact congrArg (cur (ix2 r f) + ·) (updS x2 _ 0 rfl M r f)

theorem upd3_1 (x2 : Vec Ideal S1x256 .i32) (M : FVec Ideal S256x32 .bf16) (cur : Vec Ideal S6272x32 .f32) (r : Fin 6272) (f : Fin 32) :
    k3_pay16 (k3_pay6 x2) M cur (ix2 r f)
      = cur (ix2 r f) + ∑ e : Fin 256, ohw (BitVec.ofNat 32 (6272 * 1 + r.val)) (x2 (ix2 (0 : Fin 1) e)) * M (ix2 e f) := by
  unfold k3_pay16
  dsimp only
  rw [addf_apply, ohS_chunk, shapeCast_self]
  exact congrArg (cur (ix2 r f) + ·) (updS x2 _ 1 rfl M r f)

theorem upd3_2 (x2 : Vec Ideal S1x256 .i32) (M : FVec Ideal S256x32 .bf16) (cur : Vec Ideal S6272x32 .f32) (r : Fin 6272) (f : Fin 32) :
    k3_pay17 (k3_pay6 x2) M cur (ix2 r f)
      = cur (ix2 r f) + ∑ e : Fin 256, ohw (BitVec.ofNat 32 (6272 * 2 + r.val)) (x2 (ix2 (0 : Fin 1) e)) * M (ix2 e f) := by
  unfold k3_pay17
  dsimp only
  rw [addf_apply, ohS_chunk, shapeCast_self]
  exact congrArg (cur (ix2 r f) + ·) (updS x2 _ 2 rfl M r f)

theorem upd3_3 (x2 : Vec Ideal S1x256 .i32) (M : FVec Ideal S256x32 .bf16) (cur : Vec Ideal S6272x32 .f32) (r : Fin 6272) (f : Fin 32) :
    k3_pay20 M k3_pay18 (k3_pay19 (k3_pay6 x2)) cur (ix2 r f)
      = cur (ix2 r f) + ∑ e : Fin 256, ohw (BitVec.ofNat 32 (6272 * 3 + r.val)) (x2 (ix2 (0 : Fin 1) e)) * M (ix2 e f) := by
  unfold k3_pay20 k3_pay19 k3_pay18
  dsimp only
  rw [addf_apply, ohS_chunk, shapeCast_self]
  exact congrArg (cur (ix2 r f) + ·) (updS x2 _ 3 rfl M r f)

theorem upd3_4 (x2 : Vec Ideal S1x256 .i32) (M : FVec Ideal S256x32 .bf16) (cur : Vec Ideal S6272x32 .f32) (r : Fin 6272) (f : Fin 32) :
    k3_pay21 (k3_pay6 x2) M cur (ix2 r f)
      = cur (ix2 r f) + ∑ e : Fin 256, ohw (BitVec.ofNat 32 (6272 * 4 + r.val)) (x2 (ix2 (0 : Fin 1) e)) * M (ix2 e f) := by
  unfold k3_pay21
  dsimp only
  rw [addf_apply, ohS_chunk, shapeCast_self]
  exact congrArg (cur (ix2 r f) + ·) (updS x2 _ 4 rfl M r f)

theorem upd3_5 (x2 : Vec Ideal S1x256 .i32) (M : FVec Ideal S256x32 .bf16) (cur : Vec Ideal S6272x32 .f32) (r : Fin 6272) (f : Fin 32) :
    k3_pay22 (k3_pay6 x2) M cur (ix2 r f)
      = cur (ix2 r f) + ∑ e : Fin 256, ohw (BitVec.ofNat 32 (6272 * 5 + r.val)) (x2 (ix2 (0 : Fin 1) e)) * M (ix2 e f) := by
  unfold k3_pay22
  dsimp only
  rw [addf_apply, ohS_chunk, shapeCast_self]
  exact congrArg (cur (ix2 r f) + ·) (updS x2 _ 5 rfl M r f)

theorem upd3_6 (x2 : Vec Ideal S1x256 .i32) (M : FVec Ideal S256x32 .bf16) (cur : Vec Ideal S6272x32 .f32) (r : Fin 6272) (f : Fin 32) :
    k3_pay1 (k3_pay6 x2) M cur (ix2 r f)
      = cur (ix2 r f) + ∑ e : Fin 256, ohw (BitVec.ofNat 32 (6272 * 6 + r.val)) (x2 (ix2 (0 : Fin 1) e)) * M (ix2 e f) := by
  unfold k3_pay1
  dsimp only
  rw [addf_apply, ohS_chunk, shapeCast_self]
  exact congrArg (cur (ix2 r f) + ·) (updS x2 _ 6 rfl M r f)

theorem upd3_7 (x2 : Vec Ideal S1x256 .i32) (M : FVec Ideal S256x32 .bf16) (cur : Vec Ideal S6272x32 .f32) (r : Fin 6272) (f : Fin 32) :
    k3_pay2 (k3_pay6 x2) M cur (ix2 r f)
      = cur (ix2 r f) + ∑ e : Fin 256, ohw (BitVec.ofNat 32 (6272 * 7 + r.val)) (x2 (ix2 (0 : Fin 1) e)) * M (ix2 e f) := by
  unfold k3_pay2
  dsimp only
  rw [addf_apply, ohS_chunk, shapeCast_self]
  exact congrArg (cur (ix2 r f) + ·) (updS x2 _ 7 rfl M r f)

theorem fin3_apply (acc : Vec Ideal S50176x32 .f32) (b : Vec Ideal S32 .f32) (n : Fin 50176) (f : Fin 32) :
    k3_pay3 acc b (ix2 n f) = acc (ix2 n f) + b (ix1 f) := by
  unfold k3_pay3
  rw [addf_apply, shapeCast_self, broadcastTo_1b_ab_apply, shapeCast_a_1a_apply]

theorem zero3_apply (n : Fin 50176) (f : Fin 32) : (k3_pay4 (F := Ideal)) (ix2 n f) = 0 := by
  unfold k3_pay4
  show Ideal.ofBits .f32 0x00000000#32 = 0
  exact Ideal.ofBits_zero_f32

end Cert.KernelIdeal.Pay
end
-- ==== Proof.KAgg3.lean ====
/-
  The value the second aggregation region (feature width 32) leaves in its output array.

  The region walks the edge list in 4102 blocks of 256 edges. Its output window is the whole node array, kept in one buffer from
  point to point and written back once, after the last point. Point 0 fills the buffer with zeros and adds block 0's share; every
  later point adds its block's share to what the point before left; the last point then adds the bias.
  A block's share is added eight chunks of 6272 node rows at a time, each chunk's update reading only its own rows, so the eight
  stores read back as one function of the node row. By induction on the point the buffer holds the specification's running sum
  `accK`, and the array ends holding the last sum plus the bias.
-/
import proofs.«429772_j53867479827167_3_alg».proof.Proof.Gen.KernelIdeal.Frame
import proofs.«429772_j53867479827167_3_alg».proof.Proof.KPay3
import proofs.«429772_j53867479827167_3_alg».proof.Proof.Spec
import Idealize.ShloMosaic.Lib.Pipeline.Value
import Idealize.ShloMosaic.Lib.Pipeline.CanonAppend
import Idealize.ShloMosaic.Lib.Pipeline.RowLoads
import Idealize.ShloMosaic.Lib.ValueIdx
import Idealize.ShloMosaic.Lib.Ring
import Idealize.ShloMosaic.Lib.Tactic

set_option maxRecDepth 16384

noncomputable section

namespace Cert.KernelIdeal.AggValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.GcnSpec
open scoped BigOperators

section Arrays

variable (V : (c : Dev nD) → (b : Ref sig .tc) → Buf (Elt Ideal) ((c : Thread nD τ).loc b))

/-- The region's arrays as it finds them: the node table, the edges' sources, destinations and weights, the bias. -/
abbrev tab3 (c : Dev nD) : Vec Ideal S50176x32 .bf16 := V c (Pipeline.arrRef spec3 0)
abbrev srcs3 (c : Dev nD) : Vec Ideal S1x1050112 .i32 := V c (Pipeline.arrRef spec3 1)
abbrev dsts3 (c : Dev nD) : Vec Ideal S1x1050112 .i32 := V c (Pipeline.arrRef spec3 2)
abbrev wts3 (c : Dev nD) : Vec Ideal S1x1050112 .f32 := V c (Pipeline.arrRef spec3 3)
abbrev bias3 (c : Dev nD) : Vec Ideal S32 .f32 := V c (Pipeline.arrRef spec3 4)

end Arrays

namespace R3

/-! ## Whole rows of a rank-two array through a unit-stride rectangle -/

section Rows

variable {Val : EltTy → Type} {e : EltTy} {m n k : Nat}

/-- Row `r`, column `f` of a rectangle of `k` whole rows from row `o` is row `o + r`, column `f` of the array. -/
theorem emb_rows (o : Nat) (inb : ∀ a, (![o, 0] : Fin 2 → Nat) a + (![k, n] : Fin 2 → Nat) a ≤ (⟨2, ![m, n]⟩ : Shape).size a)
    (r : Fin k) (f : Fin n) (h : o + r.val < m) :
    (Rect.unit (s := (⟨2, ![m, n]⟩ : Shape)) ![o, 0] ![k, n] inb).emb (ix2 r f) = ix2 (⟨o + r.val, h⟩ : Fin m) f := by
  funext a; apply Fin.ext
  match a with
  | ⟨0, _⟩ => show o + 1 * r.val = o + r.val; omega
  | ⟨1, _⟩ => show 0 + 1 * f.val = f.val; omega

/-- A load of those rows reads the array there. -/
theorem ld_rows (X : (⟨2, ![m, n]⟩ : Shape).Idx → Val e) (o : Nat)
    (inb : ∀ a, (![o, 0] : Fin 2 → Nat) a + (![k, n] : Fin 2 → Nat) a ≤ (⟨2, ![m, n]⟩ : Shape).size a)
    (r : Fin k) (f : Fin n) (h : o + r.val < m) :
    View.ld X (Rect.unit (s := (⟨2, ![m, n]⟩ : Shape)) ![o, 0] ![k, n] inb) (ix2 r f) = X (ix2 (⟨o + r.val, h⟩ : Fin m) f) :=
  congrArg X (emb_rows o inb r f h)

/-- A store of those rows agrees with a function `G` of the array's index when its payload at `(r, f)` is `G` at `(o + r, f)`. -/
theorem piece_rows (G : (⟨2, ![m, n]⟩ : Shape).Idx → Val e) (o : Nat)
    (inb : ∀ a, (![o, 0] : Fin 2 → Nat) a + (![k, n] : Fin 2 → Nat) a ≤ (⟨2, ![m, n]⟩ : Shape).size a)
    (w : (⟨2, ![k, n]⟩ : Shape).Idx → Val e)
    (h : ∀ (r : Fin k) (f : Fin n) (hr : o + r.val < m), w (ix2 r f) = G (ix2 (⟨o + r.val, hr⟩ : Fin m) f)) :
    ∀ x : (Rect.unit (s := (⟨2, ![m, n]⟩ : Shape)) ![o, 0] ![k, n] inb).shape.Idx,
      w x = G ((Rect.unit (s := (⟨2, ![m, n]⟩ : Shape)) ![o, 0] ![k, n] inb).emb x) := by
  intro x
  have hk : o + k ≤ m := inb 0
  obtain ⟨r, f, rfl⟩ : ∃ (r : Fin k) (f : Fin n), x = ix2 r f := ⟨x 0, x 1, eq_ix2 (n0 := k) (n1 := n) x⟩
  have hr : o + r.val < m := by have := r.isLt; omega
  rw [emb_rows o inb r f hr]
  exact h r f hr

end Rows

theorem hz1 : (![0] : Fin 1 → Nat) = fun _ => 0 := funext fun a => by fin_cases a; rfl
theorem hz2 : (![0, 0] : Fin 2 → Nat) = fun _ => 0 := funext fun a => by fin_cases a <;> rfl

/-! ## One block of 256 edges: what the eight chunk updates add -/

section Chunks

variable (x0 : Vec Ideal S50176x32 .bf16) (x1 x2 : Vec Ideal S1x256 .i32) (x3 : Vec Ideal S1x256 .f32)

/-- Chunk 0 of the table: its rows from 0. -/
abbrev tch0 : Vec Ideal S6272x32 .bf16 := View.ld x0 (Rect.unit ![0, 0] ![6272, 32] inb_S50176x32_S6272x32_0_0)
/-- Chunk 1 of the table: its rows from 6272. -/
abbrev tch1 : Vec Ideal S6272x32 .bf16 := View.ld x0 (Rect.unit ![6272, 0] ![6272, 32] inb_S50176x32_S6272x32_6272_0)
/-- Chunk 2 of the table: its rows from 12544. -/
abbrev tch2 : Vec Ideal S6272x32 .bf16 := View.ld x0 (Rect.unit ![12544, 0] ![6272, 32] inb_S50176x32_S6272x32_12544_0)
/-- Chunk 3 of the table: its rows from 18816. -/
abbrev tch3 : Vec Ideal S6272x32 .bf16 := View.ld x0 (Rect.unit ![18816, 0] ![6272, 32] inb_S50176x32_S6272x32_18816_0)
/-- Chunk 4 of the table: its rows from 25088. -/
abbrev tch4 : Vec Ideal S6272x32 .bf16 := View.ld x0 (Rect.unit ![25088, 0] ![6272, 32] inb_S50176x32_S6272x32_25088_0)
/-- Chunk 5 of the table: its rows from 31360. -/
abbrev tch5 : Vec Ideal S6272x32 .bf16 := View.ld x0 (Rect.unit ![31360, 0] ![6272, 32] inb_S50176x32_S6272x32_31360_0)
/-- Chunk 6 of the table: its rows from 37632. -/
abbrev tch6 : Vec Ideal S6272x32 .bf16 := View.ld x0 (Rect.unit ![37632, 0] ![6272, 32] inb_S50176x32_S6272x32_37632_0)
/-- Chunk 7 of the table: its rows from 43904. -/
abbrev tch7 : Vec Ideal S6272x32 .bf16 := View.ld x0 (Rect.unit ![43904, 0] ![6272, 32] inb_S50176x32_S6272x32_43904_0)

/-- The block's messages over the table's eight chunks. -/
abbrev msgs : FVec Ideal S256x32 .bf16 :=
  Pay.msg3 x1 x3 (tch0 x0) (tch1 x0) (tch2 x0) (tch3 x0) (tch4 x0) (tch5 x0) (tch6 x0) (tch7 x0)

/-- What the block adds to entry `f` of node row `n`: over its edges, the weight of `n` being the edge's destination
    times the edge's message. -/
def blk (n : Fin 50176) (f : Fin 32) : EReal :=
  ∑ e : Fin 256, ohw (BitVec.ofNat 32 n.val) (x2 (ix2 (0 : Fin 1) e))
    * (gathK (fun r k => x0 (ix2 r k)) (x1 (ix2 (0 : Fin 1) e)) f * x3 (ix2 (0 : Fin 1) e))

theorem msgs_apply (e : Fin 256) (f : Fin 32) :
    msgs x0 x1 x3 (ix2 e f) = gathK (fun r k => x0 (ix2 r k)) (x1 (ix2 (0 : Fin 1) e)) f * x3 (ix2 (0 : Fin 1) e) :=
  Pay.msg3_apply x1 x3 (tch0 x0) (tch1 x0) (tch2 x0) (tch3 x0) (tch4 x0) (tch5 x0) (tch6 x0) (tch7 x0) (fun r k => x0 (ix2 r k))
    (fun j f => ld_rows x0 0 _ j f _)
    (fun j f => ld_rows x0 6272 _ j f _)
    (fun j f => ld_rows x0 12544 _ j f _)
    (fun j f => ld_rows x0 18816 _ j f _)
    (fun j f => ld_rows x0 25088 _ j f _)
    (fun j f => ld_rows x0 31360 _ j f _)
    (fun j f => ld_rows x0 37632 _ j f _)
    (fun j f => ld_rows x0 43904 _ j f _) e f

/-- Chunk 0's update at row `r`: what was there plus the block's share of node row `0 + r`. -/
theorem chunk0 (cur : Vec Ideal S6272x32 .f32) (r : Fin 6272) (f : Fin 32) (h : 0 + r.val < 50176) :
    k3_pay15 (msgs x0 x1 x3) (k3_pay14 (k3_pay6 x2)) cur (ix2 r f)
      = cur (ix2 r f) + blk x0 x1 x2 x3 ⟨0 + r.val, h⟩ f := by
  rw [Pay.upd3_0]
  unfold blk
  refine congrArg (cur (ix2 r f) + ·) (Finset.sum_congr rfl fun e _ => ?_)
  exact congrArg (ohw _ _ * ·) (msgs_apply x0 x1 x3 e f)

/-- Chunk 1's update at row `r`: what was there plus the block's share of node row `6272 + r`. -/
theorem chunk1 (cur : Vec Ideal S6272x32 .f32) (r : Fin 6272) (f : Fin 32) (h : 6272 + r.val < 50176) :
    k3_pay16 (k3_pay6 x2) (msgs x0 x1 x3) cur (ix2 r f)
      = cur (ix2 r f) + blk x0 x1 x2 x3 ⟨6272 + r.val, h⟩ f := by
  rw [Pay.upd3_1]
  unfold blk
  refine congrArg (cur (ix2 r f) + ·) (Finset.sum_congr rfl fun e _ => ?_)
  exact congrArg (ohw _ _ * ·) (msgs_apply x0 x1 x3 e f)

/-- Chunk 2's update at row `r`: what was there plus the block's share of node row `12544 + r`. -/
theorem chunk2 (cur : Vec Ideal S6272x32 .f32) (r : Fin 6272) (f : Fin 32) (h : 12544 + r.val < 50176) :
    k3_pay17 (k3_pay6 x2) (msgs x0 x1 x3) cur (ix2 r f)
      = cur (ix2 r f) + blk x0 x1 x2 x3 ⟨12544 + r.val, h⟩ f := by
  rw [Pay.upd3_2]
  unfold blk
  refine congrArg (cur (ix2 r f) + ·) (Finset.sum_congr rfl fun e _ => ?_)
  exact congrArg (ohw _ _ * ·) (msgs_apply x0 x1 x3 e f)

/-- Chunk 3's update at row `r`: what was there plus the block's share of node row `18816 + r`. -/
theorem chunk3 (cur : Vec Ideal S6272x32 .f32) (r : Fin 6272) (f : Fin 32) (h : 18816 + r.val < 50176) :
    k3_pay20 (msgs x0 x1 x3) k3_pay18 (k3_pay19 (k3_pay6 x2)) cur (ix2 r f)
      = cur (ix2 r f) + blk x0 x1 x2 x3 ⟨18816 + r.val, h⟩ f := by
  rw [Pay.upd3_3]
  unfold blk
  refine congrArg (cur (ix2 r f) + ·) (Finset.sum_congr rfl fun e _ => ?_)
  exact congrArg (ohw _ _ * ·) (msgs_apply x0 x1 x3 e f)

/-- Chunk 4's update at row `r`: what was there plus the block's share of node row `25088 + r`. -/
theorem chunk4 (cur : Vec Ideal S6272x32 .f32) (r : Fin 6272) (f : Fin 32) (h : 25088 + r.val < 50176) :
    k3_pay21 (k3_pay6 x2) (msgs x0 x1 x3) cur (ix2 r f)
      = cur (ix2 r f) + blk x0 x1 x2 x3 ⟨25088 + r.val, h⟩ f := by
  rw [Pay.upd3_4]
  unfold blk
  refine congrArg (cur (ix2 r f) + ·) (Finset.sum_congr rfl fun e _ => ?_)
  exact congrArg (ohw _ _ * ·) (msgs_apply x0 x1 x3 e f)

/-- Chunk 5's update at row `r`: what was there plus the block's share of node row `31360 + r`. -/
theorem chunk5 (cur : Vec Ideal S6272x32 .f32) (r : Fin 6272) (f : Fin 32) (h : 31360 + r.val < 50176) :
    k3_pay22 (k3_pay6 x2) (msgs x0 x1 x3) cur (ix2 r f)
      = cur (ix2 r f) + blk x0 x1 x2 x3 ⟨31360 + r.val, h⟩ f := by
  rw [Pay.upd3_5]
  unfold blk
  refine congrArg (cur (ix2 r f) + ·) (Finset.sum_congr rfl fun e _ => ?_)
  exact congrArg (ohw _ _ * ·) (msgs_apply x0 x1 x3 e f)

/-- Chunk 6's update at row `r`: what was there plus the block's share of node row `37632 + r`. -/
theorem chunk6 (cur : Vec Ideal S6272x32 .f32) (r : Fin 6272) (f : Fin 32) (h : 37632 + r.val < 50176) :
    k3_pay1 (k3_pay6 x2) (msgs x0 x1 x3) cur (ix2 r f)
      = cur (ix2 r f) + blk x0 x1 x2 x3 ⟨37632 + r.val, h⟩ f := by
  rw [Pay.upd3_6]
  unfold blk
  refine congrArg (cur (ix2 r f) + ·) (Finset.sum_congr rfl fun e _ => ?_)
  exact congrArg (ohw _ _ * ·) (msgs_apply x0 x1 x3 e f)

/-- Chunk 7's update at row `r`: what was there plus the block's share of node row `43904 + r`. -/
theorem chunk7 (cur : Vec Ideal S6272x32 .f32) (r : Fin 6272) (f : Fin 32) (h : 43904 + r.val < 50176) :
    k3_pay2 (k3_pay6 x2) (msgs x0 x1 x3) cur (ix2 r f)
      = cur (ix2 r f) + blk x0 x1 x2 x3 ⟨43904 + r.val, h⟩ f := by
  rw [Pay.upd3_7]
  unfold blk
  refine congrArg (cur (ix2 r f) + ·) (Finset.sum_congr rfl fun e _ => ?_)
  exact congrArg (ohw _ _ * ·) (msgs_apply x0 x1 x3 e f)

/-- The eight chunk stores, last first, each over what its rows held before (`cur·`). -/
def P8 (cur0 cur1 cur2 cur3 cur4 cur5 cur6 cur7 : Vec Ideal S6272x32 .f32) : List (View.Piece (Elt Ideal) S50176x32 .f32) :=
  [⟨Rect.unit ![43904, 0] ![6272, 32] inb_S50176x32_S6272x32_43904_0, k3_pay2 (k3_pay6 x2) (msgs x0 x1 x3) cur7⟩,
   ⟨Rect.unit ![37632, 0] ![6272, 32] inb_S50176x32_S6272x32_37632_0, k3_pay1 (k3_pay6 x2) (msgs x0 x1 x3) cur6⟩,
   ⟨Rect.unit ![31360, 0] ![6272, 32] inb_S50176x32_S6272x32_31360_0, k3_pay22 (k3_pay6 x2) (msgs x0 x1 x3) cur5⟩,
   ⟨Rect.unit ![25088, 0] ![6272, 32] inb_S50176x32_S6272x32_25088_0, k3_pay21 (k3_pay6 x2) (msgs x0 x1 x3) cur4⟩,
   ⟨Rect.unit ![18816, 0] ![6272, 32] inb_S50176x32_S6272x32_18816_0, k3_pay20 (msgs x0 x1 x3) k3_pay18 (k3_pay19 (k3_pay6 x2)) cur3⟩,
   ⟨Rect.unit ![12544, 0] ![6272, 32] inb_S50176x32_S6272x32_12544_0, k3_pay17 (k3_pay6 x2) (msgs x0 x1 x3) cur2⟩,
   ⟨Rect.unit ![6272, 0] ![6272, 32] inb_S50176x32_S6272x32_6272_0, k3_pay16 (k3_pay6 x2) (msgs x0 x1 x3) cur1⟩,
   ⟨Rect.unit ![0, 0] ![6272, 32] inb_S50176x32_S6272x32_0_0, k3_pay15 (msgs x0 x1 x3) (k3_pay14 (k3_pay6 x2)) cur0⟩]

/-- Read back at node row `n`, whatever was stored before them: what the rows held before (`base`) plus the block's share. -/
theorem P8_canon (L' : List (View.Piece (Elt Ideal) S50176x32 .f32)) (base : S50176x32.Idx → EReal)
    (cur0 cur1 cur2 cur3 cur4 cur5 cur6 cur7 : Vec Ideal S6272x32 .f32)
    (h0 : ∀ (r : Fin 6272) (f : Fin 32) (hr : 0 + r.val < 50176), cur0 (ix2 r f) = base (ix2 (⟨0 + r.val, hr⟩ : Fin 50176) f))
    (h1 : ∀ (r : Fin 6272) (f : Fin 32) (hr : 6272 + r.val < 50176), cur1 (ix2 r f) = base (ix2 (⟨6272 + r.val, hr⟩ : Fin 50176) f))
    (h2 : ∀ (r : Fin 6272) (f : Fin 32) (hr : 12544 + r.val < 50176), cur2 (ix2 r f) = base (ix2 (⟨12544 + r.val, hr⟩ : Fin 50176) f))
    (h3 : ∀ (r : Fin 6272) (f : Fin 32) (hr : 18816 + r.val < 50176), cur3 (ix2 r f) = base (ix2 (⟨18816 + r.val, hr⟩ : Fin 50176) f))
    (h4 : ∀ (r : Fin 6272) (f : Fin 32) (hr : 25088 + r.val < 50176), cur4 (ix2 r f) = base (ix2 (⟨25088 + r.val, hr⟩ : Fin 50176) f))
    (h5 : ∀ (r : Fin 6272) (f : Fin 32) (hr : 31360 + r.val < 50176), cur5 (ix2 r f) = base (ix2 (⟨31360 + r.val, hr⟩ : Fin 50176) f))
    (h6 : ∀ (r : Fin 6272) (f : Fin 32) (hr : 37632 + r.val < 50176), cur6 (ix2 r f) = base (ix2 (⟨37632 + r.val, hr⟩ : Fin 50176) f))
    (h7 : ∀ (r : Fin 6272) (f : Fin 32) (hr : 43904 + r.val < 50176), cur7 (ix2 r f) = base (ix2 (⟨43904 + r.val, hr⟩ : Fin 50176) f))
    (n : Fin 50176) (f : Fin 32) :
    View.canon (P8 x0 x1 x2 x3 cur0 cur1 cur2 cur3 cur4 cur5 cur6 cur7 ++ L') (ix2 n f) = base (ix2 n f) + blk x0 x1 x2 x3 n f := by
  refine View.canon_append_of_pieces (fun y => base y + blk x0 x1 x2 x3 (y 0) (y 1)) L' _ ?_ (ix2 n f) ?_
  · intro p hp
    unfold P8 at hp
    simp only [List.mem_cons, List.not_mem_nil, or_false] at hp
    rcases hp with rfl | rfl | rfl | rfl | rfl | rfl | rfl | rfl
    · refine piece_rows (Val := Elt Ideal) (e := .f32) (m := 50176) (n := 32) (k := 6272) (fun y => base y + blk x0 x1 x2 x3 (y 0) (y 1)) 43904 inb_S50176x32_S6272x32_43904_0 _ ?_
      intro r f hr
      exact (chunk7 x0 x1 x2 x3 cur7 r f hr).trans (congrArg (· + blk x0 x1 x2 x3 ⟨43904 + r.val, hr⟩ f) (h7 r f hr))
    · refine piece_rows (Val := Elt Ideal) (e := .f32) (m := 50176) (n := 32) (k := 6272) (fun y => base y + blk x0 x1 x2 x3 (y 0) (y 1)) 37632 inb_S50176x32_S6272x32_37632_0 _ ?_
      intro r f hr
      exact (chunk6 x0 x1 x2 x3 cur6 r f hr).trans (congrArg (· + blk x0 x1 x2 x3 ⟨37632 + r.val, hr⟩ f) (h6 r f hr))
    · refine piece_rows (Val := Elt Ideal) (e := .f32) (m := 50176) (n := 32) (k := 6272) (fun y => base y + blk x0 x1 x2 x3 (y 0) (y 1)) 31360 inb_S50176x32_S6272x32_31360_0 _ ?_
      intro r f hr
      exact (chunk5 x0 x1 x2 x3 cur5 r f hr).trans (congrArg (· + blk x0 x1 x2 x3 ⟨31360 + r.val, hr⟩ f) (h5 r f hr))
    · refine piece_rows (Val := Elt Ideal) (e := .f32) (m := 50176) (n := 32) (k := 6272) (fun y => base y + blk x0 x1 x2 x3 (y 0) (y 1)) 25088 inb_S50176x32_S6272x32_25088_0 _ ?_
      intro r f hr
      exact (chunk4 x0 x1 x2 x3 cur4 r f hr).trans (congrArg (· + blk x0 x1 x2 x3 ⟨25088 + r.val, hr⟩ f) (h4 r f hr))
    · refine piece_rows (Val := Elt Ideal) (e := .f32) (m := 50176) (n := 32) (k := 6272) (fun y => base y + blk x0 x1 x2 x3 (y 0) (y 1)) 18816 inb_S50176x32_S6272x32_18816_0 _ ?_
      intro r f hr
      exact (chunk3 x0 x1 x2 x3 cur3 r f hr).trans (congrArg (· + blk x0 x1 x2 x3 ⟨18816 + r.val, hr⟩ f) (h3 r f hr))
    · refine piece_rows (Val := Elt Ideal) (e := .f32) (m := 50176) (n := 32) (k := 6272) (fun y => base y + blk x0 x1 x2 x3 (y 0) (y 1)) 12544 inb_S50176x32_S6272x32_12544_0 _ ?_
      intro r f hr
      exact (chunk2 x0 x1 x2 x3 cur2 r f hr).trans (congrArg (· + blk x0 x1 x2 x3 ⟨12544 + r.val, hr⟩ f) (h2 r f hr))
    · refine piece_rows (Val := Elt Ideal) (e := .f32) (m := 50176) (n := 32) (k := 6272) (fun y => base y + blk x0 x1 x2 x3 (y 0) (y 1)) 6272 inb_S50176x32_S6272x32_6272_0 _ ?_
      intro r f hr
      exact (chunk1 x0 x1 x2 x3 cur1 r f hr).trans (congrArg (· + blk x0 x1 x2 x3 ⟨6272 + r.val, hr⟩ f) (h1 r f hr))
    · refine piece_rows (Val := Elt Ideal) (e := .f32) (m := 50176) (n := 32) (k := 6272) (fun y => base y + blk x0 x1 x2 x3 (y 0) (y 1)) 0 inb_S50176x32_S6272x32_0_0 _ ?_
      intro r f hr
      exact (chunk0 x0 x1 x2 x3 cur0 r f hr).trans (congrArg (· + blk x0 x1 x2 x3 ⟨0 + r.val, hr⟩ f) (h0 r f hr))
  · exact View.cover_of_tiledL (P8 x0 x1 x2 x3 cur0 cur1 cur2 cur3 cur4 cur5 cur6 cur7) S6272x32.size (by sl_kernel_rfl) (ix2 n f)

end Chunks

/-! ## The three control cases: what the body leaves in the output's buffer, read at a node row -/

section Cases

/-- The zero fill reads zero everywhere. -/
theorem zero_all (y : S50176x32.Idx) : (k3_pay4 (F := Ideal)) y = 0 := by
  rw [eq_ix2 y]; exact Pay.zero3_apply _ _

/-- The whole array's rectangle places an index at itself. -/
theorem idx_whole (inb : ∀ a, (![0, 0] : Fin 2 → Nat) a + (![50176, 32] : Fin 2 → Nat) a ≤ S50176x32.size a) (n : Fin 50176) (f : Fin 32) :
    (Rect.unit (s := S50176x32) ![0, 0] ![50176, 32] inb).toLoadRect.idx (ix2 n f) = ix2 n f := by
  funext a; apply Fin.ext
  match a with
  | ⟨0, _⟩ => show 0 + 1 * n.val = n.val; omega
  | ⟨1, _⟩ => show 0 + 1 * f.val = f.val; omega

/-- A middle point: the eight chunk updates over what the point before left. -/
theorem out_B (c : Dev nD) (i : grid3.Coords) (arg1 : Memref sig .tc .vmem S50176x32 .bf16) (harg1 : arg1.IsWhole) (arg2 : Memref sig .tc .vmem S1x256 .i32) (harg2 : arg2.IsWhole) (arg3 : Memref sig .tc .vmem S1x256 .i32) (harg3 : arg3.IsWhole) (arg4 : Memref sig .tc .vmem S1x256 .f32) (harg4 : arg4.IsWhole) (arg5 : Memref sig .tc .vmem S32 .f32) (harg5 : arg5.IsWhole) (arg6 : Memref sig .tc .vmem S50176x32 .f32) (harg6 : arg6.IsWhole) (hc0 : ¬cond3_0 i) (hc1 : ¬cond3_1 i)
    (x0 : Vec Ideal S50176x32 .bf16) (x1 : Vec Ideal S1x256 .i32) (x2 : Vec Ideal S1x256 .i32) (x3 : Vec Ideal S1x256 .f32) (x4 : Vec Ideal S32 .f32) (xo5 : Vec Ideal S50176x32 .f32) (n : Fin 50176) (f : Fin 32) :
    out3_B_5 (F := Ideal) c i arg1 harg1 arg2 harg2 arg3 harg3 arg4 harg4 arg5 harg5 arg6 harg6 hc0 hc1 x0 x1 x2 x3 x4 xo5 (ix2 n f) = xo5 (ix2 n f) + blk x0 x1 x2 x3 n f := by
  unfold out3_B_5
  rw [View.read_writes_eq_canon _ _ _ (cover3_B_5 c i arg1 harg1 arg2 harg2 arg3 harg3 arg4 harg4 arg5 harg5 arg6 harg6 hc0 hc1 x0 x1 x2 x3 x4 xo5)]
  unfold kernelRun3_B
  dsimp only
  sl_unfold_words
  simp only [View.readAt_eq_ld, harg1.read_unread, harg2.read_unread, harg3.read_unread, harg4.read_unread, harg5.read_unread,
    harg6.read_unread, View.ld_unit_zero (S := S1x256) hz2, View.ld_unit_zero (S := S32) hz1]
  exact P8_canon x0 x1 x2 x3 [] xo5 _ _ _ _ _ _ _ _
    (fun r f hr => ld_rows xo5 0 _ r f hr)
    (fun r f hr => ld_rows xo5 6272 _ r f hr)
    (fun r f hr => ld_rows xo5 12544 _ r f hr)
    (fun r f hr => ld_rows xo5 18816 _ r f hr)
    (fun r f hr => ld_rows xo5 25088 _ r f hr)
    (fun r f hr => ld_rows xo5 31360 _ r f hr)
    (fun r f hr => ld_rows xo5 37632 _ r f hr)
    (fun r f hr => ld_rows xo5 43904 _ r f hr) n f

/-- The last point: the eight updates, then the bias added, everywhere. -/
theorem out_C (c : Dev nD) (i : grid3.Coords) (arg1 : Memref sig .tc .vmem S50176x32 .bf16) (harg1 : arg1.IsWhole) (arg2 : Memref sig .tc .vmem S1x256 .i32) (harg2 : arg2.IsWhole) (arg3 : Memref sig .tc .vmem S1x256 .i32) (harg3 : arg3.IsWhole) (arg4 : Memref sig .tc .vmem S1x256 .f32) (harg4 : arg4.IsWhole) (arg5 : Memref sig .tc .vmem S32 .f32) (harg5 : arg5.IsWhole) (arg6 : Memref sig .tc .vmem S50176x32 .f32) (harg6 : arg6.IsWhole) (hc0 : ¬cond3_0 i) (hc1 : cond3_1 i)
    (x0 : Vec Ideal S50176x32 .bf16) (x1 : Vec Ideal S1x256 .i32) (x2 : Vec Ideal S1x256 .i32) (x3 : Vec Ideal S1x256 .f32) (x4 : Vec Ideal S32 .f32) (xo5 : Vec Ideal S50176x32 .f32) (n : Fin 50176) (f : Fin 32) :
    out3_C_5 (F := Ideal) c i arg1 harg1 arg2 harg2 arg3 harg3 arg4 harg4 arg5 harg5 arg6 harg6 hc0 hc1 x0 x1 x2 x3 x4 xo5 (ix2 n f) = xo5 (ix2 n f) + blk x0 x1 x2 x3 n f + x4 (ix1 f) := by
  unfold out3_C_5
  rw [View.read_writes_eq_canon _ _ _ (cover3_C_5 c i arg1 harg1 arg2 harg2 arg3 harg3 arg4 harg4 arg5 harg5 arg6 harg6 hc0 hc1 x0 x1 x2 x3 x4 xo5)]
  unfold kernelRun3_C
  dsimp only
  sl_unfold_words
  simp only [View.readAt_eq_ld, harg1.read_unread, harg2.read_unread, harg3.read_unread, harg4.read_unread, harg5.read_unread,
    harg6.read_unread, View.ld_unit_zero (S := S1x256) hz2, View.ld_unit_zero (S := S32) hz1]
  rw [View.canon_cons_unit_zero (S := S50176x32) hz2, Pay.fin3_apply, View.readCov_eq_canon']
  refine congrArg (· + x4 (ix1 f)) ?_
  refine (congrArg (View.canon _) (idx_whole _ n f)).trans ?_
  exact P8_canon x0 x1 x2 x3 [] xo5 _ _ _ _ _ _ _ _
    (fun r f hr => ld_rows xo5 0 _ r f hr)
    (fun r f hr => ld_rows xo5 6272 _ r f hr)
    (fun r f hr => ld_rows xo5 12544 _ r f hr)
    (fun r f hr => ld_rows xo5 18816 _ r f hr)
    (fun r f hr => ld_rows xo5 25088 _ r f hr)
    (fun r f hr => ld_rows xo5 31360 _ r f hr)
    (fun r f hr => ld_rows xo5 37632 _ r f hr)
    (fun r f hr => ld_rows xo5 43904 _ r f hr) n f

/-- The first point: the zero fill, then the eight updates, each over the zeros still in its rows. -/
theorem out_A (c : Dev nD) (i : grid3.Coords) (arg1 : Memref sig .tc .vmem S50176x32 .bf16) (harg1 : arg1.IsWhole) (arg2 : Memref sig .tc .vmem S1x256 .i32) (harg2 : arg2.IsWhole) (arg3 : Memref sig .tc .vmem S1x256 .i32) (harg3 : arg3.IsWhole) (arg4 : Memref sig .tc .vmem S1x256 .f32) (harg4 : arg4.IsWhole) (arg5 : Memref sig .tc .vmem S32 .f32) (harg5 : arg5.IsWhole) (arg6 : Memref sig .tc .vmem S50176x32 .f32) (harg6 : arg6.IsWhole) (hc0 : cond3_0 i) (hc1 : ¬cond3_1 i)
    (x0 : Vec Ideal S50176x32 .bf16) (x1 : Vec Ideal S1x256 .i32) (x2 : Vec Ideal S1x256 .i32) (x3 : Vec Ideal S1x256 .f32) (x4 : Vec Ideal S32 .f32) (n : Fin 50176) (f : Fin 32) :
    out3_A_5 (F := Ideal) c i arg1 harg1 arg2 harg2 arg3 harg3 arg4 harg4 arg5 harg5 arg6 harg6 hc0 hc1 x0 x1 x2 x3 x4 (ix2 n f) = 0 + blk x0 x1 x2 x3 n f := by
  unfold out3_A_5
  rw [View.read_writes_eq_canon _ _ _ (cover3_A_5 c i arg1 harg1 arg2 harg2 arg3 harg3 arg4 harg4 arg5 harg5 arg6 harg6 hc0 hc1 x0 x1 x2 x3 x4)]
  unfold kernelRun3_A
  dsimp only
  sl_unfold_words
  simp only [View.readAt_eq_ld, harg1.read_unread, harg2.read_unread, harg3.read_unread, harg4.read_unread, harg5.read_unread,
    harg6.read_unread, View.ld_unit_zero (S := S1x256) hz2, View.ld_unit_zero (S := S32) hz1]
  refine P8_canon x0 x1 x2 x3 _ (fun _ => 0)
    _ _ _ _ _ _ _ _ ?_ ?_ ?_ ?_ ?_ ?_ ?_ ?_ n f
  · intro r f hr
    rw [View.readCov_eq_canon', View.canon_unit_zero (S := S50176x32) hz2]
    exact zero_all _
  · intro r f hr
    rw [View.readCov_cons_of_rows_disjoint (k := 6272) (k' := 6272) _ 0 6272 (Or.inl (by omega))]
    rw [View.readCov_eq_canon', View.canon_unit_zero (S := S50176x32) hz2]
    exact zero_all _
  · intro r f hr
    rw [View.readCov_cons_of_rows_disjoint (k := 6272) (k' := 6272) _ 6272 12544 (Or.inl (by omega)),
      View.readCov_cons_of_rows_disjoint (k := 6272) (k' := 6272) _ 0 12544 (Or.inl (by omega))]
    rw [View.readCov_eq_canon', View.canon_unit_zero (S := S50176x32) hz2]
    exact zero_all _
  · intro r f hr
    rw [View.readCov_cons_of_rows_disjoint (k := 6272) (k' := 6272) _ 12544 18816 (Or.inl (by omega)),
      View.readCov_cons_of_rows_disjoint (k := 6272) (k' := 6272) _ 6272 18816 (Or.inl (by omega)),
      View.readCov_cons_of_rows_disjoint (k := 6272) (k' := 6272) _ 0 18816 (Or.inl (by omega))]
    rw [View.readCov_eq_canon', View.canon_unit_zero (S := S50176x32) hz2]
    exact zero_all _
  · intro r f hr
    rw [View.readCov_cons_of_rows_disjoint (k := 6272) (k' := 6272) _ 18816 25088 (Or.inl (by omega)),
      View.readCov_cons_of_rows_disjoint (k := 6272) (k' := 6272) _ 12544 25088 (Or.inl (by omega)),
      View.readCov_cons_of_rows_disjoint (k := 6272) (k' := 6272) _ 6272 25088 (Or.inl (by omega)),
      View.readCov_cons_of_rows_disjoint (k := 6272) (k' := 6272) _ 0 25088 (Or.inl (by omega))]
    rw [View.readCov_eq_canon', View.canon_unit_zero (S := S50176x32) hz2]
    exact zero_all _
  · intro r f hr
    rw [View.readCov_cons_of_rows_disjoint (k := 6272) (k' := 6272) _ 25088 31360 (Or.inl (by omega)),
      View.readCov_cons_of_rows_disjoint (k := 6272) (k' := 6272) _ 18816 31360 (Or.inl (by omega)),
      View.readCov_cons_of_rows_disjoint (k := 6272) (k' := 6272) _ 12544 31360 (Or.inl (by omega)),
      View.readCov_cons_of_rows_disjoint (k := 6272) (k' := 6272) _ 6272 31360 (Or.inl (by omega)),
      View.readCov_cons_of_rows_disjoint (k := 6272) (k' := 6272) _ 0 31360 (Or.inl (by omega))]
    rw [View.readCov_eq_canon', View.canon_unit_zero (S := S50176x32) hz2]
    exact zero_all _
  · intro r f hr
    rw [View.readCov_cons_of_rows_disjoint (k := 6272) (k' := 6272) _ 31360 37632 (Or.inl (by omega)),
      View.readCov_cons_of_rows_disjoint (k := 6272) (k' := 6272) _ 25088 37632 (Or.inl (by omega)),
      View.readCov_cons_of_rows_disjoint (k := 6272) (k' := 6272) _ 18816 37632 (Or.inl (by omega)),
      View.readCov_cons_of_rows_disjoint (k := 6272) (k' := 6272) _ 12544 37632 (Or.inl (by omega)),
      View.readCov_cons_of_rows_disjoint (k := 6272) (k' := 6272) _ 6272 37632 (Or.inl (by omega)),
      View.readCov_cons_of_rows_disjoint (k := 6272) (k' := 6272) _ 0 37632 (Or.inl (by omega))]
    rw [View.readCov_eq_canon', View.canon_unit_zero (S := S50176x32) hz2]
    exact zero_all _
  · intro r f hr
    rw [View.readCov_cons_of_rows_disjoint (k := 6272) (k' := 6272) _ 37632 43904 (Or.inl (by omega)),
      View.readCov_cons_of_rows_disjoint (k := 6272) (k' := 6272) _ 31360 43904 (Or.inl (by omega)),
      View.readCov_cons_of_rows_disjoint (k := 6272) (k' := 6272) _ 25088 43904 (Or.inl (by omega)),
      View.readCov_cons_of_rows_disjoint (k := 6272) (k' := 6272) _ 18816 43904 (Or.inl (by omega)),
      View.readCov_cons_of_rows_disjoint (k := 6272) (k' := 6272) _ 12544 43904 (Or.inl (by omega)),
      View.readCov_cons_of_rows_disjoint (k := 6272) (k' := 6272) _ 6272 43904 (Or.inl (by omega)),
      View.readCov_cons_of_rows_disjoint (k := 6272) (k' := 6272) _ 0 43904 (Or.inl (by omega))]
    rw [View.readCov_eq_canon', View.canon_unit_zero (S := S50176x32) hz2]
    exact zero_all _

end Cases

/-! ## The region's arrays and blocks, and the grid -/

section Points

variable (V : (c : Dev nD) → (b : Ref sig .tc) → Buf (Elt Ideal) ((c : Thread nD τ).loc b))

/-- Their blocks at a grid point. -/
abbrev tblk3 (c : Dev nD) (t : Fin cfg3.N) : Vec Ideal S50176x32 .bf16 := iblk3 V c 0 t
abbrev sblk3 (c : Dev nD) (t : Fin cfg3.N) : Vec Ideal S1x256 .i32 := iblk3 V c 1 t
abbrev dblk3 (c : Dev nD) (t : Fin cfg3.N) : Vec Ideal S1x256 .i32 := iblk3 V c 2 t
abbrev wblk3 (c : Dev nD) (t : Fin cfg3.N) : Vec Ideal S1x256 .f32 := iblk3 V c 3 t
abbrev bblk3 (c : Dev nD) (t : Fin cfg3.N) : Vec Ideal S32 .f32 := iblk3 V c 4 t

/-- The windows' block indices over the grid: the table, the bias and the output never move; the edge lists move one block of
    256 a point. -/
theorem idx3_0 : ∀ t : Fin cfg3.N, win3_0.index t 0 = 0 ∧ win3_0.index t 1 = 0 :=
  (by decide +kernel : ∀ t : Fin grid3.N, win3_0.index t 0 = 0 ∧ win3_0.index t 1 = 0)
theorem idx3_1 : ∀ t : Fin cfg3.N, win3_1.index t 0 = 0 ∧ win3_1.index t 1 = t.val :=
  (by decide +kernel : ∀ t : Fin grid3.N, win3_1.index t 0 = 0 ∧ win3_1.index t 1 = t.val)
theorem idx3_2 : ∀ t : Fin cfg3.N, win3_2.index t 0 = 0 ∧ win3_2.index t 1 = t.val :=
  (by decide +kernel : ∀ t : Fin grid3.N, win3_2.index t 0 = 0 ∧ win3_2.index t 1 = t.val)
theorem idx3_3 : ∀ t : Fin cfg3.N, win3_3.index t 0 = 0 ∧ win3_3.index t 1 = t.val :=
  (by decide +kernel : ∀ t : Fin grid3.N, win3_3.index t 0 = 0 ∧ win3_3.index t 1 = t.val)
theorem idx3_4 : ∀ t : Fin cfg3.N, win3_4.index t 0 = 0 :=
  (by decide +kernel : ∀ t : Fin grid3.N, win3_4.index t 0 = 0)
theorem idx3_5 : ∀ t : Fin cfg3.N, win3_5.index t 0 = 0 ∧ win3_5.index t 1 = 0 :=
  (by decide +kernel : ∀ t : Fin grid3.N, win3_5.index t 0 = 0 ∧ win3_5.index t 1 = 0)

/-- Entry `e` of an edge list's block `t` is entry `256 t + e` of the list. -/
theorem sblk3_apply (c : Dev nD) (t : Fin cfg3.N) (e : Fin 256) (h : 256 * t.val + e.val < 1050112) :
    sblk3 V c t (ix2 (0 : Fin 1) e) = srcs3 V c (ix2 (0 : Fin 1) ⟨256 * t.val + e.val, h⟩) := by
  unfold sblk3 srcs3 iblk3
  rw [View.read_apply]
  show V c (Pipeline.arrRef spec3 1) _ = V c (Pipeline.arrRef spec3 1) _
  congr 1
  funext a; apply Fin.ext
  match a with
  | ⟨0, _⟩ => show win3_1.index t 0 * 1 + 1 * 0 = 0; rw [(idx3_1 t).1]
  | ⟨1, _⟩ => show win3_1.index t 1 * 256 + 1 * e.val = 256 * t.val + e.val; rw [(idx3_1 t).2]; omega
theorem dblk3_apply (c : Dev nD) (t : Fin cfg3.N) (e : Fin 256) (h : 256 * t.val + e.val < 1050112) :
    dblk3 V c t (ix2 (0 : Fin 1) e) = dsts3 V c (ix2 (0 : Fin 1) ⟨256 * t.val + e.val, h⟩) := by
  unfold dblk3 dsts3 iblk3
  rw [View.read_apply]
  show V c (Pipeline.arrRef spec3 2) _ = V c (Pipeline.arrRef spec3 2) _
  congr 1
  funext a; apply Fin.ext
  match a with
  | ⟨0, _⟩ => show win3_2.index t 0 * 1 + 1 * 0 = 0; rw [(idx3_2 t).1]
  | ⟨1, _⟩ => show win3_2.index t 1 * 256 + 1 * e.val = 256 * t.val + e.val; rw [(idx3_2 t).2]; omega
theorem wblk3_apply (c : Dev nD) (t : Fin cfg3.N) (e : Fin 256) (h : 256 * t.val + e.val < 1050112) :
    wblk3 V c t (ix2 (0 : Fin 1) e) = wts3 V c (ix2 (0 : Fin 1) ⟨256 * t.val + e.val, h⟩) := by
  unfold wblk3 wts3 iblk3
  rw [View.read_apply]
  show V c (Pipeline.arrRef spec3 3) _ = V c (Pipeline.arrRef spec3 3) _
  congr 1
  funext a; apply Fin.ext
  match a with
  | ⟨0, _⟩ => show win3_3.index t 0 * 1 + 1 * 0 = 0; rw [(idx3_3 t).1]
  | ⟨1, _⟩ => show win3_3.index t 1 * 256 + 1 * e.val = 256 * t.val + e.val; rw [(idx3_3 t).2]; omega

/-- The table's one block is the table. -/
theorem tblk3_apply (c : Dev nD) (t : Fin cfg3.N) (n : Fin 50176) (f : Fin 32) :
    tblk3 V c t (ix2 n f) = tab3 V c (ix2 n f) := by
  unfold tblk3 tab3 iblk3
  rw [View.read_apply]
  show V c (Pipeline.arrRef spec3 0) _ = V c (Pipeline.arrRef spec3 0) _
  congr 1
  funext a; apply Fin.ext
  match a with
  | ⟨0, _⟩ => show win3_0.index t 0 * 50176 + 1 * n.val = n.val; rw [(idx3_0 t).1]; omega
  | ⟨1, _⟩ => show win3_0.index t 1 * 32 + 1 * f.val = f.val; rw [(idx3_0 t).2]; omega

/-- The bias's one block is the bias. -/
theorem bblk3_apply (c : Dev nD) (t : Fin cfg3.N) (f : Fin 32) :
    bblk3 V c t (ix1 f) = bias3 V c (ix1 f) := by
  unfold bblk3 bias3 iblk3
  rw [View.read_apply]
  show V c (Pipeline.arrRef spec3 4) _ = V c (Pipeline.arrRef spec3 4) _
  congr 1
  funext a; apply Fin.ext
  match a with
  | ⟨0, _⟩ => show win3_4.index t 0 * 32 + 1 * f.val = f.val; rw [idx3_4 t]; omega

/-- The specification's arguments: the table by rows, the edge lists by position. -/
abbrev H3 (c : Dev nD) : Fin 50176 → Fin 32 → EReal := fun r k => tab3 V c (ix2 r k)
abbrev S3 (c : Dev nD) : ℕ → BitVec 32 := rowAt (srcs3 V c) 0#32
abbrev D3 (c : Dev nD) : ℕ → BitVec 32 := rowAt (dsts3 V c) 0#32
abbrev W3 (c : Dev nD) : ℕ → EReal := rowAt (wts3 V c) 0

/-- What point `t`'s blocks add is the specification's share of edge block `t`. -/
theorem blk_eq (c : Dev nD) (t : Fin cfg3.N) (n : Fin 50176) (f : Fin 32) :
    blk (tblk3 V c t) (sblk3 V c t) (dblk3 V c t) (wblk3 V c t) n f = blockS (H3 V c) (S3 V c) (D3 V c) (W3 V c) t.val n f := by
  have hN : t.val < 4102 := lt_of_lt_of_eq t.isLt (show cfg3.N = 4102 from N_3)
  have hH : (fun r k => tblk3 V c t (ix2 r k)) = H3 V c := funext fun r => funext fun k => tblk3_apply V c t r k
  unfold blk blockS
  refine Finset.sum_congr rfl fun e _ => ?_
  have he : 256 * t.val + e.val < 1050112 := by have := e.isLt; omega
  rw [sblk3_apply V c t e he, dblk3_apply V c t e he, wblk3_apply V c t e he, hH]
  unfold S3 D3 W3 rowAt
  rw [dif_pos he, dif_pos he, dif_pos he]

/-! ## Point by point -/

/-- The first point leaves the first block's share added to zero. -/
theorem step_A (c : Dev nD) (t : Fin cfg3.N) (h0 : t.val % 4102 = 0) (h1 : ¬t.val % 4102 = 4101) (n : Fin 50176) (f : Fin 32) :
    outsAt3 V c t.val t.isLt (ix2 n f) = 0 + blockS (H3 V c) (S3 V c) (D3 V c) (W3 V c) t.val n f := by
  rw [outsAt3_A V c t h0 h1, out_A, blk_eq V c t n f]

/-- A middle point adds its block's share to what the point before left. -/
theorem step_B (c : Dev nD) (t : Fin cfg3.N) (h0 : ¬t.val % 4102 = 0) (h1 : ¬t.val % 4102 = 4101) (n : Fin 50176) (f : Fin 32) :
    outsAt3 V c t.val t.isLt (ix2 n f)
      = outsAt3 V c (t.val - 1) (Nat.lt_of_le_of_lt (Nat.sub_le _ _) t.isLt) (ix2 n f) + blockS (H3 V c) (S3 V c) (D3 V c) (W3 V c) t.val n f := by
  rw [outsAt3_B V c t h0 h1, out_B, blk_eq V c t n f]

/-- The last point adds its block's share, then the bias. -/
theorem step_C (c : Dev nD) (t : Fin cfg3.N) (h0 : ¬t.val % 4102 = 0) (h1 : t.val % 4102 = 4101) (n : Fin 50176) (f : Fin 32) :
    outsAt3 V c t.val t.isLt (ix2 n f)
      = outsAt3 V c (t.val - 1) (Nat.lt_of_le_of_lt (Nat.sub_le _ _) t.isLt) (ix2 n f) + blockS (H3 V c) (S3 V c) (D3 V c) (W3 V c) t.val n f
          + bias3 V c (ix1 f) := by
  rw [outsAt3_C V c t h0 h1, out_C, blk_eq V c t n f,
    show iblk3 V c 4 t (ix1 f) = bias3 V c (ix1 f) from bblk3_apply V c t f]

/-- Before the last point the output's buffer holds the specification's running sum. -/
theorem outs_lt (c : Dev nD) : ∀ (t : ℕ) (ht : t < cfg3.N), t < 4101 → ∀ (n : Fin 50176) (f : Fin 32),
    outsAt3 V c t ht (ix2 n f) = accK (H3 V c) (S3 V c) (D3 V c) (W3 V c) t n f
  | 0, ht, _, n, f => step_A V c ⟨0, ht⟩ rfl (show ¬0 % 4102 = 4101 from by decide) n f
  | t + 1, ht, hlt, n, f => by
    refine (step_B V c ⟨t + 1, ht⟩ (by dsimp only; omega) (by dsimp only; omega) n f).trans ?_
    exact congrArg (· + blockS (H3 V c) (S3 V c) (D3 V c) (W3 V c) (t + 1) n f) (outs_lt c t (Nat.lt_of_succ_lt ht) (by omega) n f)

/-! ## The output array when the region ends -/

theorem lastpt : 4101 < cfg3.N := by rw [show cfg3.N = 4102 from N_3]; decide

/-- The output's one block, read through the array's end of its transfer, is the whole array: stated for any contents. -/
theorem cut_eq_read (G : Vec Ideal S50176x32 .f32) :
    (cfg3.win 5).cut (grid3.coords ⟨4101, lastpt⟩) G = ((cfg3.win 5).blk ⟨4101, lastpt⟩).view.read (Elt Ideal) G := by
  have hz' : (fun a => win3_5.index ⟨4101, lastpt⟩ a * main_v42.ty.shape.size a) = fun _ => 0 := funext fun a => by
    match a with
    | ⟨0, _⟩ => show win3_5.index ⟨4101, lastpt⟩ 0 * _ = 0; rw [(idx3_5 _).1]; exact Nat.zero_mul _
    | ⟨1, _⟩ => show win3_5.index ⟨4101, lastpt⟩ 1 * _ = 0; rw [(idx3_5 _).2]; exact Nat.zero_mul _
  exact (Memref.read_access_unit_zero (Elt Ideal) main_v42 hz' (fun a => by rw [congrFun hz' a]; simp) G).symm

/-- The one write-back, after the last point, writes the whole buffer over the whole array: stated for any contents `G`
    the last point leaves. -/
theorem flushed3_eq_of (c : Dev nD) (G : Vec Ideal S50176x32 .f32) (hG : (dat3 V c).after 5 ⟨4101, lastpt⟩ = G)
    (t : Fin cfg3.N) (hf : (cfg3.win 5).flush t = true) :
    (dat3 V c).flushed 5 t = ((cfg3.win 5).blk t).view.read (Elt Ideal) G := by
  have hN : cfg3.N = 4102 := N_3
  have h3 : t.val = 4101 := by have := (flush3_5 t).mp hf; have := t.isLt; omega
  obtain rfl : t = ⟨4101, lastpt⟩ := Fin.ext h3
  show (cfg3.win 5).cut (grid3.coords ⟨4101, lastpt⟩) ((dat3 V c).after 5 ⟨4101, lastpt⟩) = _
  rw [hG]
  exact cut_eq_read G

/-- The last point's block covers the whole array. -/
theorem cover3_last (c : Dev nD) (i : ((cfg3.win 5).arr.view.loc (c.tc : Thread nD τ)).2.ty.Idx) :
    ∃ t : Fin cfg3.N, (cfg3.win 5).flush t = true ∧ i ∈ ((cfg3.win 5).blk t).view.set :=
  ⟨⟨4101, lastpt⟩, (flush3_5 _).mpr rfl, by
    show i ∈ ((View.whole main_v42).slice (win3_5.rect ⟨4101, lastpt⟩)).set
    rw [View.set_slice_whole, Rect.mem_set_unit]
    intro a
    have h0 : (i 0 : Nat) < 50176 := (i 0).isLt
    have h1 : (i 1 : Nat) < 32 := (i 1).isLt
    match a with
    | ⟨0, _⟩ =>
      show win3_5.index ⟨4101, lastpt⟩ 0 * win3_5.size 0 ≤ (i 0 : Nat)
        ∧ (i 0 : Nat) < win3_5.index ⟨4101, lastpt⟩ 0 * win3_5.size 0 + win3_5.xsize (grid3.coords ⟨4101, lastpt⟩) 0
      rw [(idx3_5 _).1, show win3_5.xsize (grid3.coords ⟨4101, lastpt⟩) 0 = 50176 from by decide +kernel]; omega
    | ⟨1, _⟩ =>
      show win3_5.index ⟨4101, lastpt⟩ 1 * win3_5.size 1 ≤ (i 1 : Nat)
        ∧ (i 1 : Nat) < win3_5.index ⟨4101, lastpt⟩ 1 * win3_5.size 1 + win3_5.xsize (grid3.coords ⟨4101, lastpt⟩) 1
      rw [(idx3_5 _).2, show win3_5.xsize (grid3.coords ⟨4101, lastpt⟩) 1 = 32 from by decide +kernel]; omega⟩

/-- So the array ends holding what the last point left, whatever that is, -/
theorem arr3_final_of (c : Dev nD) (G : Vec Ideal S50176x32 .f32) (hG : (dat3 V c).after 5 ⟨4101, lastpt⟩ = G) :
    (dat3 V c).arrAt 5 cfg3.N = G :=
  (dat3 V c).arrAt_eq_of_cover 5 G (flushed3_eq_of V c G hG) (cover3_last c)

/-- and that is the output's buffer after point 4101. -/
theorem arr3_final (c : Dev nD) : (dat3 V c).arrAt 5 cfg3.N = outsAt3 V c 4101 lastpt :=
  arr3_final_of V c (outsAt3 V c 4101 lastpt) (after3_5 V c ⟨4101, lastpt⟩)

end Points

end R3

section Value

open R3

variable (V : (c : Dev nD) → (b : Ref sig .tc) → Buf (Elt Ideal) ((c : Thread nD τ).loc b))

/-- THE VALUE: the region leaves, at entry `f` of node row `n`, the 4102 blocks' running sum plus the bias. -/
theorem agg3_value (c : Dev nD) (n : Fin 50176) (f : Fin 32) :
    ((dat3 (F := Ideal) V c).arrAt 5 cfg3.N : Vec Ideal S50176x32 .f32) (ix2 n f)
      = accK (fun r k => tab3 V c (ix2 r k)) (rowAt (srcs3 V c) 0#32) (rowAt (dsts3 V c) 0#32) (rowAt (wts3 V c) 0) 4101 n f
          + bias3 V c (ix1 f) := by
  rw [arr3_final V c]
  refine (step_C V c ⟨4101, lastpt⟩ (by decide) rfl n f).trans ?_
  exact congrArg (fun z => z + blockS (H3 V c) (S3 V c) (D3 V c) (W3 V c) 4101 n f + bias3 V c (ix1 f))
    (outs_lt V c 4100 (Nat.lt_of_succ_lt lastpt) (by decide) n f)

end Value

end Cert.KernelIdeal.AggValue

end
-- ==== Proof.KValue.lean ====
/-
  The kernel program's result as one function of its arguments.

  Region by region: the first dense layer maps the padded features to a table of 50176 rows; the first aggregation
  turns it into the hidden features (positive part of the accumulated messages plus the bias); the second dense layer
  and the second aggregation do the same without the positive part; the program returns the first 50000 rows. The edge
  rows and weights every aggregation reads are the ones the host stretches built before the first region.
-/
import proofs.«429772_j53867479827167_3_alg».proof.Proof.KHost
import proofs.«429772_j53867479827167_3_alg».proof.Proof.KLin
import proofs.«429772_j53867479827167_3_alg».proof.Proof.KAgg1
import proofs.«429772_j53867479827167_3_alg».proof.Proof.KAgg3
import proofs.«429772_j53867479827167_3_alg».proof.Proof.Spec
import Idealize.ShloMosaic.Lib.Pipeline.Value

set_option maxRecDepth 16384

noncomputable section

namespace Cert.KernelIdeal.KValue

open Cert.KernelIdeal Cert.KernelIdeal.Gen Cert.KernelIdeal.Glue Cert.KernelIdeal.LinValue Cert.KernelIdeal.AggValue Cert.GcnSpec
open Idealize.ShloMosaic Idealize.ShloMosaic.TcCoe Idealize.ShloMosaic.ValueIdx Idealize.SL.Sem

/-! ## The function -/

section Fn
variable (x0 : Vec Ideal S50000x64 .f32) (x1 : Vec Ideal S2x1000000 .i32) (w1 : Vec Ideal S64x64 .f32) (b1 : Vec Ideal S64 .f32)
  (w2 : Vec Ideal S64x32 .f32) (b2 : Vec Ideal S32 .f32)

/-- The kernel's source list: the padded row read at a position. -/
def srcK : ℕ → BitVec 32 := rowAt (padRowI (F := Ideal) (srcFull (F := Ideal) x1)) 0#32
/-- The kernel's destination list. -/
def dstK : ℕ → BitVec 32 := rowAt (padRowI (F := Ideal) (dstFull (F := Ideal) x1)) 0#32
/-- The kernel's edge weights. -/
def wgtK : ℕ → EReal :=
  rowAt (padRowF (F := Ideal) (normOf (F := Ideal) (srcFull (F := Ideal) x1) (dstFull (F := Ideal) x1) (dinvOf (F := Ideal) (dstFull (F := Ideal) x1)))) 0
/-- The first dense layer over the padded features. -/
def lin1K : Fin 50176 → Fin 64 → EReal := lin (fun r k => xpad (F := Ideal) x0 (ix2 r k)) (fun k f => w1 (ix2 k f))
/-- The hidden features: the first aggregation, its bias, the positive part. -/
def out1K (n : Fin 50176) (k : Fin 64) : EReal :=
  max (accK (lin1K x0 w1) (srcK x1) (dstK x1) (wgtK x1) 4101 n k + b1 (ix1 k)) 0
/-- The second dense layer over the hidden features. -/
def lin2K : Fin 50176 → Fin 32 → EReal := lin (out1K x0 x1 w1 b1) (fun k f => w2 (ix2 k f))
/-- The second aggregation and its bias. -/
def outK (n : Fin 50176) (f : Fin 32) : EReal :=
  accK (lin2K x0 x1 w1 b1 w2) (srcK x1) (dstK x1) (wgtK x1) 4101 n f + b2 (ix1 f)

end Fn

/-! ## The run computes it -/

section Run
variable (m : (ℓ : Loc nD τ sig) → Buf (Elt Ideal) ℓ) (ρ : Dev nD → PrngReg) (c : Dev nD)

abbrev A0 : Vec Ideal S50000x64 .f32 := m ((c : Thread nD τ).loc main_arg0)
abbrev A1 : Vec Ideal S2x1000000 .i32 := m ((c : Thread nD τ).loc main_arg1)
abbrev A2 : Vec Ideal S64x64 .f32 := m ((c : Thread nD τ).loc main_arg2)
abbrev A3 : Vec Ideal S64 .f32 := m ((c : Thread nD τ).loc main_arg3)
abbrev A4 : Vec Ideal S64x32 .f32 := m ((c : Thread nD τ).loc main_arg4)
abbrev A5 : Vec Ideal S32 .f32 := m ((c : Thread nD τ).loc main_arg5)

/-- The table the first aggregation reads is the first dense layer's result. -/
theorem tab1_at (r : Fin 50176) (k : Fin 64) : tab1 (V5 m ρ) c (ix2 r k) = lin1K (A0 m c) (A2 m c) r k := by
  have h : tab1 (V5 m ρ) c = dense0 (V4 m ρ) c := (hF0 m ρ c 2).symm.trans (final0 (V4 m ρ) c)
  have hx : xin0 (V4 m ρ) c = xpad (F := Ideal) (A0 m c) := W4_v38 m ρ c
  have hw : wgt0 (V4 m ρ) c = A2 m c := W4_arg2 m ρ c
  rw [h]
  show lin (fun r k => xin0 (V4 m ρ) c (ix2 r k)) (fun k f => wgt0 (V4 m ρ) c (ix2 k f)) r k = _
  rw [hx, hw]; rfl

theorem srcs1_eq : srcs1 (V5 m ρ) c = padRowI (F := Ideal) (srcFull (F := Ideal) (A1 m c)) :=
  (W5_of_ne m ρ c main_v35 (by decide)).trans (W4_v35 m ρ c)
theorem dsts1_eq : dsts1 (V5 m ρ) c = padRowI (F := Ideal) (dstFull (F := Ideal) (A1 m c)) :=
  (W5_of_ne m ρ c main_v36 (by decide)).trans (W4_v36 m ρ c)
theorem wts1_eq : wts1 (V5 m ρ) c
    = padRowF (F := Ideal) (normOf (F := Ideal) (srcFull (F := Ideal) (A1 m c)) (dstFull (F := Ideal) (A1 m c)) (dinvOf (F := Ideal) (dstFull (F := Ideal) (A1 m c)))) :=
  (W5_of_ne m ρ c main_v37 (by decide)).trans (W4_v37 m ρ c)
theorem bias1_eq : bias1 (V5 m ρ) c = A3 m c :=
  (W5_of_ne m ρ c main_arg3 (by decide)).trans (W4_arg3 m ρ c)

/-- The second dense layer reads the hidden features. -/
theorem xin2_at (n : Fin 50176) (k : Fin 64) :
    xin2 (V6 m ρ) c (ix2 n k) = out1K (A0 m c) (A1 m c) (A2 m c) (A3 m c) n k := by
  have h : xin2 (V6 m ρ) c = (dat1 (F := Ideal) (V5 m ρ) c).arrAt 5 cfg1.N := (hF1 m ρ c 5).symm
  have ht : (fun r k => tab1 (V5 m ρ) c (ix2 r k)) = lin1K (A0 m c) (A2 m c) :=
    funext fun r => funext fun k => tab1_at m ρ c r k
  rw [h, agg1_value (V5 m ρ) c n k, ht, srcs1_eq, dsts1_eq, wts1_eq, bias1_eq]; rfl

theorem wgt2_eq : wgt2 (V6 m ρ) c = A4 m c :=
  (W6_of_ne m ρ c main_arg4 (by decide)).trans ((W5_of_ne m ρ c main_arg4 (by decide)).trans (W4_arg4 m ρ c))

/-- The table the second aggregation reads is the second dense layer's result. -/
theorem tab3_at (r : Fin 50176) (f : Fin 32) :
    tab3 (V7 m ρ) c (ix2 r f) = lin2K (A0 m c) (A1 m c) (A2 m c) (A3 m c) (A4 m c) r f := by
  have h : tab3 (V7 m ρ) c = dense2 (V6 m ρ) c := (hF2 m ρ c 2).symm.trans (final2 (V6 m ρ) c)
  have hx : (fun r k => xin2 (V6 m ρ) c (ix2 r k)) = out1K (A0 m c) (A1 m c) (A2 m c) (A3 m c) :=
    funext fun r => funext fun k => xin2_at m ρ c r k
  rw [h]
  show lin (fun r k => xin2 (V6 m ρ) c (ix2 r k)) (fun k f => wgt2 (V6 m ρ) c (ix2 k f)) r f = _
  rw [hx, wgt2_eq]; rfl

theorem srcs3_eq : srcs3 (V7 m ρ) c = padRowI (F := Ideal) (srcFull (F := Ideal) (A1 m c)) :=
  (W7_of_ne m ρ c main_v35 (by decide)).trans (((W6_arr m ρ c 1).trans (((dat1 (V5 m ρ) c).arrAt_in 1 rfl _).trans (A_eq1 (V5 m ρ) c 1))).trans
    ((W5_of_ne m ρ c main_v35 (by decide)).trans (W4_v35 m ρ c)))
theorem dsts3_eq : dsts3 (V7 m ρ) c = padRowI (F := Ideal) (dstFull (F := Ideal) (A1 m c)) :=
  (W7_of_ne m ρ c main_v36 (by decide)).trans (((W6_arr m ρ c 2).trans (((dat1 (V5 m ρ) c).arrAt_in 2 rfl _).trans (A_eq1 (V5 m ρ) c 2))).trans
    ((W5_of_ne m ρ c main_v36 (by decide)).trans (W4_v36 m ρ c)))
theorem wts3_eq : wts3 (V7 m ρ) c
    = padRowF (F := Ideal) (normOf (F := Ideal) (srcFull (F := Ideal) (A1 m c)) (dstFull (F := Ideal) (A1 m c)) (dinvOf (F := Ideal) (dstFull (F := Ideal) (A1 m c)))) :=
  (W7_of_ne m ρ c main_v37 (by decide)).trans (((W6_arr m ρ c 3).trans (((dat1 (V5 m ρ) c).arrAt_in 3 rfl _).trans (A_eq1 (V5 m ρ) c 3))).trans
    ((W5_of_ne m ρ c main_v37 (by decide)).trans (W4_v37 m ρ c)))
theorem bias3_eq : bias3 (V7 m ρ) c = A5 m c :=
  (W7_of_ne m ρ c main_arg5 (by decide)).trans ((W6_of_ne m ρ c main_arg5 (by decide)).trans
    ((W5_of_ne m ρ c main_arg5 (by decide)).trans (W4_arg5 m ρ c)))

/-- THE KERNEL PROGRAM'S VALUE: entry `(n, f)` of the returned array. -/
theorem kernel_value (n : Fin 50000) (f : Fin 32) :
    (W9 m ρ c (Proc.devRef .tc main_v43) : Vec Ideal S50000x32 .f32) (ix2 n f)
      = outK (A0 m c) (A1 m c) (A2 m c) (A3 m c) (A4 m c) (A5 m c) ⟨n.val, by omega⟩ f := by
  have h8 : (W8 m ρ c (Proc.devRef .tc main_v42) : Vec Ideal S50176x32 .f32) = (dat3 (F := Ideal) (V7 m ρ) c).arrAt 5 cfg3.N :=
    W8_arr m ρ c 5
  have ht : (fun r k => tab3 (V7 m ρ) c (ix2 r k)) = lin2K (A0 m c) (A1 m c) (A2 m c) (A3 m c) (A4 m c) :=
    funext fun r => funext fun k => tab3_at m ρ c r k
  rw [W9_v43, extractStridedSlice_apply (![0, 0] : Fin 2 → Nat) _ _ (ix2 n f) (ix2 (⟨n.val, by omega⟩ : Fin 50176) f)
    (fun a => by match a with | ⟨0, _⟩ => simp | ⟨1, _⟩ => simp),
    h8, agg3_value (V7 m ρ) c _ f, ht, srcs3_eq, dsts3_eq, wts3_eq, bias3_eq]
  rfl

end Run

end Cert.KernelIdeal.KValue

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.EdgeFacts.lean ====
/-
  The reference's edge lists under the range hypothesis "every entry of the edge-index input is a word below 50000".

  The reference appends the 50000 self-loops to each row of the edge index: the source list is row 0 followed by
  0, 1, …, 49999, the destination list is row 1 followed by the same numbers. Read at a position `e`, a list is
  the input's row at `e` for `e < 1000000` and the word of `e - 1000000` from there on. Under the range
  hypothesis every entry of both lists is a word below 50000; such a word read signed is its own value, so it is
  not negative, and the index wrap `select (w < 0) (w + 50000) w` keeps `w`. The second layer's copies of
  these stages are the same functions of the edge index.
-/
import proofs.«429772_j53867479827167_3_alg».proof.Proof.RefRead
import Idealize.ShloMosaic.Lib.Pipeline.Value
import Idealize.ShloMosaic.Lib.ValueIdx

noncomputable section

namespace Cert.ReferenceIdeal.EdgeFacts

open Cert.ReferenceIdeal Idealize.ShloMosaic Idealize.ShloMosaic.ValueIdx

/-! ## Words below 50000 -/

/-- A 32-bit word below 50000, read signed, is its own value. -/
theorem toInt_of_lt (w : BitVec 32) (h : w.toNat < 50000) : w.toInt = (w.toNat : ℤ) :=
  BitVec.toInt_eq_toNat_of_lt (by omega)

/-- A 32-bit word below 50000 is not negative read signed: the signed test "below zero" gives the zero bit. -/
theorem cmpi_slt_zero_of_lt (w : BitVec 32) (h : w.toNat < 50000) : IntOp.cmpi .slt w 0#32 = 0#1 := by
  have hlt : w.slt 0#32 = false := by
    simp only [BitVec.slt, BitVec.toInt_zero, decide_eq_false_iff_not, Int.not_lt]
    rw [toInt_of_lt w h]; omega
  show BitVec.ofBool (w.slt 0#32) = 0#1
  rw [hlt]; rfl

/-- The word of a number below 50000 has that number as its value. -/
theorem toNat_ofNat_of_lt (j : Nat) (h : j < 50000) : (BitVec.ofNat 32 j).toNat = j := by
  rw [BitVec.toNat_ofNat]; exact Nat.mod_eq_of_lt (by omega)

/-! ## The two rows of the edge index, as the lists' first million entries -/

/-- Row 0 of the edge index, sliced and reshaped, at `k`. -/
theorem row0_apply (x1 : (⟨S2x1000000, .i32⟩ : BufTy).Contents (Elt Ideal)) (k : Fin 1000000) :
    ReadP.val_main_v2 (F := Ideal) x1 (ix1 k) = x1 (ix2 (0 : Fin 2) k) := by
  rw [ReadP.val_main_v2_apply, ReadP.val_main_v1_apply]
  congr 1
  funext a
  match a with
  | ⟨0, _⟩ => rfl
  | ⟨1, _⟩ => exact Fin.ext (Nat.mod_eq_of_lt k.isLt)

/-- Row 1 of the edge index, sliced and reshaped, at `k`. -/
theorem row1_apply (x1 : (⟨S2x1000000, .i32⟩ : BufTy).Contents (Elt Ideal)) (k : Fin 1000000) :
    ReadP.val_main_v4 (F := Ideal) x1 (ix1 k) = x1 (ix2 (1 : Fin 2) k) := by
  rw [ReadP.val_main_v4_apply, ReadP.val_main_v3_apply]
  congr 1
  funext a
  match a with
  | ⟨0, _⟩ => rfl
  | ⟨1, _⟩ => exact Fin.ext (Nat.mod_eq_of_lt k.isLt)

/-! ## The lists at a position -/

/-- The source list below position 1000000 is row 0 of the edge index. -/
theorem src_left (x1 : (⟨S2x1000000, .i32⟩ : BufTy).Contents (Elt Ideal)) (e : Fin 1050000) (h : e.val < 1000000) :
    ReadP.val_main_v6 (F := Ideal) x1 (ix1 e) = x1 (ix2 (0 : Fin 2) ⟨e.val, h⟩) := by
  unfold ReadP.val_main_v6
  rw [concatenate_pair_apply_left (0 : Fin S1050000.rank) (ReadP.val_main_v2 (F := Ideal) x1) (ReadP.val_main_v5 (F := Ideal))
    Gen.concatenates_S1000000_S50000_S1050000_d0 (ix1 e) rfl (ix1 (⟨e.val, h⟩ : Fin 1000000))
    (fun b => match b with | ⟨0, _⟩ => rfl)]
  exact row0_apply x1 ⟨e.val, h⟩

/-- The source list from position 1000000 on is the self-loops: the word of the position less 1000000. -/
theorem src_right (x1 : (⟨S2x1000000, .i32⟩ : BufTy).Contents (Elt Ideal)) (e : Fin 1050000) (h : 1000000 ≤ e.val) :
    ReadP.val_main_v6 (F := Ideal) x1 (ix1 e) = BitVec.ofNat 32 (e.val - 1000000) := by
  have hlt : e.val - 1000000 < 50000 := by have := e.isLt; omega
  unfold ReadP.val_main_v6
  rw [concatenate_pair_apply_right (0 : Fin S1050000.rank) (ReadP.val_main_v2 (F := Ideal) x1) (ReadP.val_main_v5 (F := Ideal))
    Gen.concatenates_S1000000_S50000_S1050000_d0 (ix1 e) rfl rfl (ix1 (⟨e.val - 1000000, hlt⟩ : Fin 50000))
    (fun b hb => absurd (Fin.ext (by have hb1 : b.val < 1 := b.isLt; show b.val = 0; omega)) hb)
    (by show e.val - 1000000 + 1000000 = e.val; omega)]
  rfl

/-- The destination list below position 1000000 is row 1 of the edge index. -/
theorem dst_left (x1 : (⟨S2x1000000, .i32⟩ : BufTy).Contents (Elt Ideal)) (e : Fin 1050000) (h : e.val < 1000000) :
    ReadP.val_main_v7 (F := Ideal) x1 (ix1 e) = x1 (ix2 (1 : Fin 2) ⟨e.val, h⟩) := by
  unfold ReadP.val_main_v7
  rw [concatenate_pair_apply_left (0 : Fin S1050000.rank) (ReadP.val_main_v4 (F := Ideal) x1) (ReadP.val_main_v5 (F := Ideal))
    Gen.concatenates_S1000000_S50000_S1050000_d0 (ix1 e) rfl (ix1 (⟨e.val, h⟩ : Fin 1000000))
    (fun b => match b with | ⟨0, _⟩ => rfl)]
  exact row1_apply x1 ⟨e.val, h⟩

/-- The destination list from position 1000000 on is the self-loops: the word of the position less 1000000. -/
theorem dst_right (x1 : (⟨S2x1000000, .i32⟩ : BufTy).Contents (Elt Ideal)) (e : Fin 1050000) (h : 1000000 ≤ e.val) :
    ReadP.val_main_v7 (F := Ideal) x1 (ix1 e) = BitVec.ofNat 32 (e.val - 1000000) := by
  have hlt : e.val - 1000000 < 50000 := by have := e.isLt; omega
  unfold ReadP.val_main_v7
  rw [concatenate_pair_apply_right (0 : Fin S1050000.rank) (ReadP.val_main_v4 (F := Ideal) x1) (ReadP.val_main_v5 (F := Ideal))
    Gen.concatenates_S1000000_S50000_S1050000_d0 (ix1 e) rfl rfl (ix1 (⟨e.val - 1000000, hlt⟩ : Fin 50000))
    (fun b hb => absurd (Fin.ext (by have hb1 : b.val < 1 := b.isLt; show b.val = 0; omega)) hb)
    (by show e.val - 1000000 + 1000000 = e.val; omega)]
  rfl

/-! ## Every entry of the lists is a word below 50000 -/

/-- Every source is a word below 50000. -/
theorem src_lt (x1 : (⟨S2x1000000, .i32⟩ : BufTy).Contents (Elt Ideal))
    (hr : ∀ (r : Fin 2) (e : Fin 1000000), (x1 (ix2 r e)).toNat < 50000) (e : Fin 1050000) :
    (ReadP.val_main_v6 (F := Ideal) x1 (ix1 e)).toNat < 50000 := by
  by_cases h : e.val < 1000000
  · rw [src_left x1 e h]; exact hr 0 ⟨e.val, h⟩
  · have h' : 1000000 ≤ e.val := Nat.le_of_not_lt h
    have hlt : e.val - 1000000 < 50000 := by have := e.isLt; omega
    rw [src_right x1 e h', toNat_ofNat_of_lt _ hlt]; exact hlt

/-- Every destination is a word below 50000. -/
theorem dst_lt (x1 : (⟨S2x1000000, .i32⟩ : BufTy).Contents (Elt Ideal))
    (hr : ∀ (r : Fin 2) (e : Fin 1000000), (x1 (ix2 r e)).toNat < 50000) (e : Fin 1050000) :
    (ReadP.val_main_v7 (F := Ideal) x1 (ix1 e)).toNat < 50000 := by
  by_cases h : e.val < 1000000
  · rw [dst_left x1 e h]; exact hr 1 ⟨e.val, h⟩
  · have h' : 1000000 ≤ e.val := Nat.le_of_not_lt h
    have hlt : e.val - 1000000 < 50000 := by have := e.isLt; omega
    rw [dst_right x1 e h', toNat_ofNat_of_lt _ hlt]; exact hlt

/-- A source is not negative read signed, so the index wrap keeps it. -/
theorem wrapped_eq (x1 : (⟨S2x1000000, .i32⟩ : BufTy).Contents (Elt Ideal))
    (hr : ∀ (r : Fin 2) (e : Fin 1000000), (x1 (ix2 r e)).toNat < 50000) (e : Fin 1050000) :
    ReadP.val_main_v35 (F := Ideal) x1 (ix1 e) = ReadP.val_main_v6 (F := Ideal) x1 (ix1 e) := by
  rw [ReadP.val_main_v35_apply, ReadP.val_main_v32_apply, ReadP.val_main_v31_apply, ReadP.val_main_c_6_apply,
    cmpi_slt_zero_of_lt _ (src_lt x1 hr e), select_zero]

/-- The row a wrapped source names, clamped into the table, is the source's value. -/
theorem row_eq (x1 : (⟨S2x1000000, .i32⟩ : BufTy).Contents (Elt Ideal))
    (hr : ∀ (r : Fin 2) (e : Fin 1000000), (x1 (ix2 r e)).toNat < 50000) (e : Fin 1050000) :
    min (ReadP.val_main_v35 (F := Ideal) x1 (ix1 e)).toInt.toNat 49999 = (ReadP.val_main_v6 (F := Ideal) x1 (ix1 e)).toNat := by
  have hlt := src_lt x1 hr e
  rw [wrapped_eq x1 hr e, toInt_of_lt _ hlt, Int.toNat_natCast]
  omega

/-- A destination read signed is the number `n` exactly when its value is `n`. -/
theorem dst_toInt (x1 : (⟨S2x1000000, .i32⟩ : BufTy).Contents (Elt Ideal))
    (hr : ∀ (r : Fin 2) (e : Fin 1000000), (x1 (ix2 r e)).toNat < 50000) (e : Fin 1050000) (n : Fin 50000) :
    (ReadP.val_main_v7 (F := Ideal) x1 (ix1 e)).toInt = (n.val : ℤ) ↔ (ReadP.val_main_v7 (F := Ideal) x1 (ix1 e)).toNat = n.val := by
  rw [toInt_of_lt _ (dst_lt x1 hr e)]
  exact Int.ofNat_inj

/-! ## The second layer's copies are the same functions -/

theorem v49_eq (x1 : (⟨S2x1000000, .i32⟩ : BufTy).Contents (Elt Ideal)) :
    ReadP.val_main_v49 (F := Ideal) x1 = ReadP.val_main_v1 (F := Ideal) x1 := rfl
theorem v50_eq (x1 : (⟨S2x1000000, .i32⟩ : BufTy).Contents (Elt Ideal)) :
    ReadP.val_main_v50 (F := Ideal) x1 = ReadP.val_main_v2 (F := Ideal) x1 := rfl
theorem v51_eq (x1 : (⟨S2x1000000, .i32⟩ : BufTy).Contents (Elt Ideal)) :
    ReadP.val_main_v51 (F := Ideal) x1 = ReadP.val_main_v3 (F := Ideal) x1 := rfl
theorem v52_eq (x1 : (⟨S2x1000000, .i32⟩ : BufTy).Contents (Elt Ideal)) :
    ReadP.val_main_v52 (F := Ideal) x1 = ReadP.val_main_v4 (F := Ideal) x1 := rfl
theorem v53_eq : ReadP.val_main_v53 (F := Ideal) = ReadP.val_main_v5 (F := Ideal) := rfl

/-- The second layer's source list is the first layer's. -/
theorem v54_eq (x1 : (⟨S2x1000000, .i32⟩ : BufTy).Contents (Elt Ideal)) :
    ReadP.val_main_v54 (F := Ideal) x1 = ReadP.val_main_v6 (F := Ideal) x1 := by
  unfold ReadP.val_main_v54 ReadP.val_main_v6
  rw [v50_eq, v53_eq]

/-- The second layer's destination list is the first layer's. -/
theorem v55_eq (x1 : (⟨S2x1000000, .i32⟩ : BufTy).Contents (Elt Ideal)) :
    ReadP.val_main_v55 (F := Ideal) x1 = ReadP.val_main_v7 (F := Ideal) x1 := by
  unfold ReadP.val_main_v55 ReadP.val_main_v7
  rw [v52_eq, v53_eq]

/-- The second layer's wrapped source list is the first layer's. -/
theorem v83_eq (x1 : (⟨S2x1000000, .i32⟩ : BufTy).Contents (Elt Ideal)) :
    ReadP.val_main_v83 (F := Ideal) x1 = ReadP.val_main_v35 (F := Ideal) x1 := by
  unfold ReadP.val_main_v83 ReadP.val_main_v35 ReadP.val_main_v80 ReadP.val_main_v32 ReadP.val_main_v82 ReadP.val_main_v34
  rw [v54_eq]
  rfl

/-- The second layer's inverse-square-root degree table is the first layer's. -/
theorem v63_eq (x1 : (⟨S2x1000000, .i32⟩ : BufTy).Contents (Elt Ideal)) :
    ReadP.val_main_v63 (F := Ideal) x1 = ReadP.val_main_v15 (F := Ideal) x1 := by
  unfold ReadP.val_main_v63 ReadP.val_main_v15 ReadP.val_main_v61 ReadP.val_main_v13 ReadP.val_main_v62 ReadP.val_main_v14
    ReadP.val_main_v59 ReadP.val_main_v11 ReadP.val_main_v58 ReadP.val_main_v10
  rw [v55_eq]
  rfl

/-- The second layer's wrapped source list for the degree table is the first layer's. -/
theorem v68_eq (x1 : (⟨S2x1000000, .i32⟩ : BufTy).Contents (Elt Ideal)) :
    ReadP.val_main_v68 (F := Ideal) x1 = ReadP.val_main_v20 (F := Ideal) x1 := by
  unfold ReadP.val_main_v68 ReadP.val_main_v20 ReadP.val_main_v65 ReadP.val_main_v17 ReadP.val_main_v67 ReadP.val_main_v19
  rw [v54_eq]
  rfl

/-- The second layer's wrapped destination list for the degree table is the first layer's. -/
theorem v75_eq (x1 : (⟨S2x1000000, .i32⟩ : BufTy).Contents (Elt Ideal)) :
    ReadP.val_main_v75 (F := Ideal) x1 = ReadP.val_main_v27 (F := Ideal) x1 := by
  unfold ReadP.val_main_v75 ReadP.val_main_v27 ReadP.val_main_v72 ReadP.val_main_v24 ReadP.val_main_v74 ReadP.val_main_v26
  rw [v55_eq]
  rfl

/-- The second layer's edge weights are the first layer's. -/
theorem v78_eq (x1 : (⟨S2x1000000, .i32⟩ : BufTy).Contents (Elt Ideal)) :
    ReadP.val_main_v78 (F := Ideal) x1 = ReadP.val_main_v30 (F := Ideal) x1 := by
  unfold ReadP.val_main_v78 ReadP.val_main_v30 ReadP.val_main_v70 ReadP.val_main_v22 ReadP.val_main_v77 ReadP.val_main_v29
    ReadP.val_main_v69 ReadP.val_main_v21 ReadP.val_main_v76 ReadP.val_main_v28
  rw [v63_eq, v68_eq, v75_eq]

end Cert.ReferenceIdeal.EdgeFacts

end
-- ==== Proof.RefValue.lean ====
/-
  What the reference computes, index by index.
-/
import proofs.«429772_j53867479827167_3_alg».proof.Proof.RefRun
import proofs.«429772_j53867479827167_3_alg».proof.Proof.RefRead
import proofs.«429772_j53867479827167_3_alg».proof.Proof.LibRowGatherScatter
import proofs.«429772_j53867479827167_3_alg».proof.Proof.Spec
import proofs.«429772_j53867479827167_3_alg».proof.Proof.EdgeFacts

noncomputable section

namespace Cert.ReferenceIdeal.RefValue

open Cert.ReferenceIdeal Cert.ReferenceIdeal.Gen Cert.GcnSpec Idealize.ShloMosaic Idealize.ShloMosaic.ValueIdx
open scoped BigOperators

/-- The contents of the edge-index argument: two rows of a million machine integers. -/
abbrev EdgeIx : Type := (⟨S2x1000000, .i32⟩ : BufTy).Contents (Elt Ideal)

/-! ## The edge list, as the reference reads it -/

/-- Sources, with the self-loops appended. -/
def srcE (x1 : EdgeIx) (e : Fin 1050000) : BitVec 32 := ReadP.val_main_v6 (F := Ideal) x1 (ix1 e)
/-- Destinations, with the self-loops appended. -/
def dstE (x1 : EdgeIx) (e : Fin 1050000) : BitVec 32 := ReadP.val_main_v7 (F := Ideal) x1 (ix1 e)
/-- The edge's weight. -/
def nrmE (x1 : EdgeIx) (e : Fin 1050000) : EReal := ReadP.val_main_v30 (F := Ideal) x1 (ix1 e)
/-- The row the gather reads for edge e: the source wrapped (a negative one moved up by the number of rows), read
    signed, clamped into the table. -/
def srcRow (x1 : EdgeIx) (e : Fin 1050000) : Fin 50000 :=
  ⟨min (BitVec.toInt (ReadP.val_main_v35 (F := Ideal) x1 (ix1 e))).toNat 49999, by omega⟩

/-- The first layer at node n, entry k. -/
def refL1 (x0 : Vec Ideal S50000x64 .f32) (x1 : EdgeIx) (w1 : Vec Ideal S64x64 .f32) (b1 : Vec Ideal S64 .f32)
    (n : Fin 50000) (k : Fin 64) : EReal :=
  max ((0 + ∑ e ∈ Finset.univ.filter (fun e : Fin 1050000 => (dstE x1 e).toInt = (n.val : ℤ)),
      lin (fun r j => x0 (ix2 r j)) (fun j k => w1 (ix2 j k)) (srcRow x1 e) k * nrmE x1 e) + b1 (ix1 k)) 0

/-- The second layer at node n, entry f: the result. -/
def refOut (x0 : Vec Ideal S50000x64 .f32) (x1 : EdgeIx) (w1 : Vec Ideal S64x64 .f32) (b1 : Vec Ideal S64 .f32)
    (w2 : Vec Ideal S64x32 .f32) (b2 : Vec Ideal S32 .f32) (n : Fin 50000) (f : Fin 32) : EReal :=
  (0 + ∑ e ∈ Finset.univ.filter (fun e : Fin 1050000 => (dstE x1 e).toInt = (n.val : ℤ)),
      lin (refL1 x0 x1 w1 b1) (fun k f => w2 (ix2 k f)) (srcRow x1 e) f * nrmE x1 e) + b2 (ix1 f)

/-! ## The printed dimension numbers are the row gather's and the row scatter's -/

theorem gatherRec64 : gather_S50000x64_S1050000x1_S1050000x64_1_0_n_n_0_1_164
    = Cert.Gcn.rowGatherDims 50000 1050000 64 Gen.gather_S50000x64_S1050000x1_S1050000x64_1_0_n_n_0_1_164_wf := rfl
theorem gatherRec32 : gather_S50000x32_S1050000x1_S1050000x32_1_0_n_n_0_1_132
    = Cert.Gcn.rowGatherDims 50000 1050000 32 Gen.gather_S50000x32_S1050000x1_S1050000x32_1_0_n_n_0_1_132_wf := rfl
theorem scatterRec64 : scatter_S50000x64_S1050000x1_S1050000x64_1_0_0_1
    = Cert.Gcn.rowScatterDims 50000 1050000 64 Gen.scatter_S50000x64_S1050000x1_S1050000x64_1_0_0_1_wf := rfl
theorem scatterRec32 : scatter_S50000x32_S1050000x1_S1050000x32_1_0_0_1
    = Cert.Gcn.rowScatterDims 50000 1050000 32 Gen.scatter_S50000x32_S1050000x1_S1050000x32_1_0_0_1_wf := rfl

/-! ## A sum over the edges into one node, compared term by term -/

theorem sum_into_congr {E : Nat} (p q : Fin E → Prop) [DecidablePred p] [DecidablePred q] (g h : Fin E → EReal)
    (hp : ∀ e, p e ↔ q e) (hg : ∀ e, g e = h e) :
    ∑ e ∈ Finset.univ.filter p, g e = ∑ e ∈ Finset.univ.filter q, h e := by
  rw [Finset.filter_congr (fun e _ => hp e)]
  exact Finset.sum_congr rfl fun e _ => hg e

/-! ## Layer one, stage by stage -/

section
variable (x0 : Vec Ideal S50000x64 .f32) (x1 : EdgeIx) (w1 : Vec Ideal S64x64 .f32) (b1 : Vec Ideal S64 .f32)
  (w2 : Vec Ideal S64x32 .f32) (b2 : Vec Ideal S32 .f32)

/-- The dense layer of the input: row r against column k of the weights. -/
theorem v0_at (r : Fin 50000) (k : Fin 64) :
    ReadP.val_main_v0 (F := Ideal) x0 w1 (ix2 r k) = lin (fun r j => x0 (ix2 r j)) (fun j k => w1 (ix2 j k)) r k := by
  rw [ReadP.val_main_v0_apply]
  unfold lin
  refine Finset.sum_congr rfl fun j _ => ?_
  have el : ReadP.lidx_main_v0 (ix2 r k) j = ix2 r j :=
    funext fun a => Fin.ext (by match a with | ⟨0, _⟩ => rfl | ⟨1, _⟩ => rfl)
  have er : ReadP.ridx_main_v0 (ix2 r k) j = ix2 j k :=
    funext fun a => Fin.ext (by match a with | ⟨0, _⟩ => rfl | ⟨1, _⟩ => rfl)
  rw [el, er]

/-- The column of wrapped sources at edge e. -/
theorem v36_at (e : Fin 1050000) :
    ReadP.val_main_v36 (F := Ideal) x1 (ix2 e (0 : Fin 1)) = ReadP.val_main_v35 (F := Ideal) x1 (ix1 e) := by
  rw [ReadP.val_main_v36_apply]
  refine congrArg (ReadP.val_main_v35 (F := Ideal) x1) (funext fun a => Fin.ext ?_)
  match a with
  | ⟨0, _⟩ => rfl

/-- The gathered row of edge e is row srcRow e of the dense layer. -/
theorem v37_at (e : Fin 1050000) (k : Fin 64) :
    ReadP.val_main_v37 (F := Ideal) x0 x1 w1 (ix2 e k) = ReadP.val_main_v0 (F := Ideal) x0 w1 (ix2 (srcRow x1 e) k) := by
  unfold ReadP.val_main_v37
  rw [gatherRec64, Cert.Gcn.gather_rows_apply (by decide)]
  refine congrArg (fun r => ReadP.val_main_v0 (F := Ideal) x0 w1 (ix2 r k)) (Fin.ext ?_)
  show min (BitVec.toInt (ReadP.val_main_v36 (F := Ideal) x1 (ix2 e (0 : Fin 1)))).toNat (50000 - 1)
    = min (BitVec.toInt (ReadP.val_main_v35 (F := Ideal) x1 (ix1 e))).toNat 49999
  rw [v36_at]

/-- The weight column, spread over the entries, at edge e. -/
theorem v39_at (e : Fin 1050000) (k : Fin 64) :
    ReadP.val_main_v39 (F := Ideal) x1 (ix2 e k) = nrmE x1 e := by
  rw [ReadP.val_main_v39_apply, ReadP.val_main_v38_apply]
  unfold nrmE
  refine congrArg (ReadP.val_main_v30 (F := Ideal) x1) (funext fun a => Fin.ext ?_)
  match a with
  | ⟨0, _⟩ => rfl

/-- The message of edge e. -/
theorem v40_at (e : Fin 1050000) (k : Fin 64) :
    ReadP.val_main_v40 (F := Ideal) x0 x1 w1 (ix2 e k)
      = lin (fun r j => x0 (ix2 r j)) (fun j k => w1 (ix2 j k)) (srcRow x1 e) k * nrmE x1 e := by
  rw [ReadP.val_main_v40_apply, Ideal.mulf_def, v37_at, v39_at, v0_at]

/-- The zero table. -/
theorem v41_at (n : Fin 50000) (k : Fin 64) : ReadP.val_main_v41 (F := Ideal) (ix2 n k) = 0 := by
  rw [ReadP.val_main_v41_apply, ReadP.val_main_cst_8_apply, Ideal.ofBits_def]
  exact Ideal.ofBits_zero_f32

/-- The column of destinations at edge e. -/
theorem v42_at (e : Fin 1050000) :
    ReadP.val_main_v42 (F := Ideal) x1 (ix2 e (0 : Fin 1)) = dstE x1 e := by
  rw [ReadP.val_main_v42_apply]
  unfold dstE
  refine congrArg (ReadP.val_main_v7 (F := Ideal) x1) (funext fun a => Fin.ext ?_)
  match a with
  | ⟨0, _⟩ => rfl

/-- The accumulating scatter at the ideal values, read at an index: the exact sum. -/
theorem hostScatterAdd_at {s si su : Shape} {w : Nat} (d : ScatterDims s si su) (x : FVec Ideal s .f32)
    (idx : IVec si w) (upd : FVec Ideal su .f32) (i : s.Idx) :
    Host.scatterAdd (F := Ideal) d x idx upd i = Ideal.hostScatterAdd d x idx upd i := rfl

/-- The messages summed into node n. -/
theorem v43_at (n : Fin 50000) (k : Fin 64) :
    ReadP.val_main_v43 (F := Ideal) x0 x1 w1 (ix2 n k)
      = 0 + ∑ e ∈ Finset.univ.filter (fun e : Fin 1050000 => (dstE x1 e).toInt = (n.val : ℤ)),
          lin (fun r j => x0 (ix2 r j)) (fun j k => w1 (ix2 j k)) (srcRow x1 e) k * nrmE x1 e := by
  unfold ReadP.val_main_v43
  rewrite [hostScatterAdd_at, scatterRec64, Cert.Gcn.scatterAdd_rows_apply, v41_at]
  refine congrArg (fun s => (0 : EReal) + s) (sum_into_congr _ _ _ _ (fun e => ?_) (fun e => ?_))
  · rw [v42_at]
  · exact v40_at x0 x1 w1 e k
/-- The bias, spread over the nodes. -/
theorem v45_at (n : Fin 50000) (k : Fin 64) : ReadP.val_main_v45 (F := Ideal) b1 (ix2 n k) = b1 (ix1 k) := by
  rw [ReadP.val_main_v45_apply, ReadP.val_main_v44_apply]
  refine congrArg b1 (funext fun a => Fin.ext ?_)
  match a with
  | ⟨0, _⟩ => rfl

/-- The zero table the positive part is taken against. -/
theorem call1_v0_at (n : Fin 50000) (k : Fin 64) : ReadP.val_main_call1_v0 (F := Ideal) (ix2 n k) = 0 := by
  rw [ReadP.val_main_call1_v0_apply, ReadP.val_main_call1_cst_apply, Ideal.ofBits_def]
  exact Ideal.ofBits_zero_f32

/-- The first layer's output. -/
theorem v47_at (n : Fin 50000) (k : Fin 64) :
    ReadP.val_main_v47 (F := Ideal) x0 x1 w1 b1 (ix2 n k) = refL1 x0 x1 w1 b1 n k := by
  unfold refL1
  rw [ReadP.val_main_v47_apply, ReadP.val_main_v46_apply, Ideal.maximumf_def, Ideal.addf_def, v43_at, v45_at,
    call1_v0_at]

/-! ## Layer two, stage by stage -/

/-- The dense layer of the first layer's output. -/
theorem v48_at (n : Fin 50000) (f : Fin 32) :
    ReadP.val_main_v48 (F := Ideal) x0 x1 w1 b1 w2 (ix2 n f)
      = lin (refL1 x0 x1 w1 b1) (fun k f => w2 (ix2 k f)) n f := by
  rw [ReadP.val_main_v48_apply]
  unfold lin
  refine Finset.sum_congr rfl fun j _ => ?_
  have el : ReadP.lidx_main_v48 (ix2 n f) j = ix2 n j :=
    funext fun a => Fin.ext (by match a with | ⟨0, _⟩ => rfl | ⟨1, _⟩ => rfl)
  have er : ReadP.ridx_main_v48 (ix2 n f) j = ix2 j f :=
    funext fun a => Fin.ext (by match a with | ⟨0, _⟩ => rfl | ⟨1, _⟩ => rfl)
  rw [el, er, v47_at]

/-- The column of wrapped sources at edge e, second layer: the first layer's. -/
theorem v84_at (e : Fin 1050000) :
    ReadP.val_main_v84 (F := Ideal) x1 (ix2 e (0 : Fin 1)) = ReadP.val_main_v35 (F := Ideal) x1 (ix1 e) := by
  rw [ReadP.val_main_v84_apply, EdgeFacts.v83_eq]
  refine congrArg (ReadP.val_main_v35 (F := Ideal) x1) (funext fun a => Fin.ext ?_)
  match a with
  | ⟨0, _⟩ => rfl

/-- The gathered row of edge e, second layer. -/
theorem v85_at (e : Fin 1050000) (f : Fin 32) :
    ReadP.val_main_v85 (F := Ideal) x0 x1 w1 b1 w2 (ix2 e f)
      = ReadP.val_main_v48 (F := Ideal) x0 x1 w1 b1 w2 (ix2 (srcRow x1 e) f) := by
  unfold ReadP.val_main_v85
  rw [gatherRec32, Cert.Gcn.gather_rows_apply (by decide)]
  refine congrArg (fun r => ReadP.val_main_v48 (F := Ideal) x0 x1 w1 b1 w2 (ix2 r f)) (Fin.ext ?_)
  show min (BitVec.toInt (ReadP.val_main_v84 (F := Ideal) x1 (ix2 e (0 : Fin 1)))).toNat (50000 - 1)
    = min (BitVec.toInt (ReadP.val_main_v35 (F := Ideal) x1 (ix1 e))).toNat 49999
  rw [v84_at]

/-- The weight column, spread over the entries, at edge e, second layer: the first layer's weight. -/
theorem v87_at (e : Fin 1050000) (f : Fin 32) :
    ReadP.val_main_v87 (F := Ideal) x1 (ix2 e f) = nrmE x1 e := by
  rw [ReadP.val_main_v87_apply, ReadP.val_main_v86_apply, EdgeFacts.v78_eq]
  unfold nrmE
  refine congrArg (ReadP.val_main_v30 (F := Ideal) x1) (funext fun a => Fin.ext ?_)
  match a with
  | ⟨0, _⟩ => rfl

/-- The message of edge e, second layer. -/
theorem v88_at (e : Fin 1050000) (f : Fin 32) :
    ReadP.val_main_v88 (F := Ideal) x0 x1 w1 b1 w2 (ix2 e f)
      = lin (refL1 x0 x1 w1 b1) (fun k f => w2 (ix2 k f)) (srcRow x1 e) f * nrmE x1 e := by
  rw [ReadP.val_main_v88_apply, Ideal.mulf_def, v85_at, v87_at, v48_at]

/-- The zero table, second layer. -/
theorem v89_at (n : Fin 50000) (f : Fin 32) : ReadP.val_main_v89 (F := Ideal) (ix2 n f) = 0 := by
  rw [ReadP.val_main_v89_apply, ReadP.val_main_cst_19_apply, Ideal.ofBits_def]
  exact Ideal.ofBits_zero_f32

/-- The column of destinations at edge e, second layer: the first layer's. -/
theorem v90_at (e : Fin 1050000) :
    ReadP.val_main_v90 (F := Ideal) x1 (ix2 e (0 : Fin 1)) = dstE x1 e := by
  rw [ReadP.val_main_v90_apply, EdgeFacts.v55_eq]
  unfold dstE
  refine congrArg (ReadP.val_main_v7 (F := Ideal) x1) (funext fun a => Fin.ext ?_)
  match a with
  | ⟨0, _⟩ => rfl

/-- The messages summed into node n, second layer. -/
theorem v91_at (n : Fin 50000) (f : Fin 32) :
    ReadP.val_main_v91 (F := Ideal) x0 x1 w1 b1 w2 (ix2 n f)
      = 0 + ∑ e ∈ Finset.univ.filter (fun e : Fin 1050000 => (dstE x1 e).toInt = (n.val : ℤ)),
          lin (refL1 x0 x1 w1 b1) (fun k f => w2 (ix2 k f)) (srcRow x1 e) f * nrmE x1 e := by
  unfold ReadP.val_main_v91
  rewrite [hostScatterAdd_at, scatterRec32, Cert.Gcn.scatterAdd_rows_apply, v89_at]
  refine congrArg (fun s => (0 : EReal) + s) (sum_into_congr _ _ _ _ (fun e => ?_) (fun e => ?_))
  · rw [v90_at]
  · exact v88_at x0 x1 w1 b1 w2 e f

/-- The bias, spread over the nodes, second layer. -/
theorem v93_at (n : Fin 50000) (f : Fin 32) : ReadP.val_main_v93 (F := Ideal) b2 (ix2 n f) = b2 (ix1 f) := by
  rw [ReadP.val_main_v93_apply, ReadP.val_main_v92_apply]
  refine congrArg b2 (funext fun a => Fin.ext ?_)
  match a with
  | ⟨0, _⟩ => rfl

/-- THE LAST STAGE AT (n, f): the second layer over the first. -/
theorem v94_at (n : Fin 50000) (f : Fin 32) :
    ReadP.val_main_v94 (F := Ideal) x0 x1 w1 b1 w2 b2 (ix2 n f) = refOut x0 x1 w1 b1 w2 b2 n f := by
  unfold refOut
  rw [ReadP.val_main_v94_apply, Ideal.addf_def, v91_at, v93_at]

end

/-! ## The result of the run, at an index -/

/-- THE REFERENCE'S RESULT AT (n, f): the two layers over the arguments' contents. -/
theorem ref_value (m : (ℓ : Loc nD τ sig) → Buf (Elt Ideal) ℓ) (c : Dev nD) (n : Fin 50000) (f : Fin 32) :
    (ValueP.res_out0 (F := Ideal) m c : Vec Ideal S50000x32 .f32) (ix2 n f)
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) n f := by
  show ValueP.res_main_v94 (F := Ideal) m c (ix2 n f) = _
  rw [ReadP.val_main_v94_eq]
  exact v94_at _ _ _ _ _ _ n f

end Cert.ReferenceIdeal.RefValue

end
-- ==== Proof.KRows.lean ====
/-
  The kernel program's host stretches, read at an index, and identified with the reference's stages.

  The padded edge rows: an edge list of 1050000 entries followed by 112 zeros, reshaped to a 1 × 1050112 row, read
  at a position `k`, is the list's entry for `k < 1050000` and zero from there on. The padded node features: the
  50000 rows followed by 176 zero rows, read at a row below 50000, are the features' row. The kernel program builds
  its edge lists and weights by the same operations as the reference, so its source list, destination list and
  weights are the reference's stages, as functions of the edge index, for any float family.
-/
import proofs.«429772_j53867479827167_3_alg».proof.Proof.KHost
import proofs.«429772_j53867479827167_3_alg».proof.Proof.RefRead
import proofs.«429772_j53867479827167_3_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Rows

open Cert.KernelIdeal Cert.KernelIdeal.Glue Cert.GcnSpec Idealize.ShloMosaic Idealize.ShloMosaic.ValueIdx

/-! ## A padded row at a position -/

section PaddedRow
variable {α : Type}

/-- A list of 1050112 entries reshaped to a 1 × 1050112 row, at `(0, k)`, is the list at `k`. -/
theorem castRow_apply (c : S1050112.Idx → α) (k : Fin 1050112) :
    shapeCast S1x1050112 c Gen.shapeCasts_S1050112_S1x1050112 (ix2 (0 : Fin 1) k) = c (ix1 k) :=
  shapeCast_apply c Gen.shapeCasts_S1050112_S1x1050112 (ix2 (0 : Fin 1) k) (ix1 k) (by
    rw [Shape.rowMajor_val_one, Shape.rowMajor_val_two]
    show k.val = 0 * 1050112 + k.val
    omega)

/-- A list of 1050000 entries followed by 112 more, below position 1050000, is the list. -/
theorem padded_left (v : S1050000.Idx → α) (p : S112.Idx → α) (k : Fin 1050112) (h : k.val < 1050000) :
    concatenate S1050112 0 [⟨S1050000, v⟩, ⟨S112, p⟩] Gen.concatenates_S1050000_S112_S1050112_d0 (ix1 k)
      = v (ix1 ⟨k.val, h⟩) :=
  concatenate_pair_apply_left (0 : Fin S1050112.rank) v p Gen.concatenates_S1050000_S112_S1050112_d0 (ix1 k) rfl
    (ix1 (⟨k.val, h⟩ : Fin 1050000)) (fun b => match b with | ⟨0, _⟩ => rfl)

/-- A list of 1050000 entries followed by 112 more, from position 1050000 on, is the appended part. -/
theorem padded_right (v : S1050000.Idx → α) (p : S112.Idx → α) (k : Fin 1050112) (h : 1050000 ≤ k.val) :
    concatenate S1050112 0 [⟨S1050000, v⟩, ⟨S112, p⟩] Gen.concatenates_S1050000_S112_S1050112_d0 (ix1 k)
      = p (ix1 ⟨k.val - 1050000, by have := k.isLt; omega⟩) :=
  concatenate_pair_apply_right (0 : Fin S1050112.rank) v p Gen.concatenates_S1050000_S112_S1050112_d0 (ix1 k) rfl rfl
    (ix1 (⟨k.val - 1050000, by have := k.isLt; omega⟩ : Fin 112))
    (fun b hb => absurd (Fin.ext (by have hb1 : b.val < 1 := b.isLt; show b.val = 0; omega)) hb)
    (by show k.val - 1050000 + 1050000 = k.val; omega)

/-- A scalar broadcast to 112 entries is the scalar at every entry. -/
theorem bcast112_apply (y : S_.Idx → α) (j : S112.Idx) :
    broadcastInDim S112 ![] Gen.bcast_S_S112 y j = y ix0 :=
  broadcastInDim_apply _ Gen.bcast_S_S112 y j ix0 (fun a => a.elim0)

end PaddedRow

/-- A padded row of words at a position below 1050000 is the list's entry. -/
theorem rowI_lt (v : (⟨S1050000, .i32⟩ : BufTy).Contents (Elt Ideal)) (k : ℕ) (h : k < 1050000) :
    rowAt (padRowI (F := Ideal) v) 0#32 k = v (ix1 ⟨k, h⟩) := by
  have hk : k < 1050112 := by omega
  unfold rowAt
  rw [dif_pos hk]
  unfold padRowI
  rw [castRow_apply _ ⟨k, hk⟩, padded_left _ _ ⟨k, hk⟩ h]

/-- A padded row of words at a position from 1050000 on is zero. -/
theorem rowI_pad (v : (⟨S1050000, .i32⟩ : BufTy).Contents (Elt Ideal)) (k : ℕ) (h : 1050000 ≤ k) :
    rowAt (padRowI (F := Ideal) v) 0#32 k = 0#32 := by
  unfold rowAt
  by_cases hk : k < 1050112
  · rw [dif_pos hk]
    unfold padRowI
    rw [castRow_apply _ ⟨k, hk⟩, padded_right _ _ ⟨k, hk⟩ h, bcast112_apply]
    rfl
  · rw [dif_neg hk]

/-- A padded row of weights at a position below 1050000 is the list's entry. -/
theorem rowF_lt (v : (⟨S1050000, .f32⟩ : BufTy).Contents (Elt Ideal)) (k : ℕ) (h : k < 1050000) :
    rowAt (padRowF (F := Ideal) v) (0 : EReal) k = v (ix1 ⟨k, h⟩) := by
  have hk : k < 1050112 := by omega
  unfold rowAt
  rw [dif_pos hk]
  unfold padRowF
  rw [castRow_apply _ ⟨k, hk⟩, padded_left _ _ ⟨k, hk⟩ h]

/-- A padded row of weights at a position from 1050000 on is zero. -/
theorem rowF_pad (v : (⟨S1050000, .f32⟩ : BufTy).Contents (Elt Ideal)) (k : ℕ) (h : 1050000 ≤ k) :
    rowAt (padRowF (F := Ideal) v) (0 : EReal) k = 0 := by
  unfold rowAt
  by_cases hk : k < 1050112
  · rw [dif_pos hk]
    unfold padRowF
    rw [castRow_apply _ ⟨k, hk⟩, padded_right _ _ ⟨k, hk⟩ h, bcast112_apply]
    exact Ideal.ofBits_zero_f32
  · rw [dif_neg hk]

/-- The padded node features at a row below 50000 are the features' row. -/
theorem xpad_lt (x0 : (⟨S50000x64, .f32⟩ : BufTy).Contents (Elt Ideal)) (r : Fin 50176) (h : r.val < 50000) (k : Fin 64) :
    xpad (F := Ideal) x0 (ix2 r k) = x0 (ix2 ⟨r.val, h⟩ k) := by
  unfold xpad
  exact pad_apply_of_inside ![0, 0] ![176, 0] ![0, 0] x0 _ Gen.pads_S50000x64_S50176x64_01760_000 Gen.h_S_ (ix2 r k)
    (ix2 (⟨r.val, h⟩ : Fin 50000) k) (fun a => match a with
      | ⟨0, _⟩ => by show r.val = 0 + r.val * (0 + 1); omega
      | ⟨1, _⟩ => by show k.val = 0 + k.val * (0 + 1); omega)

/-! ## The kernel program's lists and weights are the reference's stages -/

section Cross
variable {F : FTy → Type} [FloatOps F]

/-- The kernel program's source list is the reference's. -/
theorem srcFull_eq (x1 : (⟨S2x1000000, .i32⟩ : BufTy).Contents (Elt F)) :
    srcFull (F := F) x1 = Cert.ReferenceIdeal.ReadP.val_main_v6 (F := F) x1 := rfl

/-- The kernel program's destination list is the reference's. -/
theorem dstFull_eq (x1 : (⟨S2x1000000, .i32⟩ : BufTy).Contents (Elt F)) :
    dstFull (F := F) x1 = Cert.ReferenceIdeal.ReadP.val_main_v7 (F := F) x1 := rfl

/-- The wrapped source list is the reference's. -/
theorem wrapIdx_src_eq (x1 : (⟨S2x1000000, .i32⟩ : BufTy).Contents (Elt F)) :
    wrapIdx (F := F) (srcFull x1) = Cert.ReferenceIdeal.ReadP.val_main_v20 (F := F) x1 := rfl

/-- The wrapped destination list is the reference's. -/
theorem wrapIdx_dst_eq (x1 : (⟨S2x1000000, .i32⟩ : BufTy).Contents (Elt F)) :
    wrapIdx (F := F) (dstFull x1) = Cert.ReferenceIdeal.ReadP.val_main_v27 (F := F) x1 := rfl

/-- The degrees are the reference's. -/
theorem degOf_eq (x1 : (⟨S2x1000000, .i32⟩ : BufTy).Contents (Elt F)) :
    degOf (F := F) (dstFull x1) = Cert.ReferenceIdeal.ReadP.val_main_v11 (F := F) x1 := rfl

/-- The table of inverse square roots of degrees is the reference's. -/
theorem dinvOf_eq (x1 : (⟨S2x1000000, .i32⟩ : BufTy).Contents (Elt F)) :
    dinvOf (F := F) (dstFull x1) = Cert.ReferenceIdeal.ReadP.val_main_v15 (F := F) x1 := by
  unfold dinvOf Cert.ReferenceIdeal.ReadP.val_main_v15 Cert.ReferenceIdeal.ReadP.val_main_v13
    Cert.ReferenceIdeal.ReadP.val_main_v14
  rw [degOf_eq]
  rfl

/-- The edge weights are the reference's. -/
theorem norm_eq (x1 : (⟨S2x1000000, .i32⟩ : BufTy).Contents (Elt F)) :
    normOf (F := F) (srcFull x1) (dstFull x1) (dinvOf (F := F) (dstFull x1))
      = Cert.ReferenceIdeal.ReadP.val_main_v30 (F := F) x1 := by
  unfold normOf Cert.ReferenceIdeal.ReadP.val_main_v30 Cert.ReferenceIdeal.ReadP.val_main_v22
    Cert.ReferenceIdeal.ReadP.val_main_v29 Cert.ReferenceIdeal.ReadP.val_main_v21 Cert.ReferenceIdeal.ReadP.val_main_v28
  rw [wrapIdx_src_eq, wrapIdx_dst_eq, dinvOf_eq]
  rfl

end Cross

end Cert.KernelIdeal.Rows

end
-- ==== Proof.Bridge.lean ====
/-
  Why the kernel's way of adding up a graph-convolution layer gives the segment sum.

  * Comparing a word `s` below 50176 with every row number and summing the rows against the zero-or-one weights gives
    row `s`: all the other terms are zero times a value, which is zero on the extended reals, whatever the value.
  * Adding the 4102 blocks' shares one after another to zero gives the one sum over all 1050112 edges of the kernel's
    list; the 112 padding edges have weight zero and contribute nothing; and an edge contributes to row `n` exactly when
    its destination word is `n`, which for destinations below 50000 is the same as the destination read as a signed
    integer being `n`.
  Only commutativity and associativity of the sum, `0 * x = 0` and `x * 0 = 0` are used: no finiteness.
-/
import proofs.«429772_j53867479827167_3_alg».proof.Proof.Spec
import Mathlib.Data.EReal.Inv
import Mathlib.Algebra.BigOperators.Fin
import Mathlib.Tactic.IntervalCases
import Mathlib.Tactic.Ring
import Mathlib.Tactic.NormNum

noncomputable section

namespace Cert.GcnSpec

open scoped BigOperators

/-- Comparing a word with the word of a number below `2 ^ 32` is comparing the word's value with the number. -/
theorem ohw_ofNat (s : BitVec 32) (m : ℕ) (hm : m < 2 ^ 32) :
    ohw s (BitVec.ofNat 32 m) = if s.toNat = m then 1 else 0 := by
  unfold ohw
  have hiff : s = BitVec.ofNat 32 m ↔ s.toNat = m := by
    rw [← BitVec.toNat_inj, BitVec.toNat_ofNat, Nat.mod_eq_of_lt hm]
  by_cases h : s.toNat = m
  · rw [if_pos (hiff.mpr h), if_pos h]
  · rw [if_neg (fun h' => h (hiff.mp h')), if_neg h]

/-- The same with the sides exchanged. -/
theorem ohw_ofNat_left (m : ℕ) (hm : m < 2 ^ 32) (d : BitVec 32) :
    ohw (BitVec.ofNat 32 m) d = if d.toNat = m then 1 else 0 := by
  have hsymm : ohw (BitVec.ofNat 32 m) d = ohw d (BitVec.ofNat 32 m) := by
    unfold ohw
    by_cases h : BitVec.ofNat 32 m = d
    · rw [if_pos h, if_pos h.symm]
    · rw [if_neg h, if_neg (fun h' => h h'.symm)]
  rw [hsymm, ohw_ofNat d m hm]

/-- A chunk's share of the row a word below 50176 names: the row's entry if the row lies in the chunk, zero if not. -/
theorem chunkG_eq {C : Nat} (H : Fin 50176 → Fin C → EReal) (s : BitVec 32) (hs : s.toNat < 50176) (c : Fin 8)
    (f : Fin C) :
    chunkG H s c f = if s.toNat / 6272 = c.val then H ⟨s.toNat, hs⟩ f else 0 := by
  unfold chunkG
  have hc := c.isLt
  have hterm : ∀ j : Fin 6272,
      ohw s (BitVec.ofNat 32 (6272 * c.val + j.val)) * H ⟨6272 * c.val + j.val, by omega⟩ f
        = if s.toNat = 6272 * c.val + j.val then H ⟨s.toNat, hs⟩ f else 0 := by
    intro j
    have hj := j.isLt
    rw [ohw_ofNat s _ (by omega)]
    by_cases h : s.toNat = 6272 * c.val + j.val
    · rw [if_pos h, if_pos h, one_mul]
      congr 1
      exact Fin.ext h.symm
    · rw [if_neg h, if_neg h, zero_mul]
  rw [Finset.sum_congr rfl (fun j _ => hterm j)]
  by_cases hq : s.toNat / 6272 = c.val
  · rw [if_pos hq]
    have hlt : s.toNat % 6272 < 6272 := Nat.mod_lt _ (by norm_num)
    rw [Finset.sum_eq_single (⟨s.toNat % 6272, hlt⟩ : Fin 6272)]
    · rw [if_pos]
      show s.toNat = 6272 * c.val + s.toNat % 6272
      omega
    · intro j _ hne
      rw [if_neg]
      intro h
      apply hne
      apply Fin.ext
      show j.val = s.toNat % 6272
      omega
    · intro h
      exact absurd (Finset.mem_univ _) h
  · rw [if_neg hq]
    apply Finset.sum_eq_zero
    intro j _
    have hj := j.isLt
    rw [if_neg]
    omega

/-- A word below 50176 names its row: the one-hot sum over the eight chunks is that row's entry. -/
theorem gathK_eq {C : Nat} (H : Fin 50176 → Fin C → EReal) (s : BitVec 32) (hs : s.toNat < 50176) (f : Fin C) :
    gathK H s f = H ⟨s.toNat, hs⟩ f := by
  unfold gathK
  simp only [chunkG_eq H s hs]
  have h8 : s.toNat / 6272 < 8 := by omega
  have hv : ((0 : Fin 8).val = 0) ∧ ((1 : Fin 8).val = 1) ∧ ((2 : Fin 8).val = 2) ∧ ((3 : Fin 8).val = 3)
      ∧ ((4 : Fin 8).val = 4) ∧ ((5 : Fin 8).val = 5) ∧ ((6 : Fin 8).val = 6) ∧ ((7 : Fin 8).val = 7) :=
    ⟨rfl, rfl, rfl, rfl, rfl, rfl, rfl, rfl⟩
  obtain ⟨h0, h1, h2, h3, h4, h5, h6, h7⟩ := hv
  rw [h0, h1, h2, h3, h4, h5, h6, h7]
  generalize s.toNat / 6272 = q at h8
  interval_cases q <;> simp

/-- One edge's share of entry `f` of node row `n`. -/
def edgeT {C : Nat} (H : Fin 50176 → Fin C → EReal) (S D : ℕ → BitVec 32) (NM : ℕ → EReal) (n : Fin 50176)
    (f : Fin C) (k : ℕ) : EReal :=
  ohw (BitVec.ofNat 32 n.val) (D k) * (gathK H (S k) f * NM k)

/-- A block's share, as a sum over the numbers `0 … 255` rather than over the type of those numbers. -/
theorem blockS_eq_range {C : Nat} (H : Fin 50176 → Fin C → EReal) (S D : ℕ → BitVec 32) (NM : ℕ → EReal) (t : ℕ)
    (n : Fin 50176) (f : Fin C) :
    blockS H S D NM t n f = ∑ e ∈ Finset.range 256, edgeT H S D NM n f (256 * t + e) := by
  unfold blockS
  rw [Finset.sum_range (fun e => edgeT H S D NM n f (256 * t + e))]
  rfl

/-- The blocks `0 … t`, added one after another to zero, are zero plus the one sum over the first `256 * (t + 1)`
    edges. -/
theorem accK_eq_range {C : Nat} (H : Fin 50176 → Fin C → EReal) (S D : ℕ → BitVec 32) (NM : ℕ → EReal) (t : ℕ)
    (n : Fin 50176) (f : Fin C) :
    accK H S D NM t n f = 0 + ∑ k ∈ Finset.range (256 * (t + 1)), edgeT H S D NM n f k := by
  induction t with
  | zero =>
    show 0 + blockS H S D NM 0 n f = _
    rw [blockS_eq_range]
    simp only [Nat.mul_zero, Nat.zero_add, Nat.mul_one]
  | succ t ih =>
    show accK H S D NM t n f + blockS H S D NM (t + 1) n f = _
    rw [ih, blockS_eq_range, show 256 * (t + 1 + 1) = 256 * (t + 1) + 256 by ring, Finset.sum_range_add, add_assoc]

/-- THE LAYER'S SUM: after all 4102 blocks, row `n < 50000` holds zero plus the sum, over the real edges whose destination
    (read signed) is `n`, of the source row's entry times the edge's weight. -/
theorem accK_eq_segment_sum {C : Nat} (H : Fin 50176 → Fin C → EReal) (S D : ℕ → BitVec 32) (NM : ℕ → EReal)
    (h : Fin 50000 → Fin C → EReal) (src dst : Fin 1050000 → BitVec 32) (nm : Fin 1050000 → EReal)
    (hH : ∀ (r : Fin 50000) (f : Fin C), H ⟨r.val, by omega⟩ f = h r f)
    (hS : ∀ e : Fin 1050000, S e.val = src e) (hD : ∀ e : Fin 1050000, D e.val = dst e)
    (hNM : ∀ e : Fin 1050000, NM e.val = nm e)
    (hSpad : ∀ k, 1050000 ≤ k → k < 1050112 → S k = 0#32) (hDpad : ∀ k, 1050000 ≤ k → k < 1050112 → D k = 0#32)
    (hNMpad : ∀ k, 1050000 ≤ k → k < 1050112 → NM k = 0)
    (hsrc : ∀ e, (src e).toNat < 50000) (hdst : ∀ e, (dst e).toNat < 50000)
    (n : Fin 50000) (f : Fin C) :
    accK H S D NM 4101 ⟨n.val, by omega⟩ f
      = 0 + ∑ e ∈ Finset.univ.filter (fun e : Fin 1050000 => (dst e).toInt = (n.val : ℤ)),
          h ⟨(src e).toNat, hsrc e⟩ f * nm e := by
  rw [accK_eq_range, show 256 * (4101 + 1) = 1050000 + 112 by norm_num, Finset.sum_range_add]
  have hpad : ∑ x ∈ Finset.range 112, edgeT H S D NM ⟨n.val, by omega⟩ f (1050000 + x) = 0 := by
    apply Finset.sum_eq_zero
    intro x hx
    have hx' : x < 112 := Finset.mem_range.mp hx
    unfold edgeT
    rw [hNMpad (1050000 + x) (by omega) (by omega), mul_zero, mul_zero]
  rw [hpad]
  rw [add_zero]
  rw [Finset.sum_range (fun k => edgeT H S D NM ⟨n.val, by omega⟩ f k)]
  rw [Finset.sum_filter]
  refine congrArg (fun z : EReal => 0 + z) ?_
  refine Finset.sum_congr rfl ?_
  intro e _
  have hn := n.isLt
  have hd := hdst e
  have hs := hsrc e
  unfold edgeT
  rw [hD e, hS e, hNM e, ohw_ofNat_left n.val (by omega) (dst e), gathK_eq H (src e) (by omega) f,
    hH ⟨(src e).toNat, hs⟩ f]
  have hint : (dst e).toInt = ((dst e).toNat : ℤ) := BitVec.toInt_eq_toNat_of_lt (by omega)
  have hiff : (dst e).toInt = (n.val : ℤ) ↔ (dst e).toNat = n.val := by
    rw [hint]
    omega
  by_cases hq : (dst e).toNat = n.val
  · rw [if_pos hq, if_pos (hiff.mpr hq), one_mul]
  · rw [if_neg hq, if_neg (fun h' => hq (hiff.mp h')), zero_mul]

end Cert.GcnSpec

end
-- ==== Proof.Join.lean ====
/-
  The kernel program's function is the reference's, on edge indices in range.

  Both compute two graph-convolution layers. In each layer the kernel's 4102 blocks of one-hot products add up to the
  reference's segment sum (the general statement is proved over plain index types elsewhere); what is checked here is
  that the two programs feed that statement the same data: the kernel's padded edge rows are the reference's edge
  lists followed by zeros, the padded weights are the reference's weights followed by zeros, the padded features
  agree with the features on the first 50000 rows, every source and destination is a word below 50000 (so the
  reference's wrapped, clamped row is the source itself), and the first layer's results agree on the rows the second
  layer gathers.
-/
import proofs.«429772_j53867479827167_3_alg».proof.Proof.KValue
import proofs.«429772_j53867479827167_3_alg».proof.Proof.KRows
import proofs.«429772_j53867479827167_3_alg».proof.Proof.RefValue
import proofs.«429772_j53867479827167_3_alg».proof.Proof.EdgeFacts
import proofs.«429772_j53867479827167_3_alg».proof.Proof.Bridge

noncomputable section

namespace Cert.Join

open Cert.GcnSpec Cert.KernelIdeal.KValue Cert.KernelIdeal.Glue Cert.KernelIdeal.Rows
open Cert.ReferenceIdeal.RefValue Cert.ReferenceIdeal.EdgeFacts
open Idealize.ShloMosaic Idealize.ShloMosaic.ValueIdx
open scoped BigOperators

variable (x0 : Vec Ideal Cert.KernelIdeal.S50000x64 .f32) (x1 : Vec Ideal Cert.KernelIdeal.S2x1000000 .i32)
  (w1 : Vec Ideal Cert.KernelIdeal.S64x64 .f32) (b1 : Vec Ideal Cert.KernelIdeal.S64 .f32)
  (w2 : Vec Ideal Cert.KernelIdeal.S64x32 .f32) (b2 : Vec Ideal Cert.KernelIdeal.S32 .f32)

/-- The kernel's source list is the reference's on the real edges. -/
theorem srcK_eq (e : Fin 1050000) : srcK x1 e.val = srcE x1 e := by
  unfold srcK srcE
  rw [rowI_lt _ _ e.isLt, srcFull_eq]
/-- The kernel's destination list is the reference's on the real edges. -/
theorem dstK_eq (e : Fin 1050000) : dstK x1 e.val = dstE x1 e := by
  unfold dstK dstE
  rw [rowI_lt _ _ e.isLt, dstFull_eq]
/-- The kernel's weights are the reference's on the real edges. -/
theorem wgtK_eq (e : Fin 1050000) : wgtK x1 e.val = nrmE x1 e := by
  unfold wgtK nrmE
  rw [rowF_lt _ _ e.isLt, norm_eq]

theorem srcK_pad (k : ℕ) (h : 1050000 ≤ k) (_ : k < 1050112) : srcK x1 k = 0#32 := rowI_pad _ k h
theorem dstK_pad (k : ℕ) (h : 1050000 ≤ k) (_ : k < 1050112) : dstK x1 k = 0#32 := rowI_pad _ k h
theorem wgtK_pad (k : ℕ) (h : 1050000 ≤ k) (_ : k < 1050112) : wgtK x1 k = 0 := rowF_pad _ k h

variable (hr : ∀ (r : Fin 2) (e : Fin 1000000), (x1 (ix2 r e)).toNat < 50000)
include hr

theorem srcE_lt (e : Fin 1050000) : (srcE x1 e).toNat < 50000 := src_lt x1 hr e
theorem dstE_lt (e : Fin 1050000) : (dstE x1 e).toNat < 50000 := dst_lt x1 hr e

/-- The row the reference gathers — the source wrapped, read signed, clamped — is the source word itself. -/
theorem srcRow_eq (e : Fin 1050000) : (⟨(srcE x1 e).toNat, srcE_lt x1 hr e⟩ : Fin 50000) = srcRow x1 e :=
  Fin.ext (row_eq x1 hr e).symm

/-- THE FIRST LAYER: on the first 50000 rows the kernel's hidden features are the reference's. -/
theorem layer1 (r : Fin 50000) (k : Fin 64) :
    out1K x0 x1 w1 b1 ⟨r.val, by omega⟩ k = refL1 x0 x1 w1 b1 r k := by
  unfold out1K refL1
  rw [accK_eq_segment_sum (lin1K x0 w1) (srcK x1) (dstK x1) (wgtK x1)
    (fun r k => lin (fun r j => x0 (ix2 r j)) (fun j k => w1 (ix2 j k)) r k) (srcE x1) (dstE x1) (nrmE x1)
    (fun r k => by
      unfold lin1K lin
      exact Finset.sum_congr rfl fun j _ => by dsimp only; rw [xpad_lt x0 ⟨r.val, by omega⟩ r.isLt j])
    (srcK_eq x1) (dstK_eq x1) (wgtK_eq x1) (srcK_pad x1) (dstK_pad x1) (wgtK_pad x1)
    (srcE_lt x1 hr) (dstE_lt x1 hr) r k]
  have hsum : ∑ e ∈ Finset.univ.filter (fun e : Fin 1050000 => (dstE x1 e).toInt = (r.val : ℤ)),
        lin (fun r j => x0 (ix2 r j)) (fun j k => w1 (ix2 j k)) ⟨(srcE x1 e).toNat, srcE_lt x1 hr e⟩ k * nrmE x1 e
      = ∑ e ∈ Finset.univ.filter (fun e : Fin 1050000 => (dstE x1 e).toInt = (r.val : ℤ)),
        lin (fun r j => x0 (ix2 r j)) (fun j k => w1 (ix2 j k)) (srcRow x1 e) k * nrmE x1 e :=
    Finset.sum_congr rfl fun e _ => by rw [srcRow_eq x1 hr e]
  rw [hsum]

/-- THE PROGRAM: on edge indices in range the kernel program's function is the reference's. -/
theorem outK_eq_refOut (n : Fin 50000) (f : Fin 32) :
    outK x0 x1 w1 b1 w2 b2 ⟨n.val, by omega⟩ f = refOut x0 x1 w1 b1 w2 b2 n f := by
  unfold outK refOut
  rw [accK_eq_segment_sum (lin2K x0 x1 w1 b1 w2) (srcK x1) (dstK x1) (wgtK x1)
    (fun r f => lin (refL1 x0 x1 w1 b1) (fun k f => w2 (ix2 k f)) r f) (srcE x1) (dstE x1) (nrmE x1)
    (fun r f => by
      unfold lin2K lin
      exact Finset.sum_congr rfl fun k _ => by dsimp only; rw [layer1 x0 x1 w1 b1 hr r k])
    (srcK_eq x1) (dstK_eq x1) (wgtK_eq x1) (srcK_pad x1) (dstK_pad x1) (wgtK_pad x1)
    (srcE_lt x1 hr) (dstE_lt x1 hr) n f]
  have hsum : ∑ e ∈ Finset.univ.filter (fun e : Fin 1050000 => (dstE x1 e).toInt = (n.val : ℤ)),
        lin (refL1 x0 x1 w1 b1) (fun k f => w2 (ix2 k f)) ⟨(srcE x1 e).toNat, srcE_lt x1 hr e⟩ f * nrmE x1 e
      = ∑ e ∈ Finset.univ.filter (fun e : Fin 1050000 => (dstE x1 e).toInt = (n.val : ℤ)),
        lin (refL1 x0 x1 w1 b1) (fun k f => w2 (ix2 k f)) (srcRow x1 e) f * nrmE x1 e :=
    Finset.sum_congr rfl fun e _ => by rw [srcRow_eq x1 hr e]
  rw [hsum]

end Cert.Join

end
-- ==== Proof.PreDecode.lean ====
/-
  The precondition, decoded. The precondition is a conjunction of six reductions by `and` over whole
  arrays, required to be 1. The last reduces, over every entry w of the [2, 1000000] edge-index array, the bit
  (0 ≤ w signed) ∧ (w < 50000 signed). A conjunction of bits that is 1 has every conjunct 1; a reduction by `and`
  into one result that is 1 met a 1 at every entry; the two signed comparisons against the broadcast constants 0 and
  50000, read at one entry, are the two inequalities on the entry's signed value. Hence every edge index, read as a
  signed integer, lies in [0, 50000), and — a word whose signed value is non-negative reads the same unsigned — its
  unsigned value is below 50000. The five conjuncts about the floating-point arrays are not used.
-/
import proofs.«429772_j53867479827167_3_alg».proof.Proof.Gen.Pre_finite_inputs
import Idealize.ShloMosaic.Lib.ReduceAll
import Idealize.ShloMosaic.Lib.ValueIdx

noncomputable section

namespace Cert.PreDecode

open Idealize.ShloMosaic Idealize.ShloMosaic.ValueIdx
open Cert.Pre_finite_inputs

/-- The rank-0 shape has one index. -/
instance : Subsingleton S_.Idx := ⟨fun a b => funext fun d => d.elim0⟩

/-- A word that passes both signed comparisons, 0 ≤ w and w < 50000, has its signed value in [0, 50000). -/
theorem word_in_range (w : BitVec 32) (h0 : IntOp.cmpi .sge w (0#32) = 1#1) (h1 : IntOp.cmpi .slt w (50000#32) = 1#1) :
    0 ≤ w.toInt ∧ w.toInt < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  exact ⟨h0, h1⟩

/-- A word whose signed value is non-negative reads the same unsigned. -/
theorem toNat_of_toInt_nonneg (w : BitVec 32) (h0 : 0 ≤ w.toInt) : (w.toNat : Int) = w.toInt := by
  have hw := w.isLt
  unfold BitVec.toInt at h0 ⊢
  by_cases hlt : 2 * w.toNat < 2 ^ 32
  · rw [if_pos hlt]
  · rw [if_neg hlt] at h0
    omega

/-- THE PRECONDITION DECODED at one entry: every edge index, signed, lies in [0, 50000). -/
theorem edges_in_range [Cert.Pre_finite_inputs.Facts] {F : FTy → Type} [FloatOps F]
    (a0 : FVec F Cert.Pre_finite_inputs.S50000x64 .f32) (ei : IVec Cert.Pre_finite_inputs.S2x1000000 32)
    (a2 : FVec F Cert.Pre_finite_inputs.S64x64 .f32) (a3 : FVec F Cert.Pre_finite_inputs.S64 .f32)
    (a4 : FVec F Cert.Pre_finite_inputs.S64x32 .f32) (a5 : FVec F Cert.Pre_finite_inputs.S32 .f32)
    (h : Cert.Pre_finite_inputs.fn (F := F) a0 ei a2 a3 a4 a5 = fun _ => 1#1) (r : Fin 2) (e : Fin 1000000) :
    0 ≤ (ei (Idealize.ShloMosaic.ValueIdx.ix2 r e)).toInt ∧ (ei (Idealize.ShloMosaic.ValueIdx.ix2 r e)).toInt < 50000 := by
  have h0 := congrFun h ValueIdx.ix0
  dsimp only [Cert.Pre_finite_inputs.fn, Cert.Pre_finite_inputs.fn_part1] at h0
  -- the last conjunct: the reduction over the edge-index array
  have hall := (IntOp.andi_eq_one.1 h0).2
  -- every entry of the reduced array is 1
  have hent := Host.reduce_andi_all _ _ _ _ _ hall (ix2 r e)
  -- the entry is the conjunction of the two comparisons
  obtain ⟨hge, hlt⟩ := IntOp.andi_eq_one.1 hent
  exact word_in_range (ei (ix2 r e)) hge hlt

/-- Every edge index, unsigned, is below 50000. -/
theorem edges_toNat_lt [Cert.Pre_finite_inputs.Facts] {F : FTy → Type} [FloatOps F]
    (a0 : FVec F Cert.Pre_finite_inputs.S50000x64 .f32) (ei : IVec Cert.Pre_finite_inputs.S2x1000000 32)
    (a2 : FVec F Cert.Pre_finite_inputs.S64x64 .f32) (a3 : FVec F Cert.Pre_finite_inputs.S64 .f32)
    (a4 : FVec F Cert.Pre_finite_inputs.S64x32 .f32) (a5 : FVec F Cert.Pre_finite_inputs.S32 .f32)
    (h : Cert.Pre_finite_inputs.fn (F := F) a0 ei a2 a3 a4 a5 = fun _ => 1#1) (r : Fin 2) (e : Fin 1000000) :
    (ei (Idealize.ShloMosaic.ValueIdx.ix2 r e)).toNat < 50000 := by
  obtain ⟨h0, h1⟩ := edges_in_range a0 ei a2 a3 a4 a5 h r e
  have hn := toNat_of_toInt_nonneg _ h0
  omega

end Cert.PreDecode

end
-- ==== Proof.lean ====
/-
  Two graph-convolution layers (PyG-style GCNConv, a positive part between them) computed by four pipelined regions —
  a dense layer, an aggregation, a dense layer, an aggregation — against the same two layers written with a row gather
  and a segment sum.

  The kernel never indexes by an edge's endpoints: it compares each endpoint with every node number and multiplies the
  resulting zero-or-one matrices on the matrix unit, 256 edges and 6272 nodes at a time, accumulating the node rows
  across 4102 grid points. On the extended reals a zero weight times any value is zero, so the one-hot products pick
  exactly the gathered row and add exactly into the destination row, and the 4102 partial sums, in whatever grouping,
  are the reference's segment sum; the bf16 roundings of the kernel are the identity at the ideal values. The claim
  holds for edge indices in the range of the node arrays, `0 ≤ edge_index < 50000`: outside it the two programs wrap
  and clamp differently.

  The frames of the two kernel programs are the generated ones; the reference's frame is its run with the result
  dropped. The value claim pairs the kernel program's run, with its result named at the last boundary's contents,
  against the reference's run, and reads both results at an entry: the kernel's through the four regions' values
  (KLin, KAgg1, KAgg3, KHost, KValue), the reference's stage by stage (RefValue), joined in Join.
-/
import proofs.«429772_j53867479827167_3_alg».proof.Defs
import proofs.«429772_j53867479827167_3_alg».proof.Proof.Gen.Kernel
import proofs.«429772_j53867479827167_3_alg».proof.Proof.Gen.Kernel.Frame
import proofs.«429772_j53867479827167_3_alg».proof.Proof.Gen.KernelIdeal
import proofs.«429772_j53867479827167_3_alg».proof.Proof.Gen.KernelIdeal.Frame
import proofs.«429772_j53867479827167_3_alg».proof.Proof.Gen.ReferenceIdeal
import proofs.«429772_j53867479827167_3_alg».proof.Proof.Gen.Pre_finite_inputs
import proofs.«429772_j53867479827167_3_alg».proof.Proof.KernelIdealRun
import proofs.«429772_j53867479827167_3_alg».proof.Proof.KValue
import proofs.«429772_j53867479827167_3_alg».proof.Proof.RefRun
import proofs.«429772_j53867479827167_3_alg».proof.Proof.RefValue
import proofs.«429772_j53867479827167_3_alg».proof.Proof.Join
import proofs.«429772_j53867479827167_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read at the ideal values. -/
theorem preserves : Cert.preserves_Kernel_KernelIdeal := trivial

/-- Both programs run; the kernel's result, entry by entry, is the function `outK` of the arguments, the
    reference's is `refOut`, and on arguments whose edge indices are in range these are one function. -/
theorem algebraic : Cert.algebraic_KernelIdeal_ReferenceIdeal := by
  intro m ρ m' ρ' hpre hagree
  refine ⟨fun c => Cert.KernelIdeal.Gen.W9 m ρ c (Proc.devRef .tc Cert.KernelIdeal.main_v43),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨n, f, rfl⟩ : ∃ (n : Fin 50000) (f : Fin 32), i = ix2 n f := ⟨i 0, i 1, eq_ix2 i⟩
  have hr : ∀ (r : Fin 2) (e : Fin 1000000),
      ((m ((c.tc : Thread Cert.KernelIdeal.nD Cert.KernelIdeal.τ).loc Cert.KernelIdeal.main_arg1) : Vec Ideal Cert.KernelIdeal.S2x1000000 .i32) (ix2 r e)).toNat < 50000 :=
    fun r e => Cert.PreDecode.edges_toNat_lt (F := Ideal) _ _ _ _ _ _ (hpre c) r e
  refine (Cert.ReferenceIdeal.RefValue.ref_value m' c n f).trans ?_
  rw [(hagree c).1, (hagree c).2.1, (hagree c).2.2.1, (hagree c).2.2.2.1, (hagree c).2.2.2.2.1, (hagree c).2.2.2.2.2]
  exact ((Cert.Join.outK_eq_refOut _ _ _ _ _ _ hr n f).symm.trans (Cert.KernelIdeal.KValue.kernel_value m ρ c n f).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
